-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v31)) (v2 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_v34) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S500000 : Shape := ⟨1, ![500000]⟩
abbrev S500000x5 : Shape := ⟨2, ![500000, 5]⟩
abbrev S256x128 : Shape := ⟨2, ![256, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S5x128 : Shape := ⟨2, ![5, 128]⟩
abbrev S128x256 : Shape := ⟨2, ![128, 256]⟩
abbrev S256 : Shape := ⟨1, ![256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S500000x5 : S_.BroadcastsInDim S500000x5 (![] : Fin 0 → Fin S500000x5.rank)
  reducesTo_S500000x5_S_d0_1 : S500000x5.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  bcast_S_S5x128 : S_.BroadcastsInDim S5x128 (![] : Fin 0 → Fin S5x128.rank)
  reducesTo_S5x128_S_d0_1 : S5x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S500000 : S_.BroadcastsInDim S500000 (![] : Fin 0 → Fin S500000.rank)
  reducesTo_S500000_S_d0 : S500000.ReducesTo [0] S_

variable [Facts]

def fn_part5 {F : FTy → Type} [FloatOps F] (main_arg1 : IVec S500000 32) (main_arg2 : IVec S500000 32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_c_34 : IVec S_ 32 := constantI S_ 32 0#32
  let main_v89 : IVec S500000 32 := broadcastInDim S500000 ![] bcast_S_S500000 main_c_34
  let main_v90 : IVec S500000 1 := cmpi .sge main_arg1 main_v89
  let main_c_35 : IVec S_ 1 := constantI S_ 1 1#1
  let main_v91 : IVec S_ 1 := (fun x v => Host.reduce IntOp.andi x v reducesTo_S500000_S_d0 h_S_) main_v90 main_c_35
  let main_v92 : IVec S_ 1 := andi main_v88 main_v91
  let main_c_36 : IVec S_ 32 := constantI S_ 32 0#32
  let main_v93 : IVec S500000 32 := broadcastInDim S500000 ![] bcast_S_S500000 main_c_36
  let main_v94 : IVec S500000 1 := cmpi .sge main_arg2 main_v93
  let main_c_37 : IVec S_ 1 := constantI S_ 1 1#1
  let main_v95 : IVec S_ 1 := (fun x v => Host.reduce IntOp.andi x v reducesTo_S500000_S_d0 h_S_) main_v94 main_c_37
  let main_v96 : IVec S_ 1 := andi main_v92 main_v95
  main_v96

def fn_part4 {F : FTy → Type} [FloatOps F] (main_arg1 : IVec S500000 32) (main_arg2 : IVec S500000 32) (main_arg16 : FVec F S128x128 .f32) (main_arg17 : FVec F S128 .f32) (main_arg18 : FVec F S128x256 .f32) (main_arg19 : FVec F S256 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x256 .f32 := Host.absf main_arg18
  let main_cst_30 : FVec F S_ .f32 := constant S_ .f32 0x7F800000#32
  let main_v80 : FVec F S128x256 .f32 := broadcastInDim S128x256 ![] bcast_S_S128x256 main_cst_30
  let main_v81 : IVec S128x256 1 := cmpf .olt main_v79 main_v80
  let main_c_31 : IVec S_ 1 := constantI S_ 1 1#1
  let main_v82 : IVec S_ 1 := (fun x v => Host.reduce IntOp.andi x v reducesTo_S128x256_S_d0_1 h_S_) main_v81 main_c_31
  let main_v83 : IVec S_ 1 := andi main_v78 main_v82
  let main_v84 : FVec F S256 .f32 := Host.absf main_arg19
  let main_cst_32 : FVec F S_ .f32 := constant S_ .f32 0x7F800000#32
  fn_part5 (F := F) main_arg1 main_arg2 main_v83 main_v84 main_cst_32

def fn_part3 {F : FTy → Type} [FloatOps F] (main_arg1 : IVec S500000 32) (main_arg2 : IVec S500000 32) (main_arg13 : FVec F S128 .f32) (main_arg14 : FVec F S128x128 .f32) (main_arg15 : FVec F S128 .f32) (main_arg16 : FVec F S128x128 .f32) (main_arg17 : FVec F S128 .f32) (main_arg18 : FVec F S128x256 .f32) (main_arg19 : FVec F S256 .f32) (main_v48 : IVec S_ 1) (main_v49 : FVec F S5x128 .f32) (main_v50 : FVec F S5x128 .f32) : IVec S_ 1 :=
  let main_v51 : IVec S5x128 1 := cmpf .olt main_v49 main_v50
  let main_c_19 : IVec S_ 1 := constantI S_ 1 1#1
  let main_v52 : IVec S_ 1 := (fun x v => Host.reduce IntOp.andi x v reducesTo_S5x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg2 main_arg16 main_arg17 main_arg18 main_arg19 main_v63 main_v67

def fn_part2 {F : FTy → Type} [FloatOps F] (main_arg1 : IVec S500000 32) (main_arg2 : IVec S500000 32) (main_arg9 : FVec F S128 .f32) (main_arg10 : FVec F S128x10 .f32) (main_arg11 : FVec F S10 .f32) (main_arg12 : FVec F S5x128 .f32) (main_arg13 : FVec F S128 .f32) (main_arg14 : FVec F S128x128 .f32) (main_arg15 : FVec F S128 .f32) (main_arg16 : FVec F S128x128 .f32) (main_arg17 : FVec F S128 .f32) (main_arg18 : FVec F S128x256 .f32) (main_arg19 : FVec F S256 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x10 .f32 := Host.absf main_arg10
  let main_cst_14 : FVec F S_ .f32 := constant S_ .f32 0x7F800000#32
  let main_v40 : FVec F S128x10 .f32 := broadcastInDim S128x10 ![] bcast_S_S128x10 main_cst_14
  let main_v41 : IVec S128x10 1 := cmpf .olt main_v39 main_v40
  let main_c_15 : IVec S_ 1 := constantI S_ 1 1#1
  let main_v42 : IVec S_ 1 := (fun x v => Host.reduce IntOp.andi x v reducesTo_S128x10_S_d0_1 h_S_) main_v41 main_c_15
  let main_v43 : IVec S_ 1 := andi main_v38 main_v42
  let main_v44 : FVec F S10 .f32 := Host.absf main_arg11
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  let main_v49 : FVec F S5x128 .f32 := Host.absf main_arg12
  let main_cst_18 : FVec F S_ .f32 := constant S_ .f32 0x7F800000#32
  let main_v50 : FVec F S5x128 .f32 := broadcastInDim S5x128 ![] bcast_S_S5x128 main_cst_18
  fn_part3 (F := F) main_arg1 main_arg2 main_arg13 main_arg14 main_arg15 main_arg16 main_arg17 main_arg18 main_arg19 main_v48 main_v49 main_v50

def fn_part1 {F : FTy → Type} [FloatOps F] (main_arg1 : IVec S500000 32) (main_arg2 : IVec S500000 32) (main_arg6 : FVec F S128x128 .f32) (main_arg7 : FVec F S128 .f32) (main_arg8 : FVec F S128x128 .f32) (main_arg9 : FVec F S128 .f32) (main_arg10 : FVec F S128x10 .f32) (main_arg11 : FVec F S10 .f32) (main_arg12 : FVec F S5x128 .f32) (main_arg13 : FVec F S128 .f32) (main_arg14 : FVec F S128x128 .f32) (main_arg15 : FVec F S128 .f32) (main_arg16 : FVec F S128x128 .f32) (main_arg17 : FVec F S128 .f32) (main_arg18 : FVec F S128x256 .f32) (main_arg19 : FVec F S256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg2 main_arg9 main_arg10 main_arg11 main_arg12 main_arg13 main_arg14 main_arg15 main_arg16 main_arg17 main_arg18 main_arg19 main_v33

def fn {F : FTy → Type} [FloatOps F] (main_arg0 : FVec F S100000x128 .f32) (main_arg1 : IVec S500000 32) (main_arg2 : IVec S500000 32) (main_arg3 : FVec F S500000x5 .f32) (main_arg4 : FVec F S256x128 .f32) (main_arg5 : FVec F S128 .f32) (main_arg6 : FVec F S128x128 .f32) (main_arg7 : FVec F S128 .f32) (main_arg8 : FVec F S128x128 .f32) (main_arg9 : FVec F S128 .f32) (main_arg10 : FVec F S128x10 .f32) (main_arg11 : FVec F S10 .f32) (main_arg12 : FVec F S5x128 .f32) (main_arg13 : FVec F S128 .f32) (main_arg14 : FVec F S128x128 .f32) (main_arg15 : FVec F S128 .f32) (main_arg16 : FVec F S128x128 .f32) (main_arg17 : FVec F S128 .f32) (main_arg18 : FVec F S128x256 .f32) (main_arg19 : FVec F S256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S500000x5 .f32 := Host.absf main_arg3
  let main_cst_0 : FVec F S_ .f32 := constant S_ .f32 0x7F800000#32
  let main_v5 : FVec F S500000x5 .f32 := broadcastInDim S500000x5 ![] bcast_S_S500000x5 main_cst_0
  let main_v6 : IVec S500000x5 1 := cmpf .olt main_v4 main_v5
  let main_c_1 : IVec S_ 1 := constantI S_ 1 1#1
  let main_v7 : IVec S_ 1 := (fun x v => Host.reduce IntOp.andi x v reducesTo_S500000x5_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg2 main_arg6 main_arg7 main_arg8 main_arg9 main_arg10 main_arg11 main_arg12 main_arg13 main_arg14 main_arg15 main_arg16 main_arg17 main_arg18 main_arg19 main_v13 main_v16
-- ==== Kernel.lean ====
abbrev S100000x128 : Shape := ⟨2, ![100000, 128]⟩
abbrev S500000 : Shape := ⟨1, ![500000]⟩
abbrev S500000x5 : Shape := ⟨2, ![500000, 5]⟩
abbrev S256x128 : Shape := ⟨2, ![256, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S5x128 : Shape := ⟨2, ![5, 128]⟩
abbrev S128x256 : Shape := ⟨2, ![128, 256]⟩
abbrev S256 : Shape := ⟨1, ![256]⟩
abbrev S_ : Shape := ⟨0, ![]⟩
abbrev S503808 : Shape := ⟨1, ![503808]⟩
abbrev S503808x5 : Shape := ⟨2, ![503808, 5]⟩
abbrev S503808x1 : Shape := ⟨2, ![503808, 1]⟩
abbrev S503808x128 : Shape := ⟨2, ![503808, 128]⟩
abbrev S4096x128 : Shape := ⟨2, ![4096, 128]⟩
abbrev S4096x5 : Shape := ⟨2, ![4096, 5]⟩
abbrev S4096 : Shape := ⟨1, ![4096]⟩
abbrev S1x128 : Shape := ⟨2, ![1, 128]⟩
abbrev S4096x10 : Shape := ⟨2, ![4096, 10]⟩
abbrev S1x10 : Shape := ⟨2, ![1, 10]⟩
abbrev S4096x256 : Shape := ⟨2, ![4096, 256]⟩
abbrev S1x256 : Shape := ⟨2, ![1, 256]⟩
abbrev S1x4096 : Shape := ⟨2, ![1, 4096]⟩

abbrev nBuf : Space → Nat
  | .hbm => 85
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S500000, .i32⟩
  | .hbm, ⟨2, _⟩ => ⟨S500000, .i32⟩
  | .hbm, ⟨3, _⟩ => ⟨S500000x5, .f32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x10, .f32⟩
  | .hbm, ⟨11, _⟩ => ⟨S10, .f32⟩
  | .hbm, ⟨12, _⟩ => ⟨S5x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x256, .f32⟩
  | .hbm, ⟨19, _⟩ => ⟨S256, .f32⟩
  | .hbm, ⟨20, _⟩ => ⟨S_, .i32⟩
  | .hbm, ⟨21, _⟩ => ⟨S_, .i32⟩
  | .hbm, ⟨22, _⟩ => ⟨S503808, .i32⟩
  | .hbm, ⟨23, _⟩ => ⟨S_, .i32⟩
  | .hbm, ⟨24, _⟩ => ⟨S_, .i32⟩
  | .hbm, ⟨25, _⟩ => ⟨S503808, .i32⟩
  | .hbm, ⟨26, _⟩ => ⟨S_, .i32⟩
  | .hbm, ⟨27, _⟩ => ⟨S_, .f32⟩
  | .hbm, ⟨28, _⟩ => ⟨S503808x5, .f32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S503808, .i32⟩
  | .hbm, ⟨33, _⟩ => ⟨S503808, .i32⟩
  | .hbm, ⟨34, _⟩ => ⟨S_, .i32⟩
  | .hbm, ⟨35, _⟩ => ⟨S503808, .i32⟩
  | .hbm, ⟨36, _⟩ => ⟨S503808, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S503808, .i32⟩
  | .hbm, ⟨41, _⟩ => ⟨S503808, .i32⟩
  | .hbm, ⟨42, _⟩ => ⟨S_, .i32⟩
  | .hbm, ⟨43, _⟩ => ⟨S503808, .i32⟩
  | .hbm, ⟨44, _⟩ => ⟨S503808, .i32⟩
  | .hbm, ⟨45, _⟩ => ⟨S_, .i32⟩
  | .hbm, ⟨46, _⟩ => ⟨S503808, .i32⟩
  | .hbm, ⟨47, _⟩ => ⟨S503808, .i1⟩
  | .hbm, ⟨48, _⟩ => ⟨S_, .i32⟩
  | .hbm, ⟨49, _⟩ => ⟨S503808, .i32⟩
  | .hbm, ⟨50, _⟩ => ⟨S503808, .i32⟩
  | .hbm, ⟨51, _⟩ => ⟨S503808, .i32⟩
  | .hbm, ⟨52, _⟩ => ⟨S503808x1, .i32⟩
  | .hbm, ⟨53, _⟩ => ⟨S503808x128, .f32⟩
  | .hbm, ⟨54, _⟩ => ⟨S_, .i32⟩
  | .hbm, ⟨55, _⟩ => ⟨S503808, .i32⟩
  | .hbm, ⟨56, _⟩ => ⟨S503808, .i1⟩
  | .hbm, ⟨57, _⟩ => ⟨S_, .i32⟩
  | .hbm, ⟨58, _⟩ => ⟨S503808, .i32⟩
  | .hbm, ⟨59, _⟩ => ⟨S503808, .i32⟩
  | .hbm, ⟨60, _⟩ => ⟨S503808, .i32⟩
  | .hbm, ⟨61, _⟩ => ⟨S503808x1, .i32⟩
  | .hbm, ⟨62, _⟩ => ⟨S503808x128, .f32⟩
  | .hbm, ⟨63, _⟩ => ⟨S256x128, .bf16⟩
  | .hbm, ⟨64, _⟩ => ⟨S128x128, .bf16⟩
  | .hbm, ⟨65, _⟩ => ⟨S128x128, .bf16⟩
  | .hbm, ⟨66, _⟩ => ⟨S128x10, .bf16⟩
  | .hbm, ⟨67, _⟩ => ⟨S5x128, .bf16⟩
  | .hbm, ⟨68, _⟩ => ⟨S128x128, .bf16⟩
  | .hbm, ⟨69, _⟩ => ⟨S128x128, .bf16⟩
  | .hbm, ⟨70, _⟩ => ⟨S128x256, .bf16⟩
  | .hbm, ⟨71, _⟩ => ⟨S503808, .f32⟩
  | .hbm, ⟨72, _⟩ => ⟨S503808, .f32⟩
  | .hbm, ⟨73, _⟩ => ⟨S503808, .f32⟩
  | .hbm, ⟨74, _⟩ => ⟨S500000, .f32⟩
  | .hbm, ⟨75, _⟩ => ⟨S500000, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S500000, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x5, .f32⟩
  | .local _ .vmem, ⟨5, _⟩ => ⟨S4096x5, .f32⟩
  | .local _ .vmem, ⟨6, _⟩ => ⟨S256x128, .bf16⟩
  | .local _ .vmem, ⟨7, _⟩ => ⟨S128, .f32⟩
  | .local _ .vmem, ⟨8, _⟩ => ⟨S128x128, .bf16⟩
  | .local _ .vmem, ⟨9, _⟩ => ⟨S128, .f32⟩
  | .local _ .vmem, ⟨10, _⟩ => ⟨S128x128, .bf16⟩
  | .local _ .vmem, ⟨11, _⟩ => ⟨S128, .f32⟩
  | .local _ .vmem, ⟨12, _⟩ => ⟨S128x10, .bf16⟩
  | .local _ .vmem, ⟨13, _⟩ => ⟨S10, .f32⟩
  | .local _ .vmem, ⟨14, _⟩ => ⟨S5x128, .bf16⟩
  | .local _ .vmem, ⟨15, _⟩ => ⟨S128, .f32⟩
  | .local _ .vmem, ⟨16, _⟩ => ⟨S128x128, .bf16⟩
  | .local _ .vmem, ⟨17, _⟩ => ⟨S128, .f32⟩
  | .local _ .vmem, ⟨18, _⟩ => ⟨S128x128, .bf16⟩
  | .local _ .vmem, ⟨19, _⟩ => ⟨S128, .f32⟩
  | .local _ .vmem, ⟨20, _⟩ => ⟨S128x256, .bf16⟩
  | .local _ .vmem, ⟨21, _⟩ => ⟨S256, .f32⟩
  | .local _ .vmem, ⟨22, _⟩ => ⟨S4096, .f32⟩
  | .local _ .vmem, ⟨23, _⟩ => ⟨S4096, .f32⟩
  | .local _ .vmem, ⟨24, _⟩ => ⟨S4096, .f32⟩
  | .local _ .vmem, ⟨25, _⟩ => ⟨S4096, .f32⟩
  | .local _ .vmem, ⟨26, _⟩ => ⟨S4096, .f32⟩
  | .local _ .vmem, ⟨27, _⟩ => ⟨S4096, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_call0_v0 : Ref sig .tc := ⟨.hbm, 21, rfl⟩
abbrev main_v0 : Ref sig .tc := ⟨.hbm, 22, rfl⟩
abbrev main_c_0 : Ref sig .tc := ⟨.hbm, 23, rfl⟩
abbrev main_call1_v0 : Ref sig .tc := ⟨.hbm, 24, rfl⟩
abbrev main_v1 : Ref sig .tc := ⟨.hbm, 25, rfl⟩
abbrev main_c_1 : Ref sig .tc := ⟨.hbm, 26, rfl⟩
abbrev main_call2_v0 : Ref sig .tc := ⟨.hbm, 27, rfl⟩
abbrev main_v2 : Ref sig .tc := ⟨.hbm, 28, rfl⟩
abbrev main_c_2 : Ref sig .tc := ⟨.hbm, 29, rfl⟩
abbrev main_c_3 : Ref sig .tc := ⟨.hbm, 30, rfl⟩
abbrev main_call3_v0 : Ref sig .tc := ⟨.hbm, 31, rfl⟩
abbrev main_call3_v1 : Ref sig .tc := ⟨.hbm, 32, rfl⟩
abbrev main_call3_v2 : Ref sig .tc := ⟨.hbm, 33, rfl⟩
abbrev main_call3_v3 : Ref sig .tc := ⟨.hbm, 34, rfl⟩
abbrev main_call3_v4 : Ref sig .tc := ⟨.hbm, 35, rfl⟩
abbrev main_v3 : Ref sig .tc := ⟨.hbm, 36, rfl⟩
abbrev main_c_4 : Ref sig .tc := ⟨.hbm, 37, rfl⟩
abbrev main_c_5 : Ref sig .tc := ⟨.hbm, 38, rfl⟩
abbrev main_call4_v0 : Ref sig .tc := ⟨.hbm, 39, rfl⟩
abbrev main_call4_v1 : Ref sig .tc := ⟨.hbm, 40, rfl⟩
abbrev main_call4_v2 : Ref sig .tc := ⟨.hbm, 41, rfl⟩
abbrev main_call4_v3 : Ref sig .tc := ⟨.hbm, 42, rfl⟩
abbrev main_call4_v4 : Ref sig .tc := ⟨.hbm, 43, rfl⟩
abbrev main_v4 : Ref sig .tc := ⟨.hbm, 44, rfl⟩
abbrev main_c_6 : Ref sig .tc := ⟨.hbm, 45, rfl⟩
abbrev main_v5 : Ref sig .tc := ⟨.hbm, 46, rfl⟩
abbrev main_v6 : Ref sig .tc := ⟨.hbm, 47, rfl⟩
abbrev main_c_7 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_c_8 : Ref sig .tc := ⟨.hbm, 54, rfl⟩
abbrev main_v12 : Ref sig .tc := ⟨.hbm, 55, rfl⟩
abbrev main_v13 : Ref sig .tc := ⟨.hbm, 56, rfl⟩
abbrev main_c_9 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27_0 : Ref sig .tc := ⟨.hbm, 71, rfl⟩
abbrev main_v27_1 : Ref sig .tc := ⟨.hbm, 72, rfl⟩
abbrev main_v27_2 : Ref sig .tc := ⟨.hbm, 73, rfl⟩
abbrev main_v28 : Ref sig .tc := ⟨.hbm, 74, rfl⟩
abbrev main_v29 : Ref sig .tc := ⟨.hbm, 75, rfl⟩
abbrev main_cst : Ref sig .tc := ⟨.hbm, 76, rfl⟩
abbrev main_v30 : Ref sig .tc := ⟨.hbm, 77, rfl⟩
abbrev main_cst_10 : Ref sig .tc := ⟨.hbm, 78, rfl⟩
abbrev main_v31 : Ref sig .tc := ⟨.hbm, 79, rfl⟩
abbrev main_v32 : Ref sig .tc := ⟨.hbm, 80, rfl⟩
abbrev main_cst_11 : Ref sig .tc := ⟨.hbm, 81, rfl⟩
abbrev main_v33 : Ref sig .tc := ⟨.hbm, 82, rfl⟩
abbrev main_cst_12 : Ref sig .tc := ⟨.hbm, 83, rfl⟩
abbrev main_v34 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem19_1 : DmaSem sig := 23
abbrev cc0_sem20_0 : DmaSem sig := 24
abbrev cc0_sem20_1 : DmaSem sig := 25
abbrev cc0_sem21_0 : DmaSem sig := 26
abbrev cc0_sem21_1 : DmaSem sig := 27

abbrev nD : Nat := 1
abbrev τ : Topo := Topo.v7x

variable {F : FTy → Type} [FloatOps F]

abbrev grid0 : Pipeline.Grid := ⟨1, ![123], ![false]⟩

def k0_mult1 (i : grid0.Coords) : BitVec 32 :=
  let arg0 : BitVec 32 := BitVec.ofNat 32 (i 0).val
  let c4096_i32 : BitVec 32 := 4096#32
  let v0 : BitVec 32 := Scalar.muli arg0 c4096_i32
  v0
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 1 → Nat :=
  let arg0 : BitVec 32 := BitVec.ofNat 32 (i 0).val
  let c0_i32 : BitVec 32 := 0#32
  ![arg0.toNat]

def cc0_transform_20 (i : grid0.Coords) : Fin 1 → Nat :=
  let arg0 : BitVec 32 := BitVec.ofNat 32 (i 0).val
  let c0_i32 : BitVec 32 := 0#32
  ![arg0.toNat]

def cc0_transform_21 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x10 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S5x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S4096 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S4096 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S4096 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

class Facts₀ : Prop where
  pads_S500000_S503808_038080 : S500000.Pads (![0] : Fin 1 → Nat) ![3808] ![0] S503808
  h_S_ : 0 < S_.numel
  pads_S500000x5_S503808x5_038080_000 : S500000x5.Pads (![0, 0] : Fin 2 → Nat) ![3808, 0] ![0, 0] S503808x5
  bcast_S_S503808 : S_.BroadcastsInDim S503808 (![] : Fin 0 → Fin S503808.rank)
  bcast_S503808_S503808x1_0 : S503808.BroadcastsInDim S503808x1 (![0] : Fin 1 → Fin S503808x1.rank)
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  slices_S256x128_o0_0_S128x128 : S256x128.Slices ![0, 0] S128x128
  slices_S256x128_o128_0_S128x128 : S256x128.Slices ![128, 0] S128x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S10_S10_0 : ∀ a, (![0] : Fin 1 → Nat) a + S10.size a ≤ S10.size a
  h_S10 : 0 < S10.numel
  shapeCasts_S10_S1x10 : S10.ShapeCasts S1x10
  broadcasts_S1x10_S4096x10 : S1x10.Broadcasts S4096x10
  slices_S4096x10_o0_0_S4096x5 : S4096x10.Slices ![0, 0] S4096x5
  slices_S4096x10_o0_5_S4096x5 : S4096x10.Slices ![0, 5] S4096x5
  inb_S4096x5_S4096x5_0_0 : ∀ a, (![0, 0] : Fin 2 → Nat) a + S4096x5.size a ≤ S4096x5.size a
  h_S4096x5 : 0 < S4096x5.numel
  shapeCasts_S4096x5_S4096x5 : S4096x5.ShapeCasts S4096x5
  inb_S5x128_S5x128_0_0 : ∀ a, (![0, 0] : Fin 2 → Nat) a + S5x128.size a ≤ S5x128.size a
  h_S5x128 : 0 < S5x128.numel
  shapeCasts_S5x128_S5x128 : S5x128.ShapeCasts S5x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  slices_S4096x256_o0_0_S4096x128 : S4096x256.Slices ![0, 0] S4096x128
  slices_S4096x256_o0_128_S4096x128 : S4096x256.Slices ![0, 128] S4096x128
  reduces_S4096x128_S4096 : S4096x128.Reduces [1] S4096
  reduces_S4096x5_S4096 : S4096x5.Reduces [1] S4096
  iota_S1x4096_d1_w32 : S1x4096.Iotas .tc 32 [1]
  shapeCasts_S1x4096_S4096 : S1x4096.ShapeCasts S4096
  inb_S4096_S4096_0 : ∀ a, (![0] : Fin 1 → Nat) a + S4096.size a ≤ S4096.size a
  h_S4096 : 0 < S4096.numel
  slices_S503808_S500000_0 : S503808.Slices ![0] S500000
  reducesTo_S500000_S_d0 : S500000.ReducesTo [0] S_
  gather_S100000x128_S503808x1_S503808x128_1_0_n_n_0_1_1128_wf : GatherDims.WF S100000x128 S503808x1 S503808x128 [1] [0] [] [0] [] 1 ![1, 128]
  dot_S4096x128_S128x128_S4096x128_1_0_0_1_n_n_wf : DotDims.WF S4096x128 S128x128 S4096x128 [1] [0] [0] [1] [] []
  dot_S4096x128_S128x10_S4096x10_1_0_0_1_n_n_wf : DotDims.WF S4096x128 S128x10 S4096x10 [1] [0] [0] [1] [] []
  dot_S4096x5_S5x128_S4096x128_1_0_0_1_n_n_wf : DotDims.WF S4096x5 S5x128 S4096x128 [1] [0] [0] [1] [] []
  dot_S4096x128_S128x256_S4096x256_1_0_0_1_n_n_wf : DotDims.WF S4096x128 S128x256 S4096x256 [1] [0] [0] [1] [] []
  hrank0 : 0 < grid0.rank
  k0_mult1_dvd : ∀ i : grid0.Coords, 4096 ∣ (k0_mult1 i).toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S503808x128.size a
  hwx0_0 : ∀ i : grid0.Coords, EltTy.bits .f32 = 32 ∨ (Rect.block (s := S503808x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S503808x128.size a
  hwx0_1 : ∀ i : grid0.Coords, EltTy.bits .f32 = 32 ∨ (Rect.block (s := S503808x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x5.size a ≤ S503808x5.size a
  hwx0_2 : ∀ i : grid0.Coords, EltTy.bits .f32 = 32 ∨ (Rect.block (s := S503808x5) S4096x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x10.size a ≤ S128x10.size a
  hwx0_9 : ∀ i : grid0.Coords, EltTy.bits .bf16 = 32 ∨ (Rect.block (s := S128x10) S128x10.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S10.size a ≤ S10.size a
  hwx0_10 : ∀ i : grid0.Coords, EltTy.bits .f32 = 32 ∨ (Rect.block (s := S10) S10.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S5x128.size a ≤ S5x128.size a
  hwx0_11 : ∀ i : grid0.Coords, EltTy.bits .bf16 = 32 ∨ (Rect.block (s := S5x128) S5x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x128.size a ≤ S128x128.size a
  hwx0_13 : ∀ i : grid0.Coords, EltTy.bits .bf16 = 32 ∨ (Rect.block (s := S128x128) S128x128.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128.size a ≤ S128.size a
  hwx0_14 : ∀ i : grid0.Coords, EltTy.bits .f32 = 32 ∨ (Rect.block (s := S128) S128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x128.size a ≤ S128x128.size a
  hwx0_15 : ∀ i : grid0.Coords, EltTy.bits .bf16 = 32 ∨ (Rect.block (s := S128x128) S128x128.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128.size a ≤ S128.size a
  hwx0_16 : ∀ i : grid0.Coords, EltTy.bits .f32 = 32 ∨ (Rect.block (s := S128) S128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x256.size a ≤ S128x256.size a
  hwx0_17 : ∀ i : grid0.Coords, EltTy.bits .bf16 = 32 ∨ (Rect.block (s := S128x256) S128x256.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256.size a ≤ S256.size a
  hwx0_18 : ∀ i : grid0.Coords, EltTy.bits .f32 = 32 ∨ (Rect.block (s := S256) S256.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S4096.size a ≤ S503808.size a
  hwx0_19 : ∀ i : grid0.Coords, EltTy.bits .f32 = 32 ∨ (Rect.block (s := S503808) S4096.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S4096.size a ≤ S503808.size a
  hwx0_20 : ∀ i : grid0.Coords, EltTy.bits .f32 = 32 ∨ (Rect.block (s := S503808) S4096.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S4096.size a ≤ S503808.size a
  hwx0_21 : ∀ i : grid0.Coords, EltTy.bits .f32 = 32 ∨ (Rect.block (s := S503808) S4096.size (cc0_transform_21 i) (hinb0_21 i)).WholeWords (EltTy.packing .f32)

variable [Facts₀]

def gather_S100000x128_S503808x1_S503808x128_1_0_n_n_0_1_1128 : GatherDims S100000x128 S503808x1 S503808x128 where
  offsetDims := [1]
  collapsedSliceDims := [0]
  operandBatchingDims := []
  startIndicesBatchingDims := []
  startIndexMap := [0]
  indexVectorDim := 1
  sliceSizes := ![1, 128]
  wf := gather_S100000x128_S503808x1_S503808x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x10_S4096x10_1_0_0_1_n_n : DotDims S4096x128 S128x10 S4096x10 where
  lhsContracting := [1]
  rhsContracting := [0]
  lhsNonContracting := [0]
  rhsNonContracting := [1]
  lhsBatch := []
  rhsBatch := []
  wf := dot_S4096x128_S128x10_S4096x10_1_0_0_1_n_n_wf
def dot_S4096x5_S5x128_S4096x128_1_0_0_1_n_n : DotDims S4096x5 S5x128 S4096x128 where
  lhsContracting := [1]
  rhsContracting := [0]
  lhsNonContracting := [0]
  rhsNonContracting := [1]
  lhsBatch := []
  rhsBatch := []
  wf := dot_S4096x5_S5x128_S4096x128_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf

abbrev win0_0 : Pipeline.Window sig grid0 :=
  Pipeline.Window.ofSpec (Memref.whole main_v11) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x5.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S128x10.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S10.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v23) S5x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v24) S128x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg15) S128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v25) S128x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg17) S128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v26) S128x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg19) S256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v27_0) S4096.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v27_1) S4096.size cc0_transform_20 reads0_20 true false 2 stage0_20 sem0_20
    hrank0 hreads0_20 hinb0_20 nbuf0_20 (Memref.isWhole_whole _) hwx0_20 hstage0_20

abbrev win0_21 : Pipeline.Window sig grid0 :=
  Pipeline.Window.ofSpec (Memref.whole main_v27_2) S4096.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S100000x128 : Shape := ⟨2, ![100000, 128]⟩
abbrev S500000 : Shape := ⟨1, ![500000]⟩
abbrev S500000x5 : Shape := ⟨2, ![500000, 5]⟩
abbrev S256x128 : Shape := ⟨2, ![256, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S5x128 : Shape := ⟨2, ![5, 128]⟩
abbrev S128x256 : Shape := ⟨2, ![128, 256]⟩
abbrev S256 : Shape := ⟨1, ![256]⟩
abbrev S_ : Shape := ⟨0, ![]⟩
abbrev S500000x1 : Shape := ⟨2, ![500000, 1]⟩
abbrev S500000x128 : Shape := ⟨2, ![500000, 128]⟩
abbrev S500000x256 : Shape := ⟨2, ![500000, 256]⟩
abbrev S1x128 : Shape := ⟨2, ![1, 128]⟩
abbrev S500000x10 : Shape := ⟨2, ![500000, 10]⟩
abbrev S1x10 : Shape := ⟨2, ![1, 10]⟩
abbrev S1x256 : Shape := ⟨2, ![1, 256]⟩

abbrev nBuf : Space → Nat
  | .hbm => 132
  | .vmem => 0
  | .smem => 0
  | _ => 0

abbrev hbmTy0_0 (i : Nat) : BufTy := match i % 128 with
  | 0 => ⟨S100000x128, .f32⟩
  | 1 => ⟨S500000, .i32⟩
  | 2 => ⟨S500000, .i32⟩
  | 3 => ⟨S500000x5, .f32⟩
  | 4 => ⟨S256x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x10, .f32⟩
  | 11 => ⟨S10, .f32⟩
  | 12 => ⟨S5x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x256, .f32⟩
  | 19 => ⟨S256, .f32⟩
  | 20 => ⟨S_, .i32⟩
  | 21 => ⟨S500000, .i32⟩
  | 22 => ⟨S500000, .i1⟩
  | 23 => ⟨S_, .i32⟩
  | 24 => ⟨S500000, .i32⟩
  | 25 => ⟨S500000, .i32⟩
  | 26 => ⟨S500000, .i32⟩
  | 27 => ⟨S500000x1, .i32⟩
  | 28 => ⟨S500000x128, .f32⟩
  | 29 => ⟨S_, .i32⟩
  | 30 => ⟨S500000, .i32⟩
  | 31 => ⟨S500000, .i1⟩
  | 32 => ⟨S_, .i32⟩
  | 33 => ⟨S500000, .i32⟩
  | 34 => ⟨S500000, .i32⟩
  | 35 => ⟨S500000, .i32⟩
  | 36 => ⟨S500000x1, .i32⟩
  | 37 => ⟨S500000x128, .f32⟩
  | 38 => ⟨S500000x256, .f32⟩
  | 39 => ⟨S500000x128, .f32⟩
  | 40 => ⟨S1x128, .f32⟩
  | 41 => ⟨S500000x128, .f32⟩
  | 42 => ⟨S500000x128, .f32⟩
  | 43 => ⟨S_, .f32⟩
  | 44 => ⟨S500000x128, .f32⟩
  | 45 => ⟨S500000x128, .f32⟩
  | 46 => ⟨S500000x128, .f32⟩
  | 47 => ⟨S1x128, .f32⟩
  | 48 => ⟨S500000x128, .f32⟩
  | 49 => ⟨S500000x128, .f32⟩
  | 50 => ⟨S_, .f32⟩
  | 51 => ⟨S500000x128, .f32⟩
  | 52 => ⟨S500000x128, .f32⟩
  | 53 => ⟨S500000x128, .f32⟩
  | 54 => ⟨S1x128, .f32⟩
  | 55 => ⟨S500000x128, .f32⟩
  | 56 => ⟨S500000x128, .f32⟩
  | 57 => ⟨S_, .f32⟩
  | 58 => ⟨S500000x128, .f32⟩
  | 59 => ⟨S500000x128, .f32⟩
  | 60 => ⟨S500000x10, .f32⟩
  | 61 => ⟨S1x10, .f32⟩
  | 62 => ⟨S500000x10, .f32⟩
  | 63 => ⟨S500000x10, .f32⟩
  | 64 => ⟨S500000x5, .f32⟩
  | 65 => ⟨S500000x5, .f32⟩
  | 66 => ⟨S_, .f32⟩
  | 67 => ⟨S500000x5, .f32⟩
  | 68 => ⟨S500000x5, .f32⟩
  | 69 => ⟨S500000x5, .f32⟩
  | 70 => ⟨S500000x5, .f32⟩
  | 71 => ⟨S500000x5, .f32⟩
  | 72 => ⟨S500000x128, .f32⟩
  | 73 => ⟨S1x128, .f32⟩
  | 74 => ⟨S500000x128, .f32⟩
  | 75 => ⟨S500000x128, .f32⟩
  | 76 => ⟨S_, .f32⟩
  | 77 => ⟨S500000x128, .f32⟩
  | 78 => ⟨S500000x128, .f32⟩
  | 79 => ⟨S500000x128, .f32⟩
  | 80 => ⟨S1x128, .f32⟩
  | 81 => ⟨S500000x128, .f32⟩
  | 82 => ⟨S500000x128, .f32⟩
  | 83 => ⟨S_, .f32⟩
  | 84 => ⟨S500000x128, .f32⟩
  | 85 => ⟨S500000x128, .f32⟩
  | 86 => ⟨S500000x128, .f32⟩
  | 87 => ⟨S1x128, .f32⟩
  | 88 => ⟨S500000x128, .f32⟩
  | 89 => ⟨S500000x128, .f32⟩
  | 90 => ⟨S_, .f32⟩
  | 91 => ⟨S500000x128, .f32⟩
  | 92 => ⟨S500000x128, .f32⟩
  | 93 => ⟨S500000x256, .f32⟩
  | 94 => ⟨S1x256, .f32⟩
  | 95 => ⟨S500000x256, .f32⟩
  | 96 => ⟨S500000x256, .f32⟩
  | 97 => ⟨S500000x256, .f32⟩
  | 98 => ⟨S500000x256, .f32⟩
  | 99 => ⟨S_, .f32⟩
  | 100 => ⟨S500000, .f32⟩
  | 101 => ⟨S500000, .f32⟩
  | 102 => ⟨S_, .f32⟩
  | 103 => ⟨S500000x5, .f32⟩
  | 104 => ⟨S500000x5, .f32⟩
  | 105 => ⟨S500000x5, .f32⟩
  | 106 => ⟨S500000x5, .f32⟩
  | 107 => ⟨S500000x5, .f32⟩
  | 108 => ⟨S500000x5, .f32⟩
  | 109 => ⟨S_, .f32⟩
  | 110 => ⟨S500000x5, .f32⟩
  | 111 => ⟨S500000x5, .f32⟩
  | 112 => ⟨S_, .f32⟩
  | 113 => ⟨S500000x5, .f32⟩
  | 114 => ⟨S500000x5, .f32⟩
  | 115 => ⟨S_, .f32⟩
  | 116 => ⟨S500000, .f32⟩
  | 117 => ⟨S500000, .f32⟩
  | 118 => ⟨S_, .f32⟩
  | 119 => ⟨S500000, .f32⟩
  | 120 => ⟨S500000, .f32⟩
  | 121 => ⟨S_, .f32⟩
  | 122 => ⟨S500000, .f32⟩
  | 123 => ⟨S500000, .f32⟩
  | 124 => ⟨S_, .f32⟩
  | 125 => ⟨S_, .f32⟩
  | 126 => ⟨S_, .f32⟩
  | 127 => ⟨S_, .f32⟩
  | _ => ⟨S100000x128, .f32⟩

abbrev hbmTy0_1 (i : Nat) : BufTy := match i % 128 with
  | 0 => ⟨S_, .f32⟩
  | 1 => ⟨S_, .f32⟩
  | 2 => ⟨S_, .f32⟩
  | 3 => ⟨S_, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_1 : Ref sig .tc := ⟨.hbm, 29, rfl⟩
abbrev main_v7 : Ref sig .tc := ⟨.hbm, 30, rfl⟩
abbrev main_v8 : Ref sig .tc := ⟨.hbm, 31, rfl⟩
abbrev main_c_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_call0_cst : Ref sig .tc := ⟨.hbm, 43, rfl⟩
abbrev main_call0_v0 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_call1_cst : Ref sig .tc := ⟨.hbm, 50, rfl⟩
abbrev main_call1_v0 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_call2_cst : Ref sig .tc := ⟨.hbm, 57, rfl⟩
abbrev main_call2_v0 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_call3_cst : Ref sig .tc := ⟨.hbm, 76, rfl⟩
abbrev main_call3_v0 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_call4_cst : Ref sig .tc := ⟨.hbm, 83, rfl⟩
abbrev main_call4_v0 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_call5_cst : Ref sig .tc := ⟨.hbm, 90, rfl⟩
abbrev main_call5_v0 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_3 : Ref sig .tc := ⟨.hbm, 99, rfl⟩
abbrev main_v62 : Ref sig .tc := ⟨.hbm, 100, rfl⟩
abbrev main_v63 : Ref sig .tc := ⟨.hbm, 101, rfl⟩
abbrev main_cst_4 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_5 : Ref sig .tc := ⟨.hbm, 109, rfl⟩
abbrev main_v70 : Ref sig .tc := ⟨.hbm, 110, rfl⟩
abbrev main_v71 : Ref sig .tc := ⟨.hbm, 111, rfl⟩
abbrev main_cst_6 : Ref sig .tc := ⟨.hbm, 112, rfl⟩
abbrev main_v72 : Ref sig .tc := ⟨.hbm, 113, rfl⟩
abbrev main_v73 : Ref sig .tc := ⟨.hbm, 114, rfl⟩
abbrev main_cst_7 : Ref sig .tc := ⟨.hbm, 115, rfl⟩
abbrev main_v74 : Ref sig .tc := ⟨.hbm, 116, rfl⟩
abbrev main_v75 : Ref sig .tc := ⟨.hbm, 117, rfl⟩
abbrev main_cst_8 : Ref sig .tc := ⟨.hbm, 118, rfl⟩
abbrev main_v76 : Ref sig .tc := ⟨.hbm, 119, rfl⟩
abbrev main_v77 : Ref sig .tc := ⟨.hbm, 120, rfl⟩
abbrev main_cst_9 : Ref sig .tc := ⟨.hbm, 121, rfl⟩
abbrev main_v78 : Ref sig .tc := ⟨.hbm, 122, rfl⟩
abbrev main_v79 : Ref sig .tc := ⟨.hbm, 123, rfl⟩
abbrev main_cst_10 : Ref sig .tc := ⟨.hbm, 124, rfl⟩
abbrev main_v80 : Ref sig .tc := ⟨.hbm, 125, rfl⟩
abbrev main_cst_11 : Ref sig .tc := ⟨.hbm, 126, rfl⟩
abbrev main_v81 : Ref sig .tc := ⟨.hbm, 127, rfl⟩
abbrev main_cst_12 : Ref sig .tc := ⟨.hbm, 128, rfl⟩
abbrev main_v82 : Ref sig .tc := ⟨.hbm, 129, rfl⟩
abbrev main_cst_13 : Ref sig .tc := ⟨.hbm, 130, rfl⟩
abbrev main_v83 : Ref sig .tc := ⟨.hbm, 131, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x256_d1 : Shape.Concatenates [S500000x128, S500000x128] S500000x256 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S10_S1x10_1 : S10.BroadcastsInDim S1x10 (![1] : Fin 1 → Fin S1x10.rank)
  bcast_S1x10_S500000x10_0_1 : S1x10.BroadcastsInDim S500000x10 (![0, 1] : Fin 2 → Fin S500000x10.rank)
  slices_S500000x10_S500000x5_0_0 : S500000x10.Slices ![0, 0] S500000x5
  slices_S500000x10_S500000x5_0_5 : S500000x10.Slices ![0, 5] S500000x5
  bcast_S_S500000x5 : S_.BroadcastsInDim S500000x5 (![] : Fin 0 → Fin S500000x5.rank)
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  reducesTo_S500000x256_S500000_d1 : S500000x256.ReducesTo [1] S500000
  h_S_ : 0 < S_.numel
  reducesTo_S500000_S_d0 : S500000.ReducesTo [0] S_
  reducesTo_S500000x5_S_d0_1 : S500000x5.ReducesTo [0, 1] S_
  gather_S100000x128_S500000x1_S500000x128_1_0_n_n_0_1_1128_wf : GatherDims.WF S100000x128 S500000x1 S500000x128 [1] [0] [] [0] [] 1 ![1, 128]
  dot_S500000x256_S256x128_S500000x128_1_0_0_1_n_n_wf : DotDims.WF S500000x256 S256x128 S500000x128 [1] [0] [0] [1] [] []
  dot_S500000x128_S128x128_S500000x128_1_0_0_1_n_n_wf : DotDims.WF S500000x128 S128x128 S500000x128 [1] [0] [0] [1] [] []
  dot_S500000x128_S128x10_S500000x10_1_0_0_1_n_n_wf : DotDims.WF S500000x128 S128x10 S500000x10 [1] [0] [0] [1] [] []
  dot_S500000x5_S5x128_S500000x128_1_0_0_1_n_n_wf : DotDims.WF S500000x5 S5x128 S500000x128 [1] [0] [0] [1] [] []
  dot_S500000x128_S128x256_S500000x256_1_0_0_1_n_n_wf : DotDims.WF S500000x128 S128x256 S500000x256 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def dot_S500000x128_S128x10_S500000x10_1_0_0_1_n_n : DotDims S500000x128 S128x10 S500000x10 where
  lhsContracting := [1]
  rhsContracting := [0]
  lhsNonContracting := [0]
  rhsNonContracting := [1]
  lhsBatch := []
  rhsBatch := []
  wf := dot_S500000x128_S128x10_S500000x10_1_0_0_1_n_n_wf
def dot_S500000x5_S5x128_S500000x128_1_0_0_1_n_n : DotDims S500000x5 S5x128 S500000x128 where
  lhsContracting := [1]
  rhsContracting := [0]
  lhsNonContracting := [0]
  rhsNonContracting := [1]
  lhsBatch := []
  rhsBatch := []
  wf := dot_S500000x5_S5x128_S500000x128_1_0_0_1_n_n_wf
def dot_S500000x128_S128x256_S500000x256_1_0_0_1_n_n : DotDims S500000x128 S128x256 S500000x256 where
  lhsContracting := [1]
  rhsContracting := [0]
  lhsNonContracting := [0]
  rhsNonContracting := [1]
  lhsBatch := []
  rhsBatch := []
  wf := dot_S500000x128_S128x256_S500000x256_1_0_0_1_n_n_wf

class Facts : Prop extends Facts₀ where

variable [Facts]
-- ==== Proof.LibDense.lean ====
/-
  Dense layers at the ideal values, read entry by entry.

  An affine layer sends an n × k array x, a k × m array w and a row of m biases β to the n × m array whose entry (a, c) is
  ∑ j, x(a, j) · w(j, c) + β(c); a rectifier takes the maximum with 0 entry by entry. On the extended reals both are
  what a kernel's matrix product into a zero accumulator plus a broadcast one-row bias computes, and what a host
  dot_general plus a twice-broadcast bias vector computes (the sums are over the contracted coordinate; neither spelling has
  another term). Three arrays laid side by side along the columns and contracted against one weight array give the sum of
  the three partial products against the weight array's three row bands: a finite sum over k₁ + k₂ + k₃ terms split at k₁
  and k₁ + k₂, which needs only that addition is associative and commutative, so it holds at the infinities too.
  Entry (a, c) of a layer depends on row a of its input only, so a network of such layers applied to a block of rows
  agrees with the network applied to the whole array on the rows of the block.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember

noncomputable section

open scoped BigOperators

namespace Cert.LibDense

open Idealize.ShloMosaic Idealize.ShloMosaic.ValueIdx

/-- An n × m array of extended reals. -/
abbrev Mat (n m : Nat) : Type := (⟨2, ![n, m]⟩ : Shape).Idx → EReal

section Layers
variable {n k m : Nat}

/-- The affine layer: entry (a, c) is ∑ j, x(a, j) · w(j, c) + β(c). -/
def aff (x : Mat n k) (w : Mat k m) (β : Fin m → EReal) : Mat n m :=
  fun i => ∑ j : Fin k, x (ix2 (i 0) j) * w (ix2 j (i 1)) + β (i 1)

theorem aff_apply (x : Mat n k) (w : Mat k m) (β : Fin m → EReal) (a : Fin n) (c : Fin m) :
    aff x w β (ix2 a c) = ∑ j : Fin k, x (ix2 a j) * w (ix2 j c) + β c := rfl

/-- The rectifier: the maximum with 0, entry by entry. -/
def relu (y : Mat n m) : Mat n m := fun i => max (y i) 0

theorem relu_apply (y : Mat n m) (i : (⟨2, ![n, m]⟩ : Shape).Idx) : relu y i = max (y i) 0 := rfl

/-- A kernel's layer: the matrix product accumulated into a zero splat, plus a one-row bias broadcast down the rows. -/
theorem kernel_layer {φ₁ φ₂ : FTy} (d : DotDims ⟨2, ![n, k]⟩ ⟨2, ![k, m]⟩ ⟨2, ![n, m]⟩) (hd : d = DotDims.plain n k m)
    (x : FVec Ideal ⟨2, ![n, k]⟩ φ₁) (w : FVec Ideal ⟨2, ![k, m]⟩ φ₂) (brow : FVec Ideal ⟨2, ![1, m]⟩ .f32)
    (hb : (⟨2, ![1, m]⟩ : Shape).Broadcasts ⟨2, ![n, m]⟩) :
    addf (matmul d none x w (constant ⟨2, ![n, m]⟩ .f32 0x00000000#32)) (broadcastTo ⟨2, ![n, m]⟩ brow hb)
      = aff x w (fun c => brow (ix2 (0 : Fin 1) c)) := by
  subst hd
  funext i
  obtain ⟨a, c, rfl⟩ : ∃ (a : Fin n) (c : Fin m), i = ix2 a c := ⟨i 0, i 1, eq_ix2 i⟩
  rw [addf_apply, matmul_zero_eq_dotGeneral, StackMember.dotGeneral_plain_apply, broadcastTo_1b_ab_apply]
  rfl

/-- A kernel's matrix product into a zero splat, with no bias: the sums alone. -/
theorem kernel_product {φ₁ φ₂ : FTy} (d : DotDims ⟨2, ![n, k]⟩ ⟨2, ![k, m]⟩ ⟨2, ![n, m]⟩) (hd : d = DotDims.plain n k m)
    (x : FVec Ideal ⟨2, ![n, k]⟩ φ₁) (w : FVec Ideal ⟨2, ![k, m]⟩ φ₂) (a : Fin n) (c : Fin m) :
    matmul d none x w (constant ⟨2, ![n, m]⟩ .f32 0x00000000#32) (ix2 a c) = ∑ j : Fin k, x (ix2 a j) * w (ix2 j c) := by
  subst hd
  rw [matmul_zero_eq_dotGeneral, StackMember.dotGeneral_plain_apply]

/-- A vector laid out as one row reads, at (0, c), the vector at c. -/
theorem row_of_vector {α : Type} (b : (⟨1, ![m]⟩ : Shape).Idx → α)
    (h1 : (⟨1, ![m]⟩ : Shape).BroadcastsInDim ⟨2, ![1, m]⟩ ![1]) (c : Fin m) :
    broadcastInDim ⟨2, ![1, m]⟩ ![1] h1 b (ix2 (0 : Fin 1) c) = b (ix1 c) := by
  refine broadcastInDim_apply ![1] h1 b (ix2 (0 : Fin 1) c) (ix1 c) ?_
  intro a
  match a with
  | ⟨0, _⟩ =>
    show c.val = if m = 1 then 0 else c.val
    split
    · have := c.isLt; omega
    · rfl

/-- The host's layer: the dot_general plus the bias vector laid out as a row and broadcast down the rows. -/
theorem host_layer {φ₁ φ₂ : FTy} (d : DotDims ⟨2, ![n, k]⟩ ⟨2, ![k, m]⟩ ⟨2, ![n, m]⟩) (hd : d = DotDims.plain n k m)
    (x : FVec Ideal ⟨2, ![n, k]⟩ φ₁) (w : FVec Ideal ⟨2, ![k, m]⟩ φ₂) (b : FVec Ideal ⟨1, ![m]⟩ .f32)
    (h1 : (⟨1, ![m]⟩ : Shape).BroadcastsInDim ⟨2, ![1, m]⟩ ![1])
    (h2 : (⟨2, ![1, m]⟩ : Shape).BroadcastsInDim ⟨2, ![n, m]⟩ ![0, 1]) :
    addf (Host.dotGeneral d none x w) (broadcastInDim ⟨2, ![n, m]⟩ ![0, 1] h2 (broadcastInDim ⟨2, ![1, m]⟩ ![1] h1 b))
      = aff x w (fun c => b (ix1 c)) := by
  subst hd
  funext i
  obtain ⟨a, c, rfl⟩ : ∃ (a : Fin n) (c : Fin m), i = ix2 a c := ⟨i 0, i 1, eq_ix2 i⟩
  rw [addf_apply, StackMember.dotGeneral_plain_apply, broadcastInDim_oneRow_apply, row_of_vector]
  rfl

/-- A kernel's rectifier: the maximum with a splat of the zero word. -/
theorem kernel_relu (y : FVec Ideal ⟨2, ![n, m]⟩ .f32) :
    maximumf y (broadcast ⟨2, ![n, m]⟩ (Scalar.ofBits (F := Ideal) .f32 0x00000000#32)) = relu y := by
  funext i
  show max (y i) (Ideal.ofBits .f32 0x00000000#32) = max (y i) 0
  rw [Ideal.ofBits_zero_f32]

/-- The host's rectifier: the maximum with the zero constant broadcast to the array's shape. -/
theorem host_relu (y : FVec Ideal ⟨2, ![n, m]⟩ .f32)
    (h : (⟨0, ![]⟩ : Shape).BroadcastsInDim ⟨2, ![n, m]⟩ (![] : Fin 0 → Fin 2)) :
    maximumf y (broadcastInDim ⟨2, ![n, m]⟩ ![] h (constant (F := Ideal) ⟨0, ![]⟩ .f32 0x00000000#32)) = relu y := by
  funext i
  rw [maximumf_apply, broadcastInDim_apply ![] h _ i ix0 (fun a => a.elim0), constant_apply, Ideal.ofBits_zero_f32]
  rfl

/-- At the ideal values a narrowing change of format is the identity on the whole array. -/
theorem truncf_id {s : Shape} {φ ψ : FTy} (a : FVec Ideal s φ) (h : ψ.bits < φ.bits) :
    (truncf ψ a h : s.Idx → EReal) = a := rfl

end Layers

/-! ## Three arrays side by side, contracted against one weight array -/

section Split
variable {n k₁ k₂ k₃ K m : Nat}

/-- Three arrays of k₁, k₂ and k₃ columns laid side by side. -/
def cat3 (hK : k₁ + k₂ + k₃ = K) (x₁ : Mat n k₁) (x₂ : Mat n k₂) (x₃ : Mat n k₃) : Mat n K := fun i =>
  if h₁ : (i 1).val < k₁ then x₁ (ix2 (i 0) ⟨(i 1).val, h₁⟩)
  else if h₂ : (i 1).val < k₁ + k₂ then x₂ (ix2 (i 0) ⟨(i 1).val - k₁, by omega⟩)
  else x₃ (ix2 (i 0) ⟨(i 1).val - (k₁ + k₂), by have := idx2_lt1 i; omega⟩)

theorem cat3_apply (hK : k₁ + k₂ + k₃ = K) (x₁ : Mat n k₁) (x₂ : Mat n k₂) (x₃ : Mat n k₃) (a : Fin n) (j : Fin K) :
    cat3 hK x₁ x₂ x₃ (ix2 a j)
      = if h₁ : j.val < k₁ then x₁ (ix2 a ⟨j.val, h₁⟩)
        else if h₂ : j.val < k₁ + k₂ then x₂ (ix2 a ⟨j.val - k₁, by omega⟩)
        else x₃ (ix2 a ⟨j.val - (k₁ + k₂), by have := j.isLt; omega⟩) := rfl

/-- Rows o, o + 1, … of a weight array, as many as the band has. -/
def band {k : Nat} (o : Nat) (ho : o + k ≤ K) (w : Mat K m) : Mat k m :=
  fun i => w (ix2 ⟨o + (i 0).val, by have := idx2_lt0 i; omega⟩ (i 1))

/-- The first layer in its three-product form: the partial products against the three row bands, then the bias. -/
def aff3 (x₁ : Mat n k₁) (x₂ : Mat n k₂) (x₃ : Mat n k₃) (w₁ : Mat k₁ m) (w₂ : Mat k₂ m) (w₃ : Mat k₃ m)
    (β : Fin m → EReal) : Mat n m :=
  fun i => (∑ j : Fin k₁, x₁ (ix2 (i 0) j) * w₁ (ix2 j (i 1)) + ∑ j : Fin k₂, x₂ (ix2 (i 0) j) * w₂ (ix2 j (i 1)))
    + ∑ j : Fin k₃, x₃ (ix2 (i 0) j) * w₃ (ix2 j (i 1)) + β (i 1)

theorem aff3_apply (x₁ : Mat n k₁) (x₂ : Mat n k₂) (x₃ : Mat n k₃) (w₁ : Mat k₁ m) (w₂ : Mat k₂ m) (w₃ : Mat k₃ m)
    (β : Fin m → EReal) (a : Fin n) (c : Fin m) :
    aff3 x₁ x₂ x₃ w₁ w₂ w₃ β (ix2 a c)
      = (∑ j : Fin k₁, x₁ (ix2 a j) * w₁ (ix2 j c) + ∑ j : Fin k₂, x₂ (ix2 a j) * w₂ (ix2 j c))
        + ∑ j : Fin k₃, x₃ (ix2 a j) * w₃ (ix2 j c) + β c := rfl

/-- A kernel's first layer written as three matrix products into zero splats, added, plus a one-row bias broadcast down
    the rows: the three-product form. -/
theorem kernel_layer3 {φ₁ φ₂ φ₃ ψ₁ ψ₂ ψ₃ : FTy}
    (d₁ : DotDims ⟨2, ![n, k₁]⟩ ⟨2, ![k₁, m]⟩ ⟨2, ![n, m]⟩) (hd₁ : d₁ = DotDims.plain n k₁ m)
    (d₂ : DotDims ⟨2, ![n, k₂]⟩ ⟨2, ![k₂, m]⟩ ⟨2, ![n, m]⟩) (hd₂ : d₂ = DotDims.plain n k₂ m)
    (d₃ : DotDims ⟨2, ![n, k₃]⟩ ⟨2, ![k₃, m]⟩ ⟨2, ![n, m]⟩) (hd₃ : d₃ = DotDims.plain n k₃ m)
    (x₁ : FVec Ideal ⟨2, ![n, k₁]⟩ φ₁) (w₁ : FVec Ideal ⟨2, ![k₁, m]⟩ ψ₁)
    (x₂ : FVec Ideal ⟨2, ![n, k₂]⟩ φ₂) (w₂ : FVec Ideal ⟨2, ![k₂, m]⟩ ψ₂)
    (x₃ : FVec Ideal ⟨2, ![n, k₃]⟩ φ₃) (w₃ : FVec Ideal ⟨2, ![k₃, m]⟩ ψ₃)
    (brow : FVec Ideal ⟨2, ![1, m]⟩ .f32) (hb : (⟨2, ![1, m]⟩ : Shape).Broadcasts ⟨2, ![n, m]⟩) :
    addf (addf (addf (matmul d₁ none x₁ w₁ (constant ⟨2, ![n, m]⟩ .f32 0x00000000#32))
          (matmul d₂ none x₂ w₂ (constant ⟨2, ![n, m]⟩ .f32 0x00000000#32)))
        (matmul d₃ none x₃ w₃ (constant ⟨2, ![n, m]⟩ .f32 0x00000000#32)))
      (broadcastTo ⟨2, ![n, m]⟩ brow hb)
      = aff3 x₁ x₂ x₃ w₁ w₂ w₃ (fun c => brow (ix2 (0 : Fin 1) c)) := by
  funext i
  obtain ⟨a, c, rfl⟩ : ∃ (a : Fin n) (c : Fin m), i = ix2 a c := ⟨i 0, i 1, eq_ix2 i⟩
  rw [addf_apply, addf_apply, addf_apply, kernel_product d₁ hd₁, kernel_product d₂ hd₂, kernel_product d₃ hd₃,
    broadcastTo_1b_ab_apply]
  rfl

/-- THE LAW: contracting the side-by-side array against a weight array is the sum of the three partial products against
    its row bands. A finite sum split in three; no cancellation, so it holds at the infinities. -/
theorem aff_cat3 (hK : k₁ + k₂ + k₃ = K) (x₁ : Mat n k₁) (x₂ : Mat n k₂) (x₃ : Mat n k₃) (w : Mat K m)
    (β : Fin m → EReal) :
    aff (cat3 hK x₁ x₂ x₃) w β
      = aff3 x₁ x₂ x₃ (band 0 (by omega) w) (band k₁ (by omega) w) (band (k₁ + k₂) (by omega) w) β := by
  subst hK
  funext i
  obtain ⟨a, c, rfl⟩ : ∃ (a : Fin n) (c : Fin m), i = ix2 a c := ⟨i 0, i 1, eq_ix2 i⟩
  rw [aff_apply, aff3_apply, Fin.sum_univ_add, Fin.sum_univ_add]
  congr 1
  congr 1
  · congr 1
    · refine Finset.sum_congr rfl fun j _ => ?_
      have hj : (Fin.castAdd k₃ (Fin.castAdd k₂ j)).val < k₁ := j.isLt
      have e : cat3 rfl x₁ x₂ x₃ (ix2 a (Fin.castAdd k₃ (Fin.castAdd k₂ j))) = x₁ (ix2 a j) := by
        rw [cat3_apply, dif_pos hj]
        rfl
      rw [e]
      refine congrArg (x₁ (ix2 a j) * ·) (congrArg w ?_)
      funext ax
      match ax with
      | ⟨0, _⟩ => exact Fin.ext (by show j.val = 0 + j.val; omega)
      | ⟨1, _⟩ => rfl
    · refine Finset.sum_congr rfl fun j _ => ?_
      have hv : (Fin.castAdd k₃ (Fin.natAdd k₁ j)).val = k₁ + j.val := rfl
      have hn : ¬ (Fin.castAdd k₃ (Fin.natAdd k₁ j)).val < k₁ := by rw [hv]; omega
      have hj : (Fin.castAdd k₃ (Fin.natAdd k₁ j)).val < k₁ + k₂ := by rw [hv]; have := j.isLt; omega
      have e : cat3 rfl x₁ x₂ x₃ (ix2 a (Fin.castAdd k₃ (Fin.natAdd k₁ j))) = x₂ (ix2 a j) := by
        rw [cat3_apply, dif_neg hn, dif_pos hj]
        refine congrArg x₂ ?_
        funext ax
        match ax with
        | ⟨0, _⟩ => rfl
        | ⟨1, _⟩ => exact Fin.ext (by show k₁ + j.val - k₁ = j.val; omega)
      rw [e]
      refine congrArg (x₂ (ix2 a j) * ·) (congrArg w ?_)
      funext ax
      match ax with
      | ⟨0, _⟩ => rfl
      | ⟨1, _⟩ => rfl
  · refine Finset.sum_congr rfl fun j _ => ?_
    have hv : (Fin.natAdd (k₁ + k₂) j).val = k₁ + k₂ + j.val := rfl
    have hn₁ : ¬ (Fin.natAdd (k₁ + k₂) j).val < k₁ := by rw [hv]; omega
    have hn₂ : ¬ (Fin.natAdd (k₁ + k₂) j).val < k₁ + k₂ := by rw [hv]; omega
    have e : cat3 rfl x₁ x₂ x₃ (ix2 a (Fin.natAdd (k₁ + k₂) j)) = x₃ (ix2 a j) := by
      rw [cat3_apply, dif_neg hn₁, dif_neg hn₂]
      refine congrArg x₃ ?_
      funext ax
      match ax with
      | ⟨0, _⟩ => rfl
      | ⟨1, _⟩ => exact Fin.ext (by show k₁ + k₂ + j.val - (k₁ + k₂) = j.val; omega)
    rw [e]
    refine congrArg (x₃ (ix2 a j) * ·) (congrArg w ?_)
    funext ax
    match ax with
    | ⟨0, _⟩ => rfl
    | ⟨1, _⟩ => rfl

end Split

/-! ## A layer's row depends on the same row of its input -/

section Rows
variable {n n' k m : Nat}

/-- Row p of x' is row r of x. -/
def RowEq (x' : Mat n' k) (x : Mat n k) (p : Fin n') (r : Fin n) : Prop := ∀ j : Fin k, x' (ix2 p j) = x (ix2 r j)

theorem RowEq.aff {x' : Mat n' k} {x : Mat n k} {p : Fin n'} {r : Fin n} (h : RowEq x' x p r) (w : Mat k m)
    (β : Fin m → EReal) : RowEq (aff x' w β) (aff x w β) p r := fun c => by
  rw [aff_apply, aff_apply]
  exact congrArg (· + β c) (Finset.sum_congr rfl fun j _ => by rw [h j])

theorem RowEq.relu {x' : Mat n' k} {x : Mat n k} {p : Fin n'} {r : Fin n} (h : RowEq x' x p r) :
    RowEq (relu x') (relu x) p r := fun c => by
  rw [relu_apply, relu_apply, h c]

theorem RowEq.aff3 {k₁ k₂ k₃ : Nat} {x₁' : Mat n' k₁} {x₁ : Mat n k₁} {x₂' : Mat n' k₂} {x₂ : Mat n k₂}
    {x₃' : Mat n' k₃} {x₃ : Mat n k₃} {p : Fin n'} {r : Fin n}
    (h₁ : RowEq x₁' x₁ p r) (h₂ : RowEq x₂' x₂ p r) (h₃ : RowEq x₃' x₃ p r)
    (w₁ : Mat k₁ m) (w₂ : Mat k₂ m) (w₃ : Mat k₃ m) (β : Fin m → EReal) :
    RowEq (aff3 x₁' x₂' x₃' w₁ w₂ w₃ β) (aff3 x₁ x₂ x₃ w₁ w₂ w₃ β) p r := fun c => by
  rw [aff3_apply, aff3_apply]
  have e₁ : ∑ j : Fin k₁, x₁' (ix2 p j) * w₁ (ix2 j c) = ∑ j : Fin k₁, x₁ (ix2 r j) * w₁ (ix2 j c) :=
    Finset.sum_congr rfl fun j _ => by rw [h₁ j]
  have e₂ : ∑ j : Fin k₂, x₂' (ix2 p j) * w₂ (ix2 j c) = ∑ j : Fin k₂, x₂ (ix2 r j) * w₂ (ix2 j c) :=
    Finset.sum_congr rfl fun j _ => by rw [h₂ j]
  have e₃ : ∑ j : Fin k₃, x₃' (ix2 p j) * w₃ (ix2 j c) = ∑ j : Fin k₃, x₃ (ix2 r j) * w₃ (ix2 j c) :=
    Finset.sum_congr rfl fun j _ => by rw [h₃ j]
  rw [e₁, e₂, e₃]

end Rows

end Cert.LibDense

end
-- ==== Proof.Edge.lean ====
/-
  The network of one edge, on the extended reals.

  An edge carries the feature rows r and c of its two end nodes (128 entries each) and a row ε of 5 noise entries.
  The encoder sends the pair (r, c), read as one row of 256 entries, through three rectified affine layers and a fourth
  affine layer to 10 numbers: 5 means μ and 5 log-variances λ. The latent row is z = μ + ε · exp(λ / 2). The decoder sends
  z through three rectified affine layers and a fourth affine layer to a reconstruction ρ of the 256 entries. The edge's
  reconstruction loss is the Euclidean distance between ρ and (r, c), its affinity is 1 / (1 + 3.5 · loss), and its
  divergence is the sum over the 5 latent coordinates of −0.5 · (1 + λ − μ² − exp λ) · 10.

  The first layer is written in its two-product form: the product of r with the upper 128 rows of the 256 × 128 weight
  array plus the product of c with its lower 128 rows; the loss is written as the sum of the squared distances on the
  first 128 and on the last 128 entries. Both are the one-product and one-sum forms over the pair row, split at entry 128:
  finite sums regrouped, which holds on the extended reals at the infinities too (`aff_pair`, `sq_pair`).
-/
import proofs.«417158_j34479997452839_3_alg».proof.Proof.LibDense

noncomputable section

open scoped BigOperators

namespace Cert.Edge

open Cert.LibDense Idealize.ShloMosaic Idealize.ShloMosaic.ValueIdx

/-- A row of k extended reals. -/
abbrev Row (k : Nat) : Type := Fin k → EReal

/-- Row a of an n × k array. -/
def row {n k : Nat} (x : Mat n k) (a : Fin n) : Row k := fun j => x (ix2 a j)

/-- A vector of k entries as a row. -/
def vrow {k : Nat} (b : (⟨1, ![k]⟩ : Shape).Idx → EReal) : Row k := fun j => b (ix1 j)

/-- The affine layer on one row: entry c is ∑ j, h(j) · w(j, c) + β(c). -/
def rAff {k m : Nat} (h : Row k) (w : Mat k m) (β : Row m) : Row m := fun c => ∑ j : Fin k, h j * w (ix2 j c) + β c

/-- The rectifier on one row. -/
def rRelu {m : Nat} (h : Row m) : Row m := fun c => max (h c) 0

theorem row_aff {n k m : Nat} (x : Mat n k) (w : Mat k m) (β : Row m) (a : Fin n) :
    row (aff x w β) a = rAff (row x a) w β := rfl

theorem row_relu {n m : Nat} (y : Mat n m) (a : Fin n) : row (relu y) a = rRelu (row y a) := rfl

/-- The upper 128 rows of the first layer's weights. -/
def top (w : Mat 256 128) : Mat 128 128 := fun i => w (ix2 ⟨(i 0).val, by have := idx2_lt0 i; omega⟩ (i 1))

/-- The lower 128 rows of the first layer's weights. -/
def bot (w : Mat 256 128) : Mat 128 128 := fun i => w (ix2 ⟨128 + (i 0).val, by have := idx2_lt0 i; omega⟩ (i 1))

/-- The pair (r, c) as one row of 256 entries. -/
def pairRow (r c : Row 128) : Row 256 := fun j =>
  if h : j.val < 128 then r ⟨j.val, h⟩ else c ⟨j.val - 128, by have := j.isLt; omega⟩

/-- The first layer in its two-product form, rectified. -/
def h1 (W0 : Mat 256 128) (b0 : Row 128) (r c : Row 128) : Row 128 :=
  rRelu fun q => (∑ j : Fin 128, r j * top W0 (ix2 j q) + ∑ j : Fin 128, c j * bot W0 (ix2 j q)) + b0 q

/-- The encoder up to its third layer's affine part (before that layer's rectifier). -/
def h3pre (W0 : Mat 256 128) (b0 : Row 128) (W1 : Mat 128 128) (b1 : Row 128) (W2 : Mat 128 128) (b2 : Row 128)
    (r c : Row 128) : Row 128 :=
  rAff (rRelu (rAff (h1 W0 b0 r c) W1 b1)) W2 b2

/-- The encoder's 10 outputs from the third layer's affine part. -/
def encOf (W3 : Mat 128 10) (b3 : Row 10) (h : Row 128) : Row 10 := rAff (rRelu h) W3 b3

/-- The 5 means. -/
def mu (e : Row 10) : Row 5 := fun l => e ⟨l.val, by have := l.isLt; omega⟩

/-- The 5 log-variances. -/
def lv (e : Row 10) : Row 5 := fun l => e ⟨5 + l.val, by have := l.isLt; omega⟩

/-- The latent row μ + ε · exp(λ / 2); the half is the float word 0x3F000000. -/
def zlat (e : Row 10) (ε : Row 5) : Row 5 := fun l =>
  mu e l + ε l * Ideal.exp (Ideal.ofBits .f32 0x3F000000#32 * lv e l)

/-- The decoder's first two rectified layers. -/
def dec2 (D0 : Mat 5 128) (d0 : Row 128) (D1 : Mat 128 128) (d1 : Row 128) (z : Row 5) : Row 128 :=
  rRelu (rAff (rRelu (rAff z D0 d0)) D1 d1)

/-- The decoder's third (rectified) and fourth layers: the reconstruction. -/
def recon (D2 : Mat 128 128) (d2 : Row 128) (D3 : Mat 128 256) (d3 : Row 256) (h : Row 128) : Row 256 :=
  rAff (rRelu (rAff h D2 d2)) D3 d3

/-- The reconstruction loss in its two-sum form. -/
def rloss (ρ : Row 256) (r c : Row 128) : EReal :=
  Ideal.sqrt
    ((∑ j : Fin 128, (ρ ⟨j.val, by have := j.isLt; omega⟩ - r j) * (ρ ⟨j.val, by have := j.isLt; omega⟩ - r j))
      + ∑ j : Fin 128, (ρ ⟨128 + j.val, by have := j.isLt; omega⟩ - c j) * (ρ ⟨128 + j.val, by have := j.isLt; omega⟩ - c j))

/-- The affinity 1 / (1 + 3.5 · loss); the words are 1.0 = 0x3F800000 and 3.5 = 0x40600000. -/
def affin (t : EReal) : EReal :=
  Ideal.div (Ideal.ofBits .f32 0x3F800000#32) (Ideal.ofBits .f32 0x3F800000#32 + Ideal.ofBits .f32 0x40600000#32 * t)

/-- The divergence of one edge: ∑ l, (−0.5 · (((1 + λ l) − μ l · μ l) − exp (λ l))) · 10. -/
def klrow (e : Row 10) : EReal :=
  ∑ l : Fin 5, (Ideal.ofBits .f32 0xBF000000#32
      * (((Ideal.ofBits .f32 0x3F800000#32 + lv e l) - mu e l * mu e l) - Ideal.exp (lv e l)))
    * Ideal.ofBits .f32 0x41200000#32

/-- The sixteen weight arrays. -/
structure Params where
  W0 : Mat 256 128
  b0 : Row 128
  W1 : Mat 128 128
  b1 : Row 128
  W2 : Mat 128 128
  b2 : Row 128
  W3 : Mat 128 10
  b3 : Row 10
  D0 : Mat 5 128
  d0 : Row 128
  D1 : Mat 128 128
  d1 : Row 128
  D2 : Mat 128 128
  d2 : Row 128
  D3 : Mat 128 256
  d3 : Row 256

/-- The encoder's 10 outputs of an edge. -/
def enc (P : Params) (r c : Row 128) : Row 10 := encOf P.W3 P.b3 (h3pre P.W0 P.b0 P.W1 P.b1 P.W2 P.b2 r c)

/-- The reconstruction loss of an edge. -/
def edgeLoss (P : Params) (r c : Row 128) (ε : Row 5) : EReal :=
  rloss (recon P.D2 P.d2 P.D3 P.d3 (dec2 P.D0 P.d0 P.D1 P.d1 (zlat (enc P r c) ε))) r c

/-- The affinity of an edge. -/
def edgeAff (P : Params) (r c : Row 128) (ε : Row 5) : EReal := affin (edgeLoss P r c ε)

/-- The divergence of an edge. -/
def edgeKl (P : Params) (r c : Row 128) : EReal := klrow (enc P r c)

end Cert.Edge

end
-- ==== Proof.Spec.lean ====
/-
  The three results as functions of the argument arrays.

  Edge e joins the nodes that the index words row(e) and col(e) name; a word names the node whose number is the word read
  as a signed integer, a negative word read as 0 and a word past the last node as the last node. The first result is
  the vector of the 500000 edges' affinities; the second is the mean of their reconstruction losses (the sum, from the
  zero word, divided by the float 500000); the third is the mean of their divergences over the 500000 · 5 latent
  coordinates (the sum of the per-edge sums, from the zero word, divided by the float 2500000).
-/
import proofs.«417158_j34479997452839_3_alg».proof.Proof.Edge

noncomputable section

open scoped BigOperators

namespace Cert.Spec

open Cert.Edge Cert.LibDense Idealize.ShloMosaic Idealize.ShloMosaic.ValueIdx

/-- A vector of n extended reals. -/
abbrev V1 (n : Nat) : Type := (⟨1, ![n]⟩ : Shape).Idx → EReal

/-- A vector of n 32-bit words. -/
abbrev I1 (n : Nat) : Type := (⟨1, ![n]⟩ : Shape).Idx → BitVec 32

/-- The node an index word names. -/
def node (w : BitVec 32) : Fin 100000 := ⟨min w.toInt.toNat 99999, by omega⟩

/-- The sixteen weight arrays as the arguments give them. -/
def aparams (a4 : Mat 256 128) (a5 : V1 128) (a6 : Mat 128 128) (a7 : V1 128) (a8 : Mat 128 128) (a9 : V1 128)
    (a10 : Mat 128 10) (a11 : V1 10) (a12 : Mat 5 128) (a13 : V1 128) (a14 : Mat 128 128) (a15 : V1 128)
    (a16 : Mat 128 128) (a17 : V1 128) (a18 : Mat 128 256) (a19 : V1 256) : Params :=
  ⟨a4, vrow a5, a6, vrow a7, a8, vrow a9, a10, vrow a11, a12, vrow a13, a14, vrow a15, a16, vrow a17, a18, vrow a19⟩

/-- The affinity of edge e. -/
def affAt (x : Mat 100000 128) (rw cl : I1 500000) (ε : Mat 500000 5) (P : Params) (e : Fin 500000) : EReal :=
  edgeAff P (row x (node (rw (ix1 e)))) (row x (node (cl (ix1 e)))) (row ε e)

/-- The reconstruction loss of edge e. -/
def lossAt (x : Mat 100000 128) (rw cl : I1 500000) (ε : Mat 500000 5) (P : Params) (e : Fin 500000) : EReal :=
  edgeLoss P (row x (node (rw (ix1 e)))) (row x (node (cl (ix1 e)))) (row ε e)

/-- The divergence of edge e. -/
def klAt (x : Mat 100000 128) (rw cl : I1 500000) (P : Params) (e : Fin 500000) : EReal :=
  edgeKl P (row x (node (rw (ix1 e)))) (row x (node (cl (ix1 e))))

/-- The first result: every edge's affinity. -/
def affArr (x : Mat 100000 128) (rw cl : I1 500000) (ε : Mat 500000 5) (P : Params) : V1 500000 :=
  fun i => affAt x rw cl ε P (i 0)

/-- The second result: the mean reconstruction loss. -/
def lossMean (x : Mat 100000 128) (rw cl : I1 500000) (ε : Mat 500000 5) (P : Params) :
    (⟨0, ![]⟩ : Shape).Idx → EReal :=
  fun _ => Ideal.div (Ideal.ofBits .f32 0x00000000#32 + ∑ e : Fin 500000, lossAt x rw cl ε P e)
    (Ideal.ofBits .f32 0x48F42400#32)

/-- The third result: the mean divergence. -/
def klMean (x : Mat 100000 128) (rw cl : I1 500000) (P : Params) : (⟨0, ![]⟩ : Shape).Idx → EReal :=
  fun _ => Ideal.div (Ideal.ofBits .f32 0x00000000#32 + ∑ e : Fin 500000, klAt x rw cl P e)
    (Ideal.ofBits .f32 0x4A189680#32)

/-- The indices of a vector are its positions. -/
def idxEquiv1 {n : Nat} : (⟨1, ![n]⟩ : Shape).Idx ≃ Fin n where
  toFun i := i 0
  invFun a := ix1 a
  left_inv i := (eq_ix1 i).symm
  right_inv _ := rfl

/-- A sum over a vector's indices is the sum over its positions. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Cert.Spec

end
-- ==== Proof.LibGatherRows.lean ====
/-
  A row take from a rank-2 table, read at an index.

  The row take `table[idx]` over an [N × C] table and a vector of n positions is a `stablehlo.gather` whose start
  indices are the [n × 1] column of positions; the table's axis 0 is collapsed and start-indexed, its axis 1 is the
  result's one offset axis (a whole row is the slice), there are no batching axes, and the index vector lies on axis 1
  of the start indices. This file reads such a gather at a result index.
-/
import Idealize.ShloMosaic.Lib.ValueIdx
import Idealize.ShloMosaic.PureOps.ShapeOps
import Idealize.ShloMosaic.PureOps.Dims

namespace Cert.Lib

open Idealize.ShloMosaic Idealize.ShloMosaic.ValueIdx

/-- THE ROW TAKE. A gather from an [N × C] table at an [n × 1] column of start indices, with the table's axis 0
    collapsed and start-indexed, the result's axis 1 its one offset axis, no batching axes and the index vector on
    axis 1 (`hoff` … `hivd`: the printed dimension numbers, each by `rfl`): the result's entry (p, k) is the table's
    entry (r, k), where the row r is position p's start index read SIGNED and CLAMPED into the table (a negative index
    reads row 0, one past the end reads the last row). -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (k : Fin C) (hN : 0 < N) :
    Host.gather d x idx (ix2 p k) = x (ix2 ⟨min (idx (ix2 p 0)).toInt.toNat (N - 1), by omega⟩ k) := by
  unfold Host.gather
  congr 1
  -- every offset axis of the result is axis 1, every batch axis is axis 0
  have hoffAll : ∀ y ∈ d.offsetDims, y = 1 := by
    intro y hy; rw [hoff] at hy; exact List.mem_singleton.1 hy
  have hbatchAll : ∀ y ∈ d.batchDims, y = 0 := by
    intro y hy
    have h1 : y ∉ d.offsetDims := by have h0 := (List.mem_filter.1 hy).2; simpa using h0
    rw [hoff] at h1
    have h2 : y ≠ 1 := fun e => h1 (List.mem_singleton.2 e)
    apply Fin.ext
    have h3 : y.val ≠ 1 := fun e => h2 (Fin.ext e)
    have := y.isLt
    show y.val = 0
    change y.val < 2 at this
    omega
  have hb : ∀ a : Fin 2, a ∉ d.operandBatchingDims := by intro a; rw [hob]; exact List.not_mem_nil
  funext a
  apply Fin.ext
  match a with
  | ⟨0, _⟩ =>
    -- axis 0: the clamped start index; no batching and no offset coordinate
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show (d.operandIdx (ix2 p k) idx 0).val = _
    simp only [GatherDims.operandIdx, GatherDims.batchCoord_eq_zero _ _ _ (hb 0), GatherDims.offCoord_eq_zero _ _ _ hk,
      Nat.add_zero, GatherDims.start, dif_pos hm]
    show min (idx _).toInt.toNat (N - d.sliceSizes 0) = min (idx (ix2 p 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      rw [hbatchAll _ (List.getElem_mem _)]
      rfl
    | ⟨1, _⟩ =>
      unfold GatherDims.siIdx
      rw [dif_pos (by rw [hivd])]
      apply Fin.ext
      show List.idxOf (0 : Fin 2) d.startIndexMap = 0
      rw [hsim]; simp
  | ⟨1, _⟩ =>
    -- axis 1: no start (it is not start-indexed), no batching; the offset coordinate is the result's column
    have hk : (1 : Fin 2) ∈ d.sKept := by rw [GatherDims.mem_sKept, hcoll]; exact ⟨by simp, hb 1⟩
    have hm : (1 : Fin 2) ∉ d.startIndexMap := by rw [hsim]; simp
    show (d.operandIdx (ix2 p k) idx 1).val = _
    simp only [GatherDims.operandIdx, GatherDims.batchCoord_eq_zero _ _ _ (hb 1), Nat.add_zero, GatherDims.start,
      dif_neg hm, Nat.zero_add, GatherDims.offCoord, dif_pos hk]
    rw [hoffAll _ (List.getElem_mem _)]
    rfl

end Cert.Lib
-- ==== Proof.Index.lean ====
/-
  Which rows the two programs take, and what the precondition says of the index words.

  The precondition's last two conjuncts say that no word of row and no word of col is negative. The kernel first pads
  each index vector with zeros to 503808 entries, limits every word to the interval from 0 to 99999, moves a negative
  word up by 100000 (none is negative after the limiting) and takes the rows of x at the resulting words; the gather
  itself reads a word signed and limits it to the table. For an edge e < 500000 the row taken is therefore the row the
  word row(e) names (`Spec.node`), whatever the word. The noise array is padded with zero rows to 503808 rows, so its
  first 500000 rows are the noise rows themselves.
-/
import proofs.«417158_j34479997452839_3_alg».proof.Proof.Gen.KernelIdeal
import proofs.«417158_j34479997452839_3_alg».proof.Proof.Gen.Pre_finite_inputs
import proofs.«417158_j34479997452839_3_alg».proof.Proof.Spec
import proofs.«417158_j34479997452839_3_alg».proof.Proof.LibGatherRows
import Idealize.ShloMosaic.Lib.StableHlo.Predicate
import Idealize.ShloMosaic.Lib.ReduceAll
import Idealize.ShloMosaic.Lib.KernelVsHost

noncomputable section

namespace Cert.Index

open Cert.Edge Cert.Spec Cert.LibDense Idealize.ShloMosaic Idealize.ShloMosaic.ValueIdx

/-! ## The precondition -/

section Pre
open Cert.Pre_finite_inputs Cert.Pre_finite_inputs.Facts

/-- The empty shape has one index. -/
instance subsingleton_scalar_idx : Subsingleton S_.Idx := ⟨fun _ _ => funext fun d => d.elim0⟩

/-- A vector of words whose comparison "at least the zero word, signed", reduced by "and" from 1, came out 1 has no
    negative word. -/
theorem nonneg_of_all (a : IVec S500000 32) (j : S_.Idx)
    (h : Host.reduce IntOp.andi (cmpi .sge a (broadcastInDim S500000 ![] bcast_S_S500000 (constantI S_ 32 0#32)))
      (constantI S_ 1 1#1) reducesTo_S500000_S_d0 h_S_ j = 1#1) (i : S500000.Idx) : 0 ≤ (a i).toInt := by
  have m := Host.reduce_andi_all _ _ _ _ j h i
  have c := IntOp.cmpi_sge.1 m
  exact c

/-- The last part of the printed precondition: its last two conjuncts. -/
theorem part5_nonneg {F : FTy → Type} [FloatOps F] (a1 a2 : IVec S500000 32) (v83 : IVec S_ 1) (v84 : FVec F S256 .f32)
    (c32 : FVec F S_ .f32) (j : S_.Idx) (h : fn_part5 (F := F) a1 a2 v83 v84 c32 j = 1#1) :
    (∀ i, 0 ≤ (a1 i).toInt) ∧ (∀ i, 0 ≤ (a2 i).toInt) := by
  unfold fn_part5 at h
  obtain ⟨h1, h2⟩ := IntOp.andi_eq_one.1 h
  obtain ⟨-, h3⟩ := IntOp.andi_eq_one.1 h1
  exact ⟨nonneg_of_all a1 j h3, nonneg_of_all a2 j h2⟩

/-- Where the precondition holds, no index word is negative. -/
theorem pre_nonneg {F : FTy → Type} [FloatOps F] (a0 : FVec F S100000x128 .f32) (a1 a2 : IVec S500000 32) (a3 : FVec F S500000x5 .f32) (a4 : FVec F S256x128 .f32) (a5 : FVec F S128 .f32) (a6 : FVec F S128x128 .f32) (a7 : FVec F S128 .f32) (a8 : FVec F S128x128 .f32) (a9 : FVec F S128 .f32) (a10 : FVec F S128x10 .f32) (a11 : FVec F S10 .f32) (a12 : FVec F S5x128 .f32) (a13 : FVec F S128 .f32) (a14 : FVec F S128x128 .f32) (a15 : FVec F S128 .f32) (a16 : FVec F S128x128 .f32) (a17 : FVec F S128 .f32) (a18 : FVec F S128x256 .f32) (a19 : FVec F S256 .f32)
    (h : Cert.Pre_finite_inputs.fn (F := F) a0 a1 a2 a3 a4 a5 a6 a7 a8 a9 a10 a11 a12 a13 a14 a15 a16 a17 a18 a19 = fun _ => 1#1) :
    (∀ i, 0 ≤ (a1 i).toInt) ∧ (∀ i, 0 ≤ (a2 i).toInt) := by
  have e := congrFun h ValueIdx.ix0
  exact part5_nonneg a1 a2 _ _ _ ValueIdx.ix0 e

end Pre

/-! ## The kernel's index words and padded noise -/

section Kernel
open Cert.KernelIdeal Cert.KernelIdeal.Facts₀ Cert.KernelIdeal.Facts

/-- The signed value of the greater of two words is the greater of their signed values. -/
theorem toInt_maxsi (x y : BitVec 32) : (IntOp.maxsi x y).toInt = max x.toInt y.toInt := by
  unfold IntOp.maxsi
  split
  · next h => rw [BitVec.slt_iff_toInt_lt] at h; omega
  · next h => rw [BitVec.slt_iff_toInt_lt] at h; omega

/-- The signed value of the lesser of two words is the lesser of their signed values. -/
theorem toInt_minsi (x y : BitVec 32) : (IntOp.minsi x y).toInt = min x.toInt y.toInt := by
  unfold IntOp.minsi
  split
  · next h => rw [BitVec.slt_iff_toInt_lt] at h; omega
  · next h => rw [BitVec.slt_iff_toInt_lt] at h; omega

/-- One index word as the kernel prepares it: limited to the interval from 0 to 99999, then moved up by 100000 where
    negative. -/
def clipw (w : BitVec 32) : BitVec 32 :=
  Scalar.select (IntOp.cmpi .slt (IntOp.minsi 99999#32 (IntOp.maxsi 0#32 w)) 0#32)
    (IntOp.addi (IntOp.minsi 99999#32 (IntOp.maxsi 0#32 w)) 100000#32) (IntOp.minsi 99999#32 (IntOp.maxsi 0#32 w))

/-- The limited word read signed is the word read signed and limited: after the limiting no word is negative, so none is
    moved, and limiting once more to the table changes nothing. -/
theorem clipw_node (w : BitVec 32) : min (clipw w).toInt.toNat 99999 = min w.toInt.toNat 99999 := by
  have h0 : (0#32 : BitVec 32).toInt = 0 := by decide
  have h9 : (99999#32 : BitVec 32).toInt = 99999 := by decide
  have hc : (IntOp.minsi 99999#32 (IntOp.maxsi 0#32 w)).toInt = min 99999 (max 0 w.toInt) := by
    rw [toInt_minsi, toInt_maxsi, h0, h9]
  have hn : ¬ IntOp.cmpi .slt (IntOp.minsi 99999#32 (IntOp.maxsi 0#32 w)) 0#32 = 1 := by
    intro h
    have h' := IntOp.cmpi_slt.1 h
    rw [hc, h0] at h'
    omega
  unfold clipw Scalar.select
  rw [if_neg hn, hc]
  omega

/-- The start indices of the kernel's gather from an index vector: padded, limited, moved up where negative, as a column. -/
def kidx (a : IVec S500000 32) : IVec S503808x1 32 :=
  let p : IVec S503808 32 := pad S503808 ![0] ![3808] ![0] a (id (constantI S_ 32 0#32)) pads_S500000_S503808_038080 h_S_
  let lo : IVec S503808 32 := maxsi (broadcastInDim S503808 ![] bcast_S_S503808 (id (constantI S_ 32 0#32))) p
  let cl : IVec S503808 32 := minsi (broadcastInDim S503808 ![] bcast_S_S503808 (id (constantI S_ 32 99999#32))) lo
  let w : IVec S503808 32 :=
    select (cmpi .slt cl (broadcastInDim S503808 ![] bcast_S_S503808 (constantI S_ 32 0#32)))
      (addi cl (broadcastInDim S503808 ![] bcast_S_S503808 (constantI S_ 32 100000#32))) cl
  broadcastInDim S503808x1 ![0] bcast_S503808_S503808x1_0 w

/-- The start index of edge e < 500000 is the edge's index word, prepared. -/
theorem kidx_apply (a : IVec S500000 32) (e : Fin 503808) (he : e.val < 500000) :
    kidx a (ix2 e 0) = clipw (a (ix1 ⟨e.val, he⟩)) := by
  have hp : pad S503808 ![0] ![3808] ![0] a (id (constantI S_ 32 0#32)) pads_S500000_S503808_038080 h_S_ (ix1 e)
      = a (ix1 ⟨e.val, he⟩) :=
    pad_apply_of_inside _ _ _ a _ _ _ (ix1 e) (ix1 ⟨e.val, he⟩) (by
      intro d
      match d with
      | ⟨0, _⟩ => show e.val = 0 + e.val * (0 + 1); omega)
  unfold kidx
  refine (broadcastInDim_apply _ _ _ (ix2 e 0) (ix1 e) (by
    intro d
    match d with
    | ⟨0, _⟩ => rfl)).trans ?_
  exact congrArg clipw hp

/-- The row the kernel takes for edge e < 500000 is the row the edge's index word names. -/
theorem kernel_rows (x : FVec Ideal S100000x128 .f32) (a : IVec S500000 32) (e : Fin 503808) (he : e.val < 500000)
    (k : Fin 128) :
    Host.gather gather_S100000x128_S503808x1_S503808x128_1_0_n_n_0_1_1128 x (kidx a) (ix2 e k)
      = x (ix2 (node (a (ix1 ⟨e.val, he⟩))) k) := by
  refine (Cert.Lib.gather_rows _ rfl rfl rfl rfl rfl x (kidx a) e k (by omega)).trans ?_
  refine congrArg (fun r => x (ix2 r k)) (Fin.ext ?_)
  show min (kidx a (ix2 e 0)).toInt.toNat (100000 - 1) = min (a (ix1 ⟨e.val, he⟩)).toInt.toNat 99999
  rw [kidx_apply a e he]
  exact clipw_node _

/-- The noise array padded with zero rows. -/
def kpad (ε : FVec Ideal S500000x5 .f32) : FVec Ideal S503808x5 .f32 :=
  pad S503808x5 ![0, 0] ![3808, 0] ![0, 0] ε (sitofp (F := Ideal) .f32 (constantI S_ 32 0#32))
    pads_S500000x5_S503808x5_038080_000 h_S_

/-- Its first 500000 rows are the noise rows. -/
theorem kpad_rows (ε : FVec Ideal S500000x5 .f32) (e : Fin 503808) (he : e.val < 500000) (l : Fin 5) :
    kpad ε (ix2 e l) = ε (ix2 ⟨e.val, he⟩ l) := by
  unfold kpad
  exact pad_apply_of_inside _ _ _ ε _ _ _ (ix2 e l) (ix2 ⟨e.val, he⟩ l) (by
    intro d
    match d with
    | ⟨0, _⟩ => show e.val = 0 + e.val * (0 + 1); omega
    | ⟨1, _⟩ => show l.val = 0 + l.val * (0 + 1); omega)

end Kernel

end Cert.Index

end
-- ==== Proof.KernelEntry.lean ====
/-
  What the region finds: the arrays the kernel's host operations leave for the pallas_call.

  Before the region the kernel pads and limits the two index vectors, takes the rows of x at them, pads the noise array
  with zero rows and changes the format of the eight weight matrices. On the extended reals a change of format is the
  identity, so the region finds the weight matrices themselves; it finds the two arrays of taken rows and the padded noise
  array as `Index.lean` names them.
-/
import proofs.«417158_j34479997452839_3_alg».proof.Proof.KernelIdealFrame
import proofs.«417158_j34479997452839_3_alg».proof.Proof.Index
import Idealize.ShloMosaic.Lib.StableHlo.Run

set_option maxRecDepth 16384

noncomputable section

namespace Cert.KernelEntry

open Cert.KernelIdeal Cert.KernelIdeal.Gen Cert.KernelIdeal.GenP Cert.Index
open Idealize.ShloMosaic Idealize.ShloMosaic.TcCoe Idealize.SL.Sem Idealize.ShloMosaic.StableHlo

variable (m : (ℓ : Loc nD τ sig) → Buf (Elt Ideal) ℓ)

set_option maxHeartbeats 4000000 in
/-- The rows taken at the row index words. -/
theorem V_v11 (c : Dev nD) : (V m c main_v11 : S503808x128.Idx → EReal)
    = Host.gather gather_S100000x128_S503808x1_S503808x128_1_0_n_n_0_1_1128 (m ((c : Thread nD τ).loc main_arg0))
        (kidx (m ((c : Thread nD τ).loc main_arg1))) := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

set_option maxHeartbeats 4000000 in
/-- The rows taken at the column index words. -/
theorem V_v18 (c : Dev nD) : (V m c main_v18 : S503808x128.Idx → EReal)
    = Host.gather gather_S100000x128_S503808x1_S503808x128_1_0_n_n_0_1_1128 (m ((c : Thread nD τ).loc main_arg0))
        (kidx (m ((c : Thread nD τ).loc main_arg2))) := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

/-- The padded noise array. -/
theorem V_v2 (c : Dev nD) : (V m c main_v2 : S503808x5.Idx → EReal) = kpad (m ((c : Thread nD τ).loc main_arg3)) := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl

/-- A weight matrix after its change of format is the matrix. -/
theorem V_v19 (c : Dev nD) : (V m c main_v19 : S256x128.Idx → EReal) = m ((c : Thread nD τ).loc main_arg4) := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl

/-- A weight matrix after its change of format is the matrix. -/
theorem V_v20 (c : Dev nD) : (V m c main_v20 : S128x128.Idx → EReal) = m ((c : Thread nD τ).loc main_arg6) := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl

/-- A weight matrix after its change of format is the matrix. -/
theorem V_v21 (c : Dev nD) : (V m c main_v21 : S128x128.Idx → EReal) = m ((c : Thread nD τ).loc main_arg8) := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl

/-- A weight matrix after its change of format is the matrix. -/
theorem V_v22 (c : Dev nD) : (V m c main_v22 : S128x10.Idx → EReal) = m ((c : Thread nD τ).loc main_arg10) := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl

/-- A weight matrix after its change of format is the matrix. -/
theorem V_v23 (c : Dev nD) : (V m c main_v23 : S5x128.Idx → EReal) = m ((c : Thread nD τ).loc main_arg12) := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl

/-- A weight matrix after its change of format is the matrix. -/
theorem V_v24 (c : Dev nD) : (V m c main_v24 : S128x128.Idx → EReal) = m ((c : Thread nD τ).loc main_arg14) := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl

/-- A weight matrix after its change of format is the matrix. -/
theorem V_v25 (c : Dev nD) : (V m c main_v25 : S128x128.Idx → EReal) = m ((c : Thread nD τ).loc main_arg16) := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl

/-- A weight matrix after its change of format is the matrix. -/
theorem V_v26 (c : Dev nD) : (V m c main_v26 : S128x256.Idx → EReal) = m ((c : Thread nD τ).loc main_arg18) := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl

end Cert.KernelEntry

end
-- ==== Proof.LibKeepdims.lean ====
/-
  Layout and reduction lemmas for rank-2 arrays read by coordinates, in the style of the library's
  `Lib/ValueLayout.lean`: the keepdims COLUMN forms (a vector cast to one column, a column broadcast
  along the rows), and a one-axis reduction of an `[a, b]` array — a kernel's `vector.multi_reduction`
  by `add` or `maximumf` over either axis, the host's one-operand `stablehlo.reduce` by `maximum`
  over the second axis — as a `Fin`-indexed sum or fold of the entries `(i, k)` / `(k, j)`.
  Program-independent: only shapes `[a]`, `[a, 1]`, `[a, b]` with the extents as variables.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

variable {φ : FTy}

/-- A float `multi_reduction <add>` of an `[a, b]` array over its second axis, at row `i`: the row's sum. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = ∑ k : Fin b, src (ix2 i k)
  refine Finset.sum_congr rfl fun k _ => congrArg src (funext fun ax => Fin.ext ?_)
  match ax with
  | ⟨0, _⟩ => rfl
  | ⟨1, _⟩ => rfl

/-- A float `multi_reduction <add>` of an `[a, b]` array over its first axis, at column `j`: the column's sum. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  show ∑ k : Fin a, src (h.lift (ix1 j) k) = ∑ k : Fin a, src (ix2 k j)
  refine Finset.sum_congr rfl fun k _ => congrArg src (funext fun ax => Fin.ext ?_)
  match ax with
  | ⟨0, _⟩ => rfl
  | ⟨1, _⟩ => rfl

/-- A float `multi_reduction <maximumf>` of an `[a, b]` array over its second axis, at row `i`: the fold of
    `max` from the accumulator's value over the row. -/
theorem multiReduction_max_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  show (Finset.univ : Finset (Fin b)).fold max (Ideal.ofBits φ acc) (fun k => src (h.lift (ix1 i) k)) = _
  refine congrArg (fun f => (Finset.univ : Finset (Fin b)).fold max (Ideal.ofBits φ acc) f)
    (funext fun k => congrArg src (funext fun ax => Fin.ext ?_))
  match ax with
  | ⟨0, _⟩ => rfl
  | ⟨1, _⟩ => rfl

/-- The host's one-operand `stablehlo.reduce` by `maximum` of an `[a, b]` array over its second axis, at row
    `i`, read at the extended reals: the fold of `max` from the initial value over the row. -/
theorem hostReduce_max_rows {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩) (hu : 0 < u.numel) (i : Fin a) :
    Host.reduce (FloatOps.maximumf (F := Ideal) (φ := φ)) x init h' hu (ix1 i)
      = (Finset.univ : Finset (Fin b)).fold max (init (Shape.Idx.first hu)) (fun k => x (ix2 i k)) := by
  refine (Host.reduce_eq_fold_single (FloatOps.maximumf (F := Ideal) (φ := φ)) x init h' h hu (ix1 i)).trans ?_
  show (Finset.univ : Finset (Fin b)).fold max (init (Shape.Idx.first hu)) (fun k => x (h.lift (ix1 i) k)) = _
  refine congrArg (fun f => (Finset.univ : Finset (Fin b)).fold max (init (Shape.Idx.first hu)) f)
    (funext fun k => congrArg x (funext fun ax => Fin.ext ?_))
  match ax with
  | ⟨0, _⟩ => rfl
  | ⟨1, _⟩ => rfl

/-! ### The same at `f32` with the accumulator's word written out

At `f32` the neutral word of `add` is `0x00000000` and that of `maximumf` is `0xFF800000` (`-∞`): with the
accumulator written as that word, the evidence that it is the kind's neutral word is the word's equation with itself. -/

theorem add_rows_f32 {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (i : Fin a) :
    multiReduction .add [1] ⟨1, ![a]⟩ src 0x00000000#32 h hφ hacc (ix1 i) = ∑ k : Fin b, src (ix2 i k) :=
  multiReduction_add_rows src _ h hφ hacc i

theorem add_cols_f32 {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (j : Fin b) :
    multiReduction .add [0] ⟨1, ![b]⟩ src 0x00000000#32 h hφ hacc (ix1 j) = ∑ k : Fin a, src (ix2 k j) :=
  multiReduction_add_cols src _ h hφ hacc j

theorem max_rows_f32 {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (i : Fin a) :
    multiReduction .maximumf [1] ⟨1, ![a]⟩ src 0xFF800000#32 h hφ hacc (ix1 i)
      = (Finset.univ : Finset (Fin b)).fold max (Ideal.ofBits .f32 0xFF800000#32) (fun k => src (ix2 i k)) :=
  multiReduction_max_rows src _ h hφ hacc i

/-- The one entry of a `[1, 1]` array, extracted at `[0, 0]`. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun ax => Fin.ext ?_)
  match ax with
  | ⟨0, _⟩ => rfl
  | ⟨1, _⟩ => rfl

end Cert.Keepdims

end
-- ==== Proof.KernelBody.lean ====
/-
  The kernel body's stored values, one edge at a time.

  At a grid point the body reads a block of 4096 edges: the two blocks of gathered feature rows, the block of noise
  rows, and the sixteen weight arrays whole. It stores three vectors of 4096 entries: the affinities, the
  reconstruction losses and the divergences of the block's edges, each entry replaced by 0 where the edge's position
  (the point's number times 4096 plus the position in the block) is 500000 or more. This module reads each stored
  vector at a position p of the block: it is the edge network of `Edge.lean` applied to row p of the three blocks.
-/
import proofs.«417158_j34479997452839_3_alg».proof.Proof.Gen.KernelIdeal.Skeleton
import proofs.«417158_j34479997452839_3_alg».proof.Proof.Edge
import proofs.«417158_j34479997452839_3_alg».proof.Proof.LibKeepdims
import Idealize.ShloMosaic.Lib.StableHlo.Predicate

noncomputable section

open scoped BigOperators

namespace Cert.KernelBody

open Cert.KernelIdeal Cert.KernelIdeal.Gen Cert.Edge Cert.LibDense Idealize.ShloMosaic Idealize.ShloMosaic.ValueIdx

variable [Cert.KernelIdeal.Facts]

/-! ## The printed contraction records are the plain matrix products -/

theorem hd_128_128 : dot_S4096x128_S128x128_S4096x128_1_0_0_1_n_n = DotDims.plain 4096 128 128 := rfl
theorem hd_128_10 : dot_S4096x128_S128x10_S4096x10_1_0_0_1_n_n = DotDims.plain 4096 128 10 := rfl
theorem hd_5_128 : dot_S4096x5_S5x128_S4096x128_1_0_0_1_n_n = DotDims.plain 4096 5 128 := rfl
theorem hd_128_256 : dot_S4096x128_S128x256_S4096x256_1_0_0_1_n_n = DotDims.plain 4096 128 256 := rfl

/-! ## One layer -/

/-- The rectifier of the body on an array known to be y'. -/
theorem krelu {n m : Nat} (y y' : FVec Ideal ⟨2, ![n, m]⟩ .f32) (hy : y = y') :
    maximumf y (broadcast ⟨2, ![n, m]⟩ (Scalar.ofBits (F := Ideal) .f32 0x00000000#32)) = relu y' := by
  subst hy
  exact kernel_relu _

/-- One layer of the body: the product of the (narrowed) input with the weight block into a zero accumulator, plus the
    bias vector laid out as one row and broadcast down the rows, is the affine layer (on an input known to be x'). -/
theorem layer {n k m : Nat} (d : DotDims ⟨2, ![n, k]⟩ ⟨2, ![k, m]⟩ ⟨2, ![n, m]⟩) (hd : d = DotDims.plain n k m)
    (x x' : FVec Ideal ⟨2, ![n, k]⟩ .f32) (hx : x = x') (w : FVec Ideal ⟨2, ![k, m]⟩ .bf16) (b : FVec Ideal ⟨1, ![m]⟩ .f32)
    (hlt : FTy.bits .bf16 < FTy.bits .f32)
    (hw : (⟨2, ![k, m]⟩ : Shape).ShapeCasts ⟨2, ![k, m]⟩) (hb1 : (⟨1, ![m]⟩ : Shape).ShapeCasts ⟨2, ![1, m]⟩)
    (hb : (⟨2, ![1, m]⟩ : Shape).Broadcasts ⟨2, ![n, m]⟩) :
    addf (matmul d none (truncf .bf16 x hlt) (shapeCast ⟨2, ![k, m]⟩ w hw) (constant ⟨2, ![n, m]⟩ .f32 0x00000000#32))
        (broadcastTo ⟨2, ![n, m]⟩ (shapeCast ⟨2, ![1, m]⟩ b hb1) hb)
      = aff x' w (vrow b) := by
  subst hx
  rw [shapeCast_self]
  refine (kernel_layer d hd _ _ _ hb).trans ?_
  exact congrArg (aff x w) (funext fun c => shapeCast_a_1a_apply b hb1 0 c)

/-- A rectified layer of the body. -/
theorem relu_layer {n k m : Nat} (d : DotDims ⟨2, ![n, k]⟩ ⟨2, ![k, m]⟩ ⟨2, ![n, m]⟩) (hd : d = DotDims.plain n k m)
    (x x' : FVec Ideal ⟨2, ![n, k]⟩ .f32) (hx : x = x') (w : FVec Ideal ⟨2, ![k, m]⟩ .bf16) (b : FVec Ideal ⟨1, ![m]⟩ .f32)
    (hlt : FTy.bits .bf16 < FTy.bits .f32)
    (hw : (⟨2, ![k, m]⟩ : Shape).ShapeCasts ⟨2, ![k, m]⟩) (hb1 : (⟨1, ![m]⟩ : Shape).ShapeCasts ⟨2, ![1, m]⟩)
    (hb : (⟨2, ![1, m]⟩ : Shape).Broadcasts ⟨2, ![n, m]⟩) :
    maximumf (addf (matmul d none (truncf .bf16 x hlt) (shapeCast ⟨2, ![k, m]⟩ w hw) (constant ⟨2, ![n, m]⟩ .f32 0x00000000#32))
        (broadcastTo ⟨2, ![n, m]⟩ (shapeCast ⟨2, ![1, m]⟩ b hb1) hb))
        (broadcast ⟨2, ![n, m]⟩ (Scalar.ofBits (F := Ideal) .f32 0x00000000#32))
      = relu (aff x' w (vrow b)) :=
  krelu _ _ (layer d hd x x' hx w b hlt hw hb1 hb)

/-! ## The encoder's first three layers -/

/-- The first layer's affine part on the whole block, in its two-product form. -/
def lay1 (x0 x1 : Mat 4096 128) (W0 : Mat 256 128) (b0 : Row 128) : Mat 4096 128 := fun i =>
  (∑ j : Fin 128, x0 (ix2 (i 0) j) * top W0 (ix2 j (i 1)) + ∑ j : Fin 128, x1 (ix2 (i 0) j) * bot W0 (ix2 j (i 1))) + b0 (i 1)

theorem row_relu_lay1 (x0 x1 : Mat 4096 128) (W0 : Mat 256 128) (b0 : Row 128) (p : Fin 4096) :
    row (relu (lay1 x0 x1 W0 b0)) p = h1 W0 b0 (row x0 p) (row x1 p) := rfl

/-- The two products of the first layer against the upper and the lower 128 rows of the weights, added, plus the bias. -/
theorem first_layer (x0 x1 : FVec Ideal S4096x128 .f32) (x3 : FVec Ideal S256x128 .bf16) (x4 : FVec Ideal S128 .f32) :
    addf (addf
        (matmul dot_S4096x128_S128x128_S4096x128_1_0_0_1_n_n none
          (truncf .bf16 (shapeCast S4096x128 x0 shapeCasts_S4096x128_S4096x128) bitsLt_bf16_f32)
          (extractStridedSlice S128x128 ![0, 0] (shapeCast S256x128 x3 shapeCasts_S256x128_S256x128) slices_S256x128_o0_0_S128x128)
          (constant S4096x128 .f32 0x00000000#32))
        (matmul dot_S4096x128_S128x128_S4096x128_1_0_0_1_n_n none
          (truncf .bf16 (shapeCast S4096x128 x1 shapeCasts_S4096x128_S4096x128) bitsLt_bf16_f32)
          (extractStridedSlice S128x128 ![128, 0] (shapeCast S256x128 x3 shapeCasts_S256x128_S256x128) slices_S256x128_o128_0_S128x128)
          (constant S4096x128 .f32 0x00000000#32)))
      (broadcastTo S4096x128 (shapeCast S1x128 x4 shapeCasts_S128_S1x128) broadcasts_S1x128_S4096x128)
      = lay1 x0 x1 x3 (vrow x4) := by
  rw [shapeCast_self, shapeCast_self, shapeCast_self]
  funext i
  obtain ⟨a, c, rfl⟩ : ∃ (a : Fin 4096) (c : Fin 128), i = ix2 a c := ⟨i 0, i 1, eq_ix2 i⟩
  rw [addf_apply, addf_apply, kernel_product _ hd_128_128, kernel_product _ hd_128_128, broadcastTo_1b_ab_apply,
    shapeCast_a_1a_apply]
  show _ = (∑ j : Fin 128, x0 (ix2 a j) * top x3 (ix2 j c) + ∑ j : Fin 128, x1 (ix2 a j) * bot x3 (ix2 j c)) + x4 (ix1 c)
  refine congrArg (· + x4 (ix1 c)) ?_
  refine congrArg₂ (· + ·) (Finset.sum_congr rfl fun j _ => ?_) (Finset.sum_congr rfl fun j _ => ?_)
  · refine congrArg (x0 (ix2 a j) * ·) ?_
    exact slice2_axis0_apply 0 x3 slices_S256x128_o0_0_S128x128 j c ⟨j.val, by have := j.isLt; omega⟩ (Nat.zero_add _).symm
  · refine congrArg (x1 (ix2 a j) * ·) ?_
    exact slice2_axis0_apply 128 x3 slices_S256x128_o128_0_S128x128 j c ⟨128 + j.val, by have := j.isLt; omega⟩ rfl

/-- The encoder's third layer's affine part, on the whole block. -/
theorem pay7_eq (x0 x1 : Vec Ideal S4096x128 .f32) (x3 : Vec Ideal S256x128 .bf16) (x4 : Vec Ideal S128 .f32) (x5 : Vec Ideal S128x128 .bf16) (x6 : Vec Ideal S128 .f32) (x7 : Vec Ideal S128x128 .bf16) (x8 : Vec Ideal S128 .f32) :
    k0_pay7 (F := Ideal) x0 x1 x3 x4 x5 x6 x7 x8
      = aff (relu (aff (relu (lay1 x0 x1 x3 (vrow x4))) x5 (vrow x6))) x7 (vrow x8) :=
  layer dot_S4096x128_S128x128_S4096x128_1_0_0_1_n_n hd_128_128 _ _
    (relu_layer dot_S4096x128_S128x128_S4096x128_1_0_0_1_n_n hd_128_128 _ _ (krelu _ _ (first_layer x0 x1 x3 x4)) x5 x6
      bitsLt_bf16_f32 shapeCasts_S128x128_S128x128 shapeCasts_S128_S1x128 broadcasts_S1x128_S4096x128)
    x7 x8 bitsLt_bf16_f32 shapeCasts_S128x128_S128x128 shapeCasts_S128_S1x128 broadcasts_S1x128_S4096x128

theorem pay7_row (x0 x1 : Vec Ideal S4096x128 .f32) (x3 : Vec Ideal S256x128 .bf16) (x4 : Vec Ideal S128 .f32) (x5 : Vec Ideal S128x128 .bf16) (x6 : Vec Ideal S128 .f32) (x7 : Vec Ideal S128x128 .bf16) (x8 : Vec Ideal S128 .f32) (p : Fin 4096) :
    row (k0_pay7 (F := Ideal) x0 x1 x3 x4 x5 x6 x7 x8) p
      = h3pre x3 (vrow x4) x5 (vrow x6) x7 (vrow x8) (row x0 p) (row x1 p) := by
  rw [pay7_eq]
  rfl

/-! ## The encoder's fourth layer and its two halves -/

theorem pay8_eq (v38 : FVec Ideal S4096x128 .f32) (x9 : Vec Ideal S128x10 .bf16) (x10 : Vec Ideal S10 .f32) :
    k0_pay8 (F := Ideal) v38 x9 x10 = aff (relu v38) x9 (vrow x10) :=
  layer dot_S4096x128_S128x10_S4096x10_1_0_0_1_n_n hd_128_10 _ _ (kernel_relu v38) x9 x10 bitsLt_bf16_f32
    shapeCasts_S128x10_S128x10 shapeCasts_S10_S1x10 broadcasts_S1x10_S4096x10

theorem pay8_row (v38 : FVec Ideal S4096x128 .f32) (x9 : Vec Ideal S128x10 .bf16) (x10 : Vec Ideal S10 .f32) (p : Fin 4096) :
    row (k0_pay8 (F := Ideal) v38 x9 x10) p = encOf x9 (vrow x10) (row v38 p) := by
  rw [pay8_eq]
  rfl

theorem pay9_row (v38 : FVec Ideal S4096x128 .f32) (x9 : Vec Ideal S128x10 .bf16) (x10 : Vec Ideal S10 .f32) (p : Fin 4096) :
    row (k0_pay9 (F := Ideal) v38 x9 x10) p = mu (encOf x9 (vrow x10) (row v38 p)) := by
  rw [← pay8_row]
  funext l
  exact slice2_axis1_apply 0 (k0_pay8 (F := Ideal) v38 x9 x10) slices_S4096x10_o0_0_S4096x5 p l
    ⟨l.val, by have := l.isLt; omega⟩ (Nat.zero_add _).symm

theorem pay10_row (v38 : FVec Ideal S4096x128 .f32) (x9 : Vec Ideal S128x10 .bf16) (x10 : Vec Ideal S10 .f32) (p : Fin 4096) :
    row (k0_pay10 (F := Ideal) v38 x9 x10) p = lv (encOf x9 (vrow x10) (row v38 p)) := by
  rw [← pay8_row]
  funext l
  exact slice2_axis1_apply 5 (k0_pay8 (F := Ideal) v38 x9 x10) slices_S4096x10_o0_5_S4096x5 p l
    ⟨5 + l.val, by have := l.isLt; omega⟩ rfl

/-! ## The latent row and the decoder's first two layers -/

/-- The latent block: the means plus the noise times the exponential of half the log-variances. -/
def zblock (m s ε : Mat 4096 5) : Mat 4096 5 := fun i =>
  m i + ε i * Ideal.exp (Ideal.ofBits .f32 0x3F000000#32 * s i)

theorem zblock_row (m s ε : Mat 4096 5) (e : Row 10) (p : Fin 4096) (hm : row m p = mu e) (hs : row s p = lv e) :
    row (zblock m s ε) p = zlat e (row ε p) := by
  funext l
  show m (ix2 p l) + ε (ix2 p l) * Ideal.exp (Ideal.ofBits .f32 0x3F000000#32 * s (ix2 p l))
    = mu e l + ε (ix2 p l) * Ideal.exp (Ideal.ofBits .f32 0x3F000000#32 * lv e l)
  rw [← hm, ← hs]
  rfl

/-- The body's latent block. -/
theorem zblock_eq (m s : FVec Ideal S4096x5 .f32) (x2 : FVec Ideal S4096x5 .f32) :
    addf m (mulf (shapeCast S4096x5 x2 shapeCasts_S4096x5_S4096x5)
        (exp (mulf (broadcast S4096x5 (Scalar.ofBits (F := Ideal) .f32 0x3F000000#32)) s)))
      = zblock m s x2 := by
  rw [shapeCast_self]
  rfl

theorem pay11_eq (v38 : FVec Ideal S4096x128 .f32) (x9 : Vec Ideal S128x10 .bf16) (x10 : Vec Ideal S10 .f32) (x2 : Vec Ideal S4096x5 .f32) (x11 : Vec Ideal S5x128 .bf16) (x12 : Vec Ideal S128 .f32) (x13 : Vec Ideal S128x128 .bf16) (x14 : Vec Ideal S128 .f32) :
    k0_pay11 (F := Ideal) v38 x9 x10 x2 x11 x12 x13 x14
      = relu (aff (relu (aff (zblock (k0_pay9 (F := Ideal) v38 x9 x10) (k0_pay10 (F := Ideal) v38 x9 x10) x2) x11 (vrow x12))) x13 (vrow x14)) :=
  relu_layer dot_S4096x128_S128x128_S4096x128_1_0_0_1_n_n hd_128_128 _ _
    (relu_layer dot_S4096x5_S5x128_S4096x128_1_0_0_1_n_n hd_5_128 _ _
      (zblock_eq (k0_pay9 (F := Ideal) v38 x9 x10) (k0_pay10 (F := Ideal) v38 x9 x10) x2) x11 x12
      bitsLt_bf16_f32 shapeCasts_S5x128_S5x128 shapeCasts_S128_S1x128 broadcasts_S1x128_S4096x128)
    x13 x14 bitsLt_bf16_f32 shapeCasts_S128x128_S128x128 shapeCasts_S128_S1x128 broadcasts_S1x128_S4096x128

theorem pay11_row (v38 : FVec Ideal S4096x128 .f32) (x9 : Vec Ideal S128x10 .bf16) (x10 : Vec Ideal S10 .f32) (x2 : Vec Ideal S4096x5 .f32) (x11 : Vec Ideal S5x128 .bf16) (x12 : Vec Ideal S128 .f32) (x13 : Vec Ideal S128x128 .bf16) (x14 : Vec Ideal S128 .f32) (p : Fin 4096) :
    row (k0_pay11 (F := Ideal) v38 x9 x10 x2 x11 x12 x13 x14) p
      = dec2 x11 (vrow x12) x13 (vrow x14) (zlat (encOf x9 (vrow x10) (row v38 p)) (row x2 p)) := by
  rw [pay11_eq, ← zblock_row _ _ x2 _ p (pay9_row v38 x9 x10 p) (pay10_row v38 x9 x10 p)]
  rfl

/-! ## The decoder's last two layers, the loss, the affinity -/

/-- The root of the two lane sums of squared differences, of the first and of the last 128 columns of a 4096 × 256 block
    (known to be V') against two 4096 × 128 blocks, read at a row. -/
theorem loss_of_block (V V' : FVec Ideal S4096x256 .f32) (hV : V = V') (v3 v5 : FVec Ideal S4096x128 .f32) (p : Fin 4096) :
    sqrt (addf
        (multiReduction .add [1] S4096
          (mulf (subf (extractStridedSlice S4096x128 ![0, 0] V slices_S4096x256_o0_0_S4096x128) v3)
            (subf (extractStridedSlice S4096x128 ![0, 0] V slices_S4096x256_o0_0_S4096x128) v3))
          0x00000000#32 reduces_S4096x128_S4096 (.inl rfl) rfl)
        (multiReduction .add [1] S4096
          (mulf (subf (extractStridedSlice S4096x128 ![0, 128] V slices_S4096x256_o0_128_S4096x128) v5)
            (subf (extractStridedSlice S4096x128 ![0, 128] V slices_S4096x256_o0_128_S4096x128) v5))
          0x00000000#32 reduces_S4096x128_S4096 (.inl rfl) rfl)) (ix1 p)
      = rloss (row V' p) (row v3 p) (row v5 p) := by
  subst hV
  show Ideal.sqrt (multiReduction (F := Ideal) .add [1] S4096 _ 0x00000000#32 reduces_S4096x128_S4096 (.inl rfl) rfl (ix1 p)
    + multiReduction (F := Ideal) .add [1] S4096 _ 0x00000000#32 reduces_S4096x128_S4096 (.inl rfl) rfl (ix1 p)) = _
  rw [Cert.Keepdims.add_rows_f32, Cert.Keepdims.add_rows_f32]
  unfold rloss
  refine congrArg Ideal.sqrt (congrArg₂ (· + ·) (Finset.sum_congr rfl fun j _ => ?_) (Finset.sum_congr rfl fun j _ => ?_))
  · rw [mulf_apply, subf_apply,
      slice2_axis1_apply 0 V slices_S4096x256_o0_0_S4096x128 p j ⟨j.val, by have := j.isLt; omega⟩ (Nat.zero_add _).symm]
    rfl
  · rw [mulf_apply, subf_apply,
      slice2_axis1_apply 128 V slices_S4096x256_o0_128_S4096x128 p j ⟨128 + j.val, by have := j.isLt; omega⟩ rfl]
    rfl

theorem pay12_at (v3 v5 v77 : FVec Ideal S4096x128 .f32) (x15 : Vec Ideal S128x128 .bf16) (x16 : Vec Ideal S128 .f32) (x17 : Vec Ideal S128x256 .bf16) (x18 : Vec Ideal S256 .f32) (p : Fin 4096) :
    k0_pay12 (F := Ideal) v3 v5 v77 x15 x16 x17 x18 (ix1 p)
      = rloss (recon x15 (vrow x16) x17 (vrow x18) (row v77 p)) (row v3 p) (row v5 p) :=
  loss_of_block _ _
    (layer dot_S4096x128_S128x256_S4096x256_1_0_0_1_n_n hd_128_256 _ _
      (relu_layer dot_S4096x128_S128x128_S4096x128_1_0_0_1_n_n hd_128_128 v77 v77 rfl x15 x16
        bitsLt_bf16_f32 shapeCasts_S128x128_S128x128 shapeCasts_S128_S1x128 broadcasts_S1x128_S4096x128)
      x17 x18 bitsLt_bf16_f32 shapeCasts_S128x256_S128x256 shapeCasts_S256_S1x256 broadcasts_S1x256_S4096x256)
    v3 v5 p

theorem pay13_at (v3 v5 v77 : FVec Ideal S4096x128 .f32) (x15 : Vec Ideal S128x128 .bf16) (x16 : Vec Ideal S128 .f32) (x17 : Vec Ideal S128x256 .bf16) (x18 : Vec Ideal S256 .f32) (p : Fin 4096) :
    k0_pay13 (F := Ideal) v3 v5 v77 x15 x16 x17 x18 (ix1 p)
      = affin (k0_pay12 (F := Ideal) v3 v5 v77 x15 x16 x17 x18 (ix1 p)) := rfl

theorem pay5_eq (x0 : Vec Ideal S4096x128 .f32) : k0_pay5 (F := Ideal) x0 = x0 := shapeCast_self _ _

theorem pay6_eq (x1 : Vec Ideal S4096x128 .f32) : k0_pay6 (F := Ideal) x1 = x1 := shapeCast_self _ _

/-! ## The divergence -/

theorem pay14_at (v49 v50 : FVec Ideal S4096x5 .f32) (e : Row 10) (p : Fin 4096) (hm : row v49 p = mu e) (hs : row v50 p = lv e) :
    k0_pay14 (F := Ideal) v49 v50 (ix1 p) = klrow e := by
  unfold k0_pay14
  refine (Cert.Keepdims.add_rows_f32 _ reduces_S4096x5_S4096 (.inl rfl) rfl p).trans ?_
  unfold klrow
  refine Finset.sum_congr rfl fun l _ => ?_
  rw [← hm, ← hs]
  rfl

/-! ## The mask of the positions below 500000 -/

theorem mask_iff (t : ℕ) (ht : t < 123) (p : Fin 4096) :
    k0_pay1 (Scalar.muli (BitVec.ofNat 32 t) 4096#32) (ix1 p) = 1#1 ↔ t * 4096 + p.val < 500000 := by
  have e : k0_pay1 (Scalar.muli (BitVec.ofNat 32 t) 4096#32) (ix1 p)
      = BitVec.ofBool ((BitVec.ofNat 32 (t * 4096 + p.val)).slt (BitVec.ofNat 32 500000)) := by
    unfold k0_pay1
    show IntOp.cmpi .slt (IntOp.addi (Scalar.muli (BitVec.ofNat 32 t) 4096#32)
      (shapeCast S4096 (iota .tc S1x4096 32 [1] iota_S1x4096_d1_w32) shapeCasts_S1x4096_S4096 (ix1 p))) 500000#32 = _
    rw [shapeCast_1a_a_apply, iota_single_apply]
    show BitVec.ofBool ((BitVec.ofNat 32 t * BitVec.ofNat 32 4096 + BitVec.ofNat 32 p.val).slt (BitVec.ofNat 32 500000)) = _
    rw [← BitVec.ofNat_mul, ← BitVec.ofNat_add]
  rw [e]
  exact Idealize.ShloMosaic.StableHlo.Predicate.slt_ofNat_iff _ _ (by have := p.isLt; omega) (by norm_num)

/-- A stored vector at a position: the value where the position is below 500000, else 0. -/
theorem masked_at (t : ℕ) (ht : t < 123) (v : FVec Ideal S4096 .f32) (p : Fin 4096) :
    select (k0_pay1 (Scalar.muli (BitVec.ofNat 32 t) 4096#32)) v (broadcast S4096 (Scalar.ofBits (F := Ideal) .f32 0x00000000#32)) (ix1 p)
      = if t * 4096 + p.val < 500000 then v (ix1 p) else 0 := by
  show (if k0_pay1 (Scalar.muli (BitVec.ofNat 32 t) 4096#32) (ix1 p) = 1#1 then v (ix1 p) else Ideal.ofBits .f32 0x00000000#32) = _
  rw [Ideal.ofBits_zero_f32]
  exact if_congr (mask_iff t ht p) rfl rfl

/-! ## The three stored vectors -/

/-- The sixteen weight arrays as the body's blocks hold them (a narrowing change of format is the identity on the
    extended reals, so the 16-bit arrays are the arrays themselves). -/
def kparams (x3 : Vec Ideal S256x128 .bf16) (x4 : Vec Ideal S128 .f32) (x5 : Vec Ideal S128x128 .bf16) (x6 : Vec Ideal S128 .f32) (x7 : Vec Ideal S128x128 .bf16) (x8 : Vec Ideal S128 .f32) (x9 : Vec Ideal S128x10 .bf16) (x10 : Vec Ideal S10 .f32) (x11 : Vec Ideal S5x128 .bf16) (x12 : Vec Ideal S128 .f32) (x13 : Vec Ideal S128x128 .bf16) (x14 : Vec Ideal S128 .f32) (x15 : Vec Ideal S128x128 .bf16) (x16 : Vec Ideal S128 .f32) (x17 : Vec Ideal S128x256 .bf16) (x18 : Vec Ideal S256 .f32) : Params :=
  ⟨x3, vrow x4, x5, vrow x6, x7, vrow x8, x9, vrow x10, x11, vrow x12, x13, vrow x14, x15, vrow x16, x17, vrow x18⟩

/-- The stored affinity at position p of the block of grid point t. -/
theorem aff_at (t : ℕ) (ht : t < 123) (x0 x1 : Vec Ideal S4096x128 .f32) (x2 : Vec Ideal S4096x5 .f32) (x3 : Vec Ideal S256x128 .bf16) (x4 : Vec Ideal S128 .f32) (x5 : Vec Ideal S128x128 .bf16) (x6 : Vec Ideal S128 .f32) (x7 : Vec Ideal S128x128 .bf16) (x8 : Vec Ideal S128 .f32) (x9 : Vec Ideal S128x10 .bf16) (x10 : Vec Ideal S10 .f32) (x11 : Vec Ideal S5x128 .bf16) (x12 : Vec Ideal S128 .f32) (x13 : Vec Ideal S128x128 .bf16) (x14 : Vec Ideal S128 .f32) (x15 : Vec Ideal S128x128 .bf16) (x16 : Vec Ideal S128 .f32) (x17 : Vec Ideal S128x256 .bf16) (x18 : Vec Ideal S256 .f32) (p : Fin 4096) :
    k0_pay4 (F := Ideal) (Scalar.muli (BitVec.ofNat 32 t) 4096#32)
        (k0_pay13 (F := Ideal) (k0_pay5 (F := Ideal) x0) (k0_pay6 (F := Ideal) x1) (k0_pay11 (F := Ideal) (k0_pay7 (F := Ideal) x0 x1 x3 x4 x5 x6 x7 x8) x9 x10 x2 x11 x12 x13 x14) x15 x16 x17 x18) (ix1 p)
      = if t * 4096 + p.val < 500000 then edgeAff (kparams x3 x4 x5 x6 x7 x8 x9 x10 x11 x12 x13 x14 x15 x16 x17 x18) (row x0 p) (row x1 p) (row x2 p) else 0 := by
  refine (masked_at t ht _ p).trans (if_congr Iff.rfl ?_ rfl)
  rw [pay13_at, pay12_at, pay11_row, pay7_row, pay5_eq, pay6_eq]
  rfl

/-- The stored reconstruction loss at position p of the block of grid point t. -/
theorem loss_at (t : ℕ) (ht : t < 123) (x0 x1 : Vec Ideal S4096x128 .f32) (x2 : Vec Ideal S4096x5 .f32) (x3 : Vec Ideal S256x128 .bf16) (x4 : Vec Ideal S128 .f32) (x5 : Vec Ideal S128x128 .bf16) (x6 : Vec Ideal S128 .f32) (x7 : Vec Ideal S128x128 .bf16) (x8 : Vec Ideal S128 .f32) (x9 : Vec Ideal S128x10 .bf16) (x10 : Vec Ideal S10 .f32) (x11 : Vec Ideal S5x128 .bf16) (x12 : Vec Ideal S128 .f32) (x13 : Vec Ideal S128x128 .bf16) (x14 : Vec Ideal S128 .f32) (x15 : Vec Ideal S128x128 .bf16) (x16 : Vec Ideal S128 .f32) (x17 : Vec Ideal S128x256 .bf16) (x18 : Vec Ideal S256 .f32) (p : Fin 4096) :
    k0_pay2 (F := Ideal) (Scalar.muli (BitVec.ofNat 32 t) 4096#32)
        (k0_pay12 (F := Ideal) (k0_pay5 (F := Ideal) x0) (k0_pay6 (F := Ideal) x1) (k0_pay11 (F := Ideal) (k0_pay7 (F := Ideal) x0 x1 x3 x4 x5 x6 x7 x8) x9 x10 x2 x11 x12 x13 x14) x15 x16 x17 x18) (ix1 p)
      = if t * 4096 + p.val < 500000 then edgeLoss (kparams x3 x4 x5 x6 x7 x8 x9 x10 x11 x12 x13 x14 x15 x16 x17 x18) (row x0 p) (row x1 p) (row x2 p) else 0 := by
  refine (masked_at t ht _ p).trans (if_congr Iff.rfl ?_ rfl)
  rw [pay12_at, pay11_row, pay7_row, pay5_eq, pay6_eq]
  rfl

/-- The stored divergence at position p of the block of grid point t. -/
theorem kl_at (t : ℕ) (ht : t < 123) (x0 x1 : Vec Ideal S4096x128 .f32) (x3 : Vec Ideal S256x128 .bf16) (x4 : Vec Ideal S128 .f32) (x5 : Vec Ideal S128x128 .bf16) (x6 : Vec Ideal S128 .f32) (x7 : Vec Ideal S128x128 .bf16) (x8 : Vec Ideal S128 .f32) (x9 : Vec Ideal S128x10 .bf16) (x10 : Vec Ideal S10 .f32) (x11 : Vec Ideal S5x128 .bf16) (x12 : Vec Ideal S128 .f32) (x13 : Vec Ideal S128x128 .bf16) (x14 : Vec Ideal S128 .f32) (x15 : Vec Ideal S128x128 .bf16) (x16 : Vec Ideal S128 .f32) (x17 : Vec Ideal S128x256 .bf16) (x18 : Vec Ideal S256 .f32) (p : Fin 4096) :
    k0_pay3 (F := Ideal) (Scalar.muli (BitVec.ofNat 32 t) 4096#32)
        (k0_pay14 (F := Ideal) (k0_pay9 (F := Ideal) (k0_pay7 (F := Ideal) x0 x1 x3 x4 x5 x6 x7 x8) x9 x10) (k0_pay10 (F := Ideal) (k0_pay7 (F := Ideal) x0 x1 x3 x4 x5 x6 x7 x8) x9 x10)) (ix1 p)
      = if t * 4096 + p.val < 500000 then edgeKl (kparams x3 x4 x5 x6 x7 x8 x9 x10 x11 x12 x13 x14 x15 x16 x17 x18) (row x0 p) (row x1 p) else 0 := by
  refine (masked_at t ht _ p).trans (if_congr Iff.rfl ?_ rfl)
  rw [pay14_at _ _ _ p (pay9_row _ x9 x10 p) (pay10_row _ x9 x10 p), pay7_row]
  rfl

end Cert.KernelBody

end
-- ==== Proof.KernelValue.lean ====
/-
  The three arrays the region leaves, entry by entry.

  Grid point t works on the edges t · 4096, …, t · 4096 + 4095: its blocks of the two arrays of taken rows and of the padded
  noise array are the rows with those numbers, its weight blocks are the weight arrays whole, and it writes back block t of
  each of the three result vectors of 503808 entries. By `KernelBody` the entry for edge e = t · 4096 + p is the edge
  network at rows e of the three arrays when e < 500000, and 0 otherwise. The 123 blocks tile the vectors, so each
  vector ends as that one function of the arrays the region finds.
-/
import proofs.«417158_j34479997452839_3_alg».proof.Proof.KernelEntry
import proofs.«417158_j34479997452839_3_alg».proof.Proof.KernelBody
import Idealize.ShloMosaic.Lib.Pipeline.Value

set_option maxRecDepth 16384

noncomputable section

namespace Cert.KernelValue

open Cert.KernelIdeal Cert.KernelIdeal.Gen Cert.KernelIdeal.GenP Cert.Edge Cert.LibDense Cert.KernelBody
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The taken rows at the row words, the taken rows at the column words, the padded noise: as the region finds them. -/
abbrev XR (c : Dev nD) : Mat 503808 128 := V m c main_v11
abbrev XC (c : Dev nD) : Mat 503808 128 := V m c main_v18
abbrev EP (c : Dev nD) : Mat 503808 5 := V m c main_v2

/-- The weights as the region finds them. -/
def KP (c : Dev nD) : Params := kparams (V m c main_v19) (V m c main_arg5) (V m c main_v20) (V m c main_arg7) (V m c main_v21) (V m c main_arg9) (V m c main_v22) (V m c main_arg11) (V m c main_v23) (V m c main_arg13) (V m c main_v24) (V m c main_arg15) (V m c main_v25) (V m c main_arg17) (V m c main_v26) (V m c main_arg19)

/-- The three result vectors as functions of those arrays. -/
def G19 (c : Dev nD) : S503808.Idx → EReal := fun i =>
  if (i 0).val < 500000 then edgeAff (KP m c) (row (XR m c) (i 0)) (row (XC m c) (i 0)) (row (EP m c) (i 0)) else 0
def G20 (c : Dev nD) : S503808.Idx → EReal := fun i =>
  if (i 0).val < 500000 then edgeLoss (KP m c) (row (XR m c) (i 0)) (row (XC m c) (i 0)) (row (EP m c) (i 0)) else 0
def G21 (c : Dev nD) : S503808.Idx → EReal := fun i =>
  if (i 0).val < 500000 then edgeKl (KP m c) (row (XR m c) (i 0)) (row (XC m c) (i 0)) else 0

theorem hz1 : (![0] : Fin 1 → Nat) = fun _ => 0 := funext fun a => by fin_cases a <;> rfl
theorem hz2 : (![0, 0] : Fin 2 → Nat) = fun _ => 0 := funext fun a => by fin_cases a <;> rfl

/-! ## The index maps, decided over the grid -/

/-- The three row-blocked inputs and the three outputs move with the grid point; the point's number is below 123. -/
theorem idx_facts : ∀ t : Fin cfg0.N,
    win0_0.index t (0 : Fin 2) = (grid0.coords t 0).val ∧ win0_0.index t (1 : Fin 2) = 0
    ∧ win0_1.index t (0 : Fin 2) = (grid0.coords t 0).val ∧ win0_1.index t (1 : Fin 2) = 0
    ∧ win0_2.index t (0 : Fin 2) = (grid0.coords t 0).val ∧ win0_2.index t (1 : Fin 2) = 0
    ∧ win0_19.index t (0 : Fin 1) = (grid0.coords t 0).val
    ∧ win0_20.index t (0 : Fin 1) = (grid0.coords t 0).val
    ∧ win0_21.index t (0 : Fin 1) = (grid0.coords t 0).val
    ∧ (grid0.coords t 0).val < 123 ∧ (grid0.coords t 0).val = t.val :=
  (by decide +kernel : ∀ t : Fin grid0.N, _)

/-! ## The weight blocks are the weight arrays -/

theorem wfacts3 : ∀ t : Fin cfg0.N, win0_3.index t (0 : Fin 2) = 0 ∧ win0_3.index t (1 : Fin 2) = 0 := (by decide +kernel : ∀ t : Fin grid0.N, _)
theorem wblk3 (c : Dev nD) (t : Fin cfg0.N) : (iblk m c 3 t : S256x128.Idx → EReal) = V m c main_v19 := by
  funext y
  show V m c main_v19 (((cfg0.win 3).blk t).view.emb y) = V m c main_v19 y
  refine congrArg _ (funext fun a => Fin.ext ?_)
  match a with
    | ⟨0, _⟩ => show win0_3.index t (0 : Fin 2) * 256 + 1 * (y 0).val = (y 0).val; have := (wfacts3 t).1; omega
    | ⟨1, _⟩ => show win0_3.index t (1 : Fin 2) * 128 + 1 * (y 1).val = (y 1).val; have := (wfacts3 t).2; omega

theorem wfacts4 : ∀ t : Fin cfg0.N, win0_4.index t (0 : Fin 1) = 0 := (by decide +kernel : ∀ t : Fin grid0.N, _)
theorem wblk4 (c : Dev nD) (t : Fin cfg0.N) : (iblk m c 4 t : S128.Idx → EReal) = V m c main_arg5 := by
  funext y
  show V m c main_arg5 (((cfg0.win 4).blk t).view.emb y) = V m c main_arg5 y
  refine congrArg _ (funext fun a => Fin.ext ?_)
  match a with
    | ⟨0, _⟩ => show win0_4.index t (0 : Fin 1) * 128 + 1 * (y 0).val = (y 0).val; have := wfacts4 t; omega

theorem wfacts5 : ∀ t : Fin cfg0.N, win0_5.index t (0 : Fin 2) = 0 ∧ win0_5.index t (1 : Fin 2) = 0 := (by decide +kernel : ∀ t : Fin grid0.N, _)
theorem wblk5 (c : Dev nD) (t : Fin cfg0.N) : (iblk m c 5 t : S128x128.Idx → EReal) = V m c main_v20 := by
  funext y
  show V m c main_v20 (((cfg0.win 5).blk t).view.emb y) = V m c main_v20 y
  refine congrArg _ (funext fun a => Fin.ext ?_)
  match a with
    | ⟨0, _⟩ => show win0_5.index t (0 : Fin 2) * 128 + 1 * (y 0).val = (y 0).val; have := (wfacts5 t).1; omega
    | ⟨1, _⟩ => show win0_5.index t (1 : Fin 2) * 128 + 1 * (y 1).val = (y 1).val; have := (wfacts5 t).2; omega

theorem wfacts6 : ∀ t : Fin cfg0.N, win0_6.index t (0 : Fin 1) = 0 := (by decide +kernel : ∀ t : Fin grid0.N, _)
theorem wblk6 (c : Dev nD) (t : Fin cfg0.N) : (iblk m c 6 t : S128.Idx → EReal) = V m c main_arg7 := by
  funext y
  show V m c main_arg7 (((cfg0.win 6).blk t).view.emb y) = V m c main_arg7 y
  refine congrArg _ (funext fun a => Fin.ext ?_)
  match a with
    | ⟨0, _⟩ => show win0_6.index t (0 : Fin 1) * 128 + 1 * (y 0).val = (y 0).val; have := wfacts6 t; omega

theorem wfacts7 : ∀ t : Fin cfg0.N, win0_7.index t (0 : Fin 2) = 0 ∧ win0_7.index t (1 : Fin 2) = 0 := (by decide +kernel : ∀ t : Fin grid0.N, _)
theorem wblk7 (c : Dev nD) (t : Fin cfg0.N) : (iblk m c 7 t : S128x128.Idx → EReal) = V m c main_v21 := by
  funext y
  show V m c main_v21 (((cfg0.win 7).blk t).view.emb y) = V m c main_v21 y
  refine congrArg _ (funext fun a => Fin.ext ?_)
  match a with
    | ⟨0, _⟩ => show win0_7.index t (0 : Fin 2) * 128 + 1 * (y 0).val = (y 0).val; have := (wfacts7 t).1; omega
    | ⟨1, _⟩ => show win0_7.index t (1 : Fin 2) * 128 + 1 * (y 1).val = (y 1).val; have := (wfacts7 t).2; omega

theorem wfacts8 : ∀ t : Fin cfg0.N, win0_8.index t (0 : Fin 1) = 0 := (by decide +kernel : ∀ t : Fin grid0.N, _)
theorem wblk8 (c : Dev nD) (t : Fin cfg0.N) : (iblk m c 8 t : S128.Idx → EReal) = V m c main_arg9 := by
  funext y
  show V m c main_arg9 (((cfg0.win 8).blk t).view.emb y) = V m c main_arg9 y
  refine congrArg _ (funext fun a => Fin.ext ?_)
  match a with
    | ⟨0, _⟩ => show win0_8.index t (0 : Fin 1) * 128 + 1 * (y 0).val = (y 0).val; have := wfacts8 t; omega

theorem wfacts9 : ∀ t : Fin cfg0.N, win0_9.index t (0 : Fin 2) = 0 ∧ win0_9.index t (1 : Fin 2) = 0 := (by decide +kernel : ∀ t : Fin grid0.N, _)
theorem wblk9 (c : Dev nD) (t : Fin cfg0.N) : (iblk m c 9 t : S128x10.Idx → EReal) = V m c main_v22 := by
  funext y
  show V m c main_v22 (((cfg0.win 9).blk t).view.emb y) = V m c main_v22 y
  refine congrArg _ (funext fun a => Fin.ext ?_)
  match a with
    | ⟨0, _⟩ => show win0_9.index t (0 : Fin 2) * 128 + 1 * (y 0).val = (y 0).val; have := (wfacts9 t).1; omega
    | ⟨1, _⟩ => show win0_9.index t (1 : Fin 2) * 10 + 1 * (y 1).val = (y 1).val; have := (wfacts9 t).2; omega

theorem wfacts10 : ∀ t : Fin cfg0.N, win0_10.index t (0 : Fin 1) = 0 := (by decide +kernel : ∀ t : Fin grid0.N, _)
theorem wblk10 (c : Dev nD) (t : Fin cfg0.N) : (iblk m c 10 t : S10.Idx → EReal) = V m c main_arg11 := by
  funext y
  show V m c main_arg11 (((cfg0.win 10).blk t).view.emb y) = V m c main_arg11 y
  refine congrArg _ (funext fun a => Fin.ext ?_)
  match a with
    | ⟨0, _⟩ => show win0_10.index t (0 : Fin 1) * 10 + 1 * (y 0).val = (y 0).val; have := wfacts10 t; omega

theorem wfacts11 : ∀ t : Fin cfg0.N, win0_11.index t (0 : Fin 2) = 0 ∧ win0_11.index t (1 : Fin 2) = 0 := (by decide +kernel : ∀ t : Fin grid0.N, _)
theorem wblk11 (c : Dev nD) (t : Fin cfg0.N) : (iblk m c 11 t : S5x128.Idx → EReal) = V m c main_v23 := by
  funext y
  show V m c main_v23 (((cfg0.win 11).blk t).view.emb y) = V m c main_v23 y
  refine congrArg _ (funext fun a => Fin.ext ?_)
  match a with
    | ⟨0, _⟩ => show win0_11.index t (0 : Fin 2) * 5 + 1 * (y 0).val = (y 0).val; have := (wfacts11 t).1; omega
    | ⟨1, _⟩ => show win0_11.index t (1 : Fin 2) * 128 + 1 * (y 1).val = (y 1).val; have := (wfacts11 t).2; omega

theorem wfacts12 : ∀ t : Fin cfg0.N, win0_12.index t (0 : Fin 1) = 0 := (by decide +kernel : ∀ t : Fin grid0.N, _)
theorem wblk12 (c : Dev nD) (t : Fin cfg0.N) : (iblk m c 12 t : S128.Idx → EReal) = V m c main_arg13 := by
  funext y
  show V m c main_arg13 (((cfg0.win 12).blk t).view.emb y) = V m c main_arg13 y
  refine congrArg _ (funext fun a => Fin.ext ?_)
  match a with
    | ⟨0, _⟩ => show win0_12.index t (0 : Fin 1) * 128 + 1 * (y 0).val = (y 0).val; have := wfacts12 t; omega

theorem wfacts13 : ∀ t : Fin cfg0.N, win0_13.index t (0 : Fin 2) = 0 ∧ win0_13.index t (1 : Fin 2) = 0 := (by decide +kernel : ∀ t : Fin grid0.N, _)
theorem wblk13 (c : Dev nD) (t : Fin cfg0.N) : (iblk m c 13 t : S128x128.Idx → EReal) = V m c main_v24 := by
  funext y
  show V m c main_v24 (((cfg0.win 13).blk t).view.emb y) = V m c main_v24 y
  refine congrArg _ (funext fun a => Fin.ext ?_)
  match a with
    | ⟨0, _⟩ => show win0_13.index t (0 : Fin 2) * 128 + 1 * (y 0).val = (y 0).val; have := (wfacts13 t).1; omega
    | ⟨1, _⟩ => show win0_13.index t (1 : Fin 2) * 128 + 1 * (y 1).val = (y 1).val; have := (wfacts13 t).2; omega

theorem wfacts14 : ∀ t : Fin cfg0.N, win0_14.index t (0 : Fin 1) = 0 := (by decide +kernel : ∀ t : Fin grid0.N, _)
theorem wblk14 (c : Dev nD) (t : Fin cfg0.N) : (iblk m c 14 t : S128.Idx → EReal) = V m c main_arg15 := by
  funext y
  show V m c main_arg15 (((cfg0.win 14).blk t).view.emb y) = V m c main_arg15 y
  refine congrArg _ (funext fun a => Fin.ext ?_)
  match a with
    | ⟨0, _⟩ => show win0_14.index t (0 : Fin 1) * 128 + 1 * (y 0).val = (y 0).val; have := wfacts14 t; omega

theorem wfacts15 : ∀ t : Fin cfg0.N, win0_15.index t (0 : Fin 2) = 0 ∧ win0_15.index t (1 : Fin 2) = 0 := (by decide +kernel : ∀ t : Fin grid0.N, _)
theorem wblk15 (c : Dev nD) (t : Fin cfg0.N) : (iblk m c 15 t : S128x128.Idx → EReal) = V m c main_v25 := by
  funext y
  show V m c main_v25 (((cfg0.win 15).blk t).view.emb y) = V m c main_v25 y
  refine congrArg _ (funext fun a => Fin.ext ?_)
  match a with
    | ⟨0, _⟩ => show win0_15.index t (0 : Fin 2) * 128 + 1 * (y 0).val = (y 0).val; have := (wfacts15 t).1; omega
    | ⟨1, _⟩ => show win0_15.index t (1 : Fin 2) * 128 + 1 * (y 1).val = (y 1).val; have := (wfacts15 t).2; omega

theorem wfacts16 : ∀ t : Fin cfg0.N, win0_16.index t (0 : Fin 1) = 0 := (by decide +kernel : ∀ t : Fin grid0.N, _)
theorem wblk16 (c : Dev nD) (t : Fin cfg0.N) : (iblk m c 16 t : S128.Idx → EReal) = V m c main_arg17 := by
  funext y
  show V m c main_arg17 (((cfg0.win 16).blk t).view.emb y) = V m c main_arg17 y
  refine congrArg _ (funext fun a => Fin.ext ?_)
  match a with
    | ⟨0, _⟩ => show win0_16.index t (0 : Fin 1) * 128 + 1 * (y 0).val = (y 0).val; have := wfacts16 t; omega

theorem wfacts17 : ∀ t : Fin cfg0.N, win0_17.index t (0 : Fin 2) = 0 ∧ win0_17.index t (1 : Fin 2) = 0 := (by decide +kernel : ∀ t : Fin grid0.N, _)
theorem wblk17 (c : Dev nD) (t : Fin cfg0.N) : (iblk m c 17 t : S128x256.Idx → EReal) = V m c main_v26 := by
  funext y
  show V m c main_v26 (((cfg0.win 17).blk t).view.emb y) = V m c main_v26 y
  refine congrArg _ (funext fun a => Fin.ext ?_)
  match a with
    | ⟨0, _⟩ => show win0_17.index t (0 : Fin 2) * 128 + 1 * (y 0).val = (y 0).val; have := (wfacts17 t).1; omega
    | ⟨1, _⟩ => show win0_17.index t (1 : Fin 2) * 256 + 1 * (y 1).val = (y 1).val; have := (wfacts17 t).2; omega

theorem wfacts18 : ∀ t : Fin cfg0.N, win0_18.index t (0 : Fin 1) = 0 := (by decide +kernel : ∀ t : Fin grid0.N, _)
theorem wblk18 (c : Dev nD) (t : Fin cfg0.N) : (iblk m c 18 t : S256.Idx → EReal) = V m c main_arg19 := by
  funext y
  show V m c main_arg19 (((cfg0.win 18).blk t).view.emb y) = V m c main_arg19 y
  refine congrArg _ (funext fun a => Fin.ext ?_)
  match a with
    | ⟨0, _⟩ => show win0_18.index t (0 : Fin 1) * 256 + 1 * (y 0).val = (y 0).val; have := wfacts18 t; omega

/-! ## The row blocks are rows of the arrays -/

theorem xr_row (c : Dev nD) (t : Fin cfg0.N) (p : Fin 4096) (e : Fin 503808)
    (he : e.val = (grid0.coords t 0).val * 4096 + p.val) :
    row (iblk m c 0 t : Mat 4096 128) p = row (XR m c) e := by
  obtain ⟨f0, f1, -⟩ := idx_facts t
  funext k
  show V m c main_v11 (((cfg0.win 0).blk t).view.emb (ix2 p k)) = V m c main_v11 (ix2 e k)
  refine congrArg _ (funext fun a => Fin.ext ?_)
  match a with
  | ⟨0, _⟩ => show win0_0.index t (0 : Fin 2) * 4096 + 1 * p.val = e.val; omega
  | ⟨1, _⟩ => show win0_0.index t (1 : Fin 2) * 128 + 1 * k.val = k.val; omega

theorem xc_row (c : Dev nD) (t : Fin cfg0.N) (p : Fin 4096) (e : Fin 503808)
    (he : e.val = (grid0.coords t 0).val * 4096 + p.val) :
    row (iblk m c 1 t : Mat 4096 128) p = row (XC m c) e := by
  obtain ⟨-, -, f0, f1, -⟩ := idx_facts t
  funext k
  show V m c main_v18 (((cfg0.win 1).blk t).view.emb (ix2 p k)) = V m c main_v18 (ix2 e k)
  refine congrArg _ (funext fun a => Fin.ext ?_)
  match a with
  | ⟨0, _⟩ => show win0_1.index t (0 : Fin 2) * 4096 + 1 * p.val = e.val; omega
  | ⟨1, _⟩ => show win0_1.index t (1 : Fin 2) * 128 + 1 * k.val = k.val; omega

theorem ep_row (c : Dev nD) (t : Fin cfg0.N) (p : Fin 4096) (e : Fin 503808)
    (he : e.val = (grid0.coords t 0).val * 4096 + p.val) :
    row (iblk m c 2 t : Mat 4096 5) p = row (EP m c) e := by
  obtain ⟨-, -, -, -, f0, f1, -⟩ := idx_facts t
  funext k
  show V m c main_v2 (((cfg0.win 2).blk t).view.emb (ix2 p k)) = V m c main_v2 (ix2 e k)
  refine congrArg _ (funext fun a => Fin.ext ?_)
  match a with
  | ⟨0, _⟩ => show win0_2.index t (0 : Fin 2) * 4096 + 1 * p.val = e.val; omega
  | ⟨1, _⟩ => show win0_2.index t (1 : Fin 2) * 5 + 1 * k.val = k.val; omega

/-- The weights a point's blocks hold are the weights the region finds. -/
theorem kparams_blk (c : Dev nD) (t : Fin cfg0.N) :
    kparams (iblk m c 3 t) (iblk m c 4 t) (iblk m c 5 t) (iblk m c 6 t) (iblk m c 7 t) (iblk m c 8 t) (iblk m c 9 t)
      (iblk m c 10 t) (iblk m c 11 t) (iblk m c 12 t) (iblk m c 13 t) (iblk m c 14 t) (iblk m c 15 t) (iblk m c 16 t)
      (iblk m c 17 t) (iblk m c 18 t) = KP m c := by
  unfold KP
  rw [wblk3 m c t, wblk4 m c t, wblk5 m c t, wblk6 m c t, wblk7 m c t, wblk8 m c t, wblk9 m c t, wblk10 m c t, wblk11 m c t, wblk12 m c t, wblk13 m c t, wblk14 m c t, wblk15 m c t, wblk16 m c t, wblk17 m c t, wblk18 m c t]

/-! ## What each point writes back -/

/-- What point t writes back to result vector 1 is block t of `G19`. -/
theorem flushed19_eq (c : Dev nD) (t : Fin cfg0.N) :
    (dats m 0 c).flushed 19 t = ((cfg0.win 19).blk t).view.read (Elt Ideal) (G19 m c) := by
  show (cfg0.win 19).cut (grid0.coords t) ((dats m 0 c).after 19 t) = _
  rw [after0_19]
  unfold out0_19
  rw [View.canon_unit_zero hz1]
  simp only [View.ld_unit_zero (S := S4096x128) hz2, View.ld_unit_zero (S := S256x128) hz2, View.ld_unit_zero (S := S128x128) hz2, View.ld_unit_zero (S := S128x10) hz2, View.ld_unit_zero (S := S4096x5) hz2, View.ld_unit_zero (S := S5x128) hz2, View.ld_unit_zero (S := S128x256) hz2, View.ld_unit_zero (S := S128) hz1, View.ld_unit_zero (S := S10) hz1, View.ld_unit_zero (S := S256) hz1]
  obtain ⟨-, -, -, -, -, -, f19, f20, f21, hlt, -⟩ := idx_facts t
  funext j
  obtain ⟨p, rfl⟩ : ∃ p : Fin 4096, j = ix1 p := ⟨j 0, eq_ix1 j⟩
  have hp : p.val < 4096 := p.isLt
  have hev : ((((cfg0.win 19).blk t).view.emb (ix1 p)) 0).val = (grid0.coords t 0).val * 4096 + p.val := by
    show win0_19.index t (0 : Fin 1) * 4096 + 1 * p.val = _
    omega
  refine (aff_at (grid0.coords t 0).val hlt (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p).trans ?_
  show _ = G19 m c (((cfg0.win 19).blk t).view.emb (ix1 p))
  unfold G19
  rw [hev, kparams_blk m c t, xr_row m c t p _ hev, xc_row m c t p _ hev, ep_row m c t p _ hev]

/-- What point t writes back to result vector 2 is block t of `G20`. -/
theorem flushed20_eq (c : Dev nD) (t : Fin cfg0.N) :
    (dats m 0 c).flushed 20 t = ((cfg0.win 20).blk t).view.read (Elt Ideal) (G20 m c) := by
  show (cfg0.win 20).cut (grid0.coords t) ((dats m 0 c).after 20 t) = _
  rw [after0_20]
  unfold out0_20
  rw [View.canon_unit_zero hz1]
  simp only [View.ld_unit_zero (S := S4096x128) hz2, View.ld_unit_zero (S := S256x128) hz2, View.ld_unit_zero (S := S128x128) hz2, View.ld_unit_zero (S := S128x10) hz2, View.ld_unit_zero (S := S4096x5) hz2, View.ld_unit_zero (S := S5x128) hz2, View.ld_unit_zero (S := S128x256) hz2, View.ld_unit_zero (S := S128) hz1, View.ld_unit_zero (S := S10) hz1, View.ld_unit_zero (S := S256) hz1]
  obtain ⟨-, -, -, -, -, -, f19, f20, f21, hlt, -⟩ := idx_facts t
  funext j
  obtain ⟨p, rfl⟩ : ∃ p : Fin 4096, j = ix1 p := ⟨j 0, eq_ix1 j⟩
  have hp : p.val < 4096 := p.isLt
  have hev : ((((cfg0.win 20).blk t).view.emb (ix1 p)) 0).val = (grid0.coords t 0).val * 4096 + p.val := by
    show win0_20.index t (0 : Fin 1) * 4096 + 1 * p.val = _
    omega
  refine (loss_at (grid0.coords t 0).val hlt (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p).trans ?_
  show _ = G20 m c (((cfg0.win 20).blk t).view.emb (ix1 p))
  unfold G20
  rw [hev, kparams_blk m c t, xr_row m c t p _ hev, xc_row m c t p _ hev, ep_row m c t p _ hev]

/-- What point t writes back to result vector 3 is block t of `G21`. -/
theorem flushed21_eq (c : Dev nD) (t : Fin cfg0.N) :
    (dats m 0 c).flushed 21 t = ((cfg0.win 21).blk t).view.read (Elt Ideal) (G21 m c) := by
  show (cfg0.win 21).cut (grid0.coords t) ((dats m 0 c).after 21 t) = _
  rw [after0_21]
  unfold out0_21
  rw [View.canon_unit_zero hz1]
  simp only [View.ld_unit_zero (S := S4096x128) hz2, View.ld_unit_zero (S := S256x128) hz2, View.ld_unit_zero (S := S128x128) hz2, View.ld_unit_zero (S := S128x10) hz2, View.ld_unit_zero (S := S4096x5) hz2, View.ld_unit_zero (S := S5x128) hz2, View.ld_unit_zero (S := S128x256) hz2, View.ld_unit_zero (S := S128) hz1, View.ld_unit_zero (S := S10) hz1, View.ld_unit_zero (S := S256) hz1]
  obtain ⟨-, -, -, -, -, -, f19, f20, f21, hlt, -⟩ := idx_facts t
  funext j
  obtain ⟨p, rfl⟩ : ∃ p : Fin 4096, j = ix1 p := ⟨j 0, eq_ix1 j⟩
  have hp : p.val < 4096 := p.isLt
  have hev : ((((cfg0.win 21).blk t).view.emb (ix1 p)) 0).val = (grid0.coords t 0).val * 4096 + p.val := by
    show win0_21.index t (0 : Fin 1) * 4096 + 1 * p.val = _
    omega
  refine (kl_at (grid0.coords t 0).val hlt (iblk m c 0 t) (iblk m c 1 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p).trans ?_
  show _ = G21 m c (((cfg0.win 21).blk t).view.emb (ix1 p))
  unfold G21
  rw [hev, kparams_blk m c t, xr_row m c t p _ hev, xc_row m c t p _ hev]

/-! ## The blocks tile the vectors -/

/-- An index of result vector 1 is in point t's block iff it lies in the block's range. -/
theorem mem_blk19 (t : Fin cfg0.N) (i : S503808.Idx) :
    i ∈ ((cfg0.win 19).blk t).view.set ↔ ∀ a : Fin 1, win0_19.index t a * S4096.size a ≤ (i a).val ∧ (i a).val < win0_19.index t a * S4096.size a + S4096.size a := by
  show i ∈ ((View.whole main_v27_0).slice (win0_19.rect t)).set ↔ _
  rw [View.set_slice_whole, Rect.mem_set_unit]
  exact Iff.rfl

/-- The 123 blocks tile result vector 1. -/
theorem cover19 (i : S503808.Idx) : ∃ t : Fin cfg0.N, (cfg0.win 19).flush t = true ∧ i ∈ ((cfg0.win 19).blk t).view.set := by
  have hi : (i 0).val < 503808 := (i 0).isLt
  let t : Fin cfg0.N := ⟨(i 0).val / 4096, by show (i 0).val / 4096 < 123; omega⟩
  obtain ⟨-, -, -, -, -, -, f19, f20, f21, -, ht⟩ := idx_facts t
  have htv : t.val = (i 0).val / 4096 := rfl
  refine ⟨t, flush0_19 t, ?_⟩
  rw [mem_blk19]
  intro a
  match a with
  | ⟨0, _⟩ => show win0_19.index t (0 : Fin 1) * 4096 ≤ (i 0).val ∧ (i 0).val < win0_19.index t (0 : Fin 1) * 4096 + 4096; omega

/-- Result vector 1 after the region. -/
theorem final19 (c : Dev nD) : (dats m 0 c).arrAt 19 cfg0.N = G19 m c :=
  (dats m 0 c).arrAt_eq_of_cover 19 (G19 m c) (fun t _ => flushed19_eq m c t) (cover19)

/-- An index of result vector 2 is in point t's block iff it lies in the block's range. -/
theorem mem_blk20 (t : Fin cfg0.N) (i : S503808.Idx) :
    i ∈ ((cfg0.win 20).blk t).view.set ↔ ∀ a : Fin 1, win0_20.index t a * S4096.size a ≤ (i a).val ∧ (i a).val < win0_20.index t a * S4096.size a + S4096.size a := by
  show i ∈ ((View.whole main_v27_1).slice (win0_20.rect t)).set ↔ _
  rw [View.set_slice_whole, Rect.mem_set_unit]
  exact Iff.rfl

/-- The 123 blocks tile result vector 2. -/
theorem cover20 (i : S503808.Idx) : ∃ t : Fin cfg0.N, (cfg0.win 20).flush t = true ∧ i ∈ ((cfg0.win 20).blk t).view.set := by
  have hi : (i 0).val < 503808 := (i 0).isLt
  let t : Fin cfg0.N := ⟨(i 0).val / 4096, by show (i 0).val / 4096 < 123; omega⟩
  obtain ⟨-, -, -, -, -, -, f19, f20, f21, -, ht⟩ := idx_facts t
  have htv : t.val = (i 0).val / 4096 := rfl
  refine ⟨t, flush0_20 t, ?_⟩
  rw [mem_blk20]
  intro a
  match a with
  | ⟨0, _⟩ => show win0_20.index t (0 : Fin 1) * 4096 ≤ (i 0).val ∧ (i 0).val < win0_20.index t (0 : Fin 1) * 4096 + 4096; omega

/-- Result vector 2 after the region. -/
theorem final20 (c : Dev nD) : (dats m 0 c).arrAt 20 cfg0.N = G20 m c :=
  (dats m 0 c).arrAt_eq_of_cover 20 (G20 m c) (fun t _ => flushed20_eq m c t) (cover20)

/-- An index of result vector 3 is in point t's block iff it lies in the block's range. -/
theorem mem_blk21 (t : Fin cfg0.N) (i : S503808.Idx) :
    i ∈ ((cfg0.win 21).blk t).view.set ↔ ∀ a : Fin 1, win0_21.index t a * S4096.size a ≤ (i a).val ∧ (i a).val < win0_21.index t a * S4096.size a + S4096.size a := by
  show i ∈ ((View.whole main_v27_2).slice (win0_21.rect t)).set ↔ _
  rw [View.set_slice_whole, Rect.mem_set_unit]
  exact Iff.rfl

/-- The 123 blocks tile result vector 3. -/
theorem cover21 (i : S503808.Idx) : ∃ t : Fin cfg0.N, (cfg0.win 21).flush t = true ∧ i ∈ ((cfg0.win 21).blk t).view.set := by
  have hi : (i 0).val < 503808 := (i 0).isLt
  let t : Fin cfg0.N := ⟨(i 0).val / 4096, by show (i 0).val / 4096 < 123; omega⟩
  obtain ⟨-, -, -, -, -, -, f19, f20, f21, -, ht⟩ := idx_facts t
  have htv : t.val = (i 0).val / 4096 := rfl
  refine ⟨t, flush0_21 t, ?_⟩
  rw [mem_blk21]
  intro a
  match a with
  | ⟨0, _⟩ => show win0_21.index t (0 : Fin 1) * 4096 ≤ (i 0).val ∧ (i 0).val < win0_21.index t (0 : Fin 1) * 4096 + 4096; omega

/-- Result vector 3 after the region. -/
theorem final21 (c : Dev nD) : (dats m 0 c).arrAt 21 cfg0.N = G21 m c :=
  (dats m 0 c).arrAt_eq_of_cover 21 (G21 m c) (fun t _ => flushed21_eq m c t) (cover21)

end Cert.KernelValue

end
-- ==== Proof.Tail.lean ====
/-
  The host operations after the region: the first 500000 entries of a vector of 503808, and their mean.

  The kernel keeps the first 500000 entries of each result vector. The first result is that slice; the other two are the
  sum of the slice's entries, from the zero word, divided by a float constant. The sum over the slice's indices is the
  sum over the positions 0, …, 499999.
-/
import proofs.«417158_j34479997452839_3_alg».proof.Proof.Gen.KernelIdeal
import proofs.«417158_j34479997452839_3_alg».proof.Proof.Spec
import Idealize.ShloMosaic.PureOps.Ideal.Laws
import Idealize.ShloMosaic.Lib.Pipeline.Value

noncomputable section

open scoped BigOperators

namespace Cert.Tail

open Cert.KernelIdeal Cert.KernelIdeal.Facts₀ Cert.KernelIdeal.Facts Cert.Spec
open Idealize.ShloMosaic Idealize.ShloMosaic.ValueIdx

/-- The slice keeps the first 500000 entries. -/
theorem slice_apply (G : FVec Ideal S503808 .f32) (i : S500000.Idx) :
    extractStridedSlice S500000 ![0] G slices_S503808_S500000_0 i
      = G (ix1 ⟨(i 0).val, by have h : (i 0).val < 500000 := (i 0).isLt; omega⟩) := by
  exact extractStridedSlice_apply _ G _ i _ (fun a => by
    match a with
    | ⟨0, _⟩ => show (i 0).val = 0 + (i 0).val; omega)

/-- The mean of the first 500000 entries: their sum from the zero word, divided by the float word w. -/
theorem mean_eq (G : FVec Ideal S503808 .f32) (f : Fin 500000 → EReal)
    (hG : ∀ e : Fin 500000, G (ix1 ⟨e.val, by have := e.isLt; omega⟩) = f e) (w : BitVec 32) :
    Host.divf (F := Ideal)
        (Host.reduceAdd (F := Ideal) (extractStridedSlice S500000 ![0] G slices_S503808_S500000_0)
          (constant (F := Ideal) S_ .f32 0x00000000#32) reducesTo_S500000_S_d0 h_S_)
        (constant (F := Ideal) S_ .f32 w)
      = fun _ => Ideal.div (Ideal.ofBits .f32 0x00000000#32 + ∑ e : Fin 500000, f e) (Ideal.ofBits .f32 w) := by
  funext j
  refine congrArg (fun z => Ideal.div z (Ideal.ofBits .f32 w)) ?_
  have hsum : Host.reduceAdd (F := Ideal) (extractStridedSlice S500000 ![0] G slices_S503808_S500000_0)
        (constant (F := Ideal) S_ .f32 0x00000000#32) reducesTo_S500000_S_d0 h_S_ j
      = Ideal.ofBits .f32 0x00000000#32
        + ∑ i : S500000.Idx, extractStridedSlice S500000 ![0] G slices_S503808_S500000_0 i := by
    simp only [Host.reduceAdd, Ideal.hostReduceAdd_def]
    exact Ideal.hostReduceAdd_total reducesTo_S500000_S_d0 (fun b => b.elim0) _ _ j
  refine hsum.trans ?_
  rw [Spec.sum_idx1]
  refine congrArg (fun z => Ideal.ofBits .f32 0x00000000#32 + z) ?_
  refine Finset.sum_congr rfl (fun e _ => ?_)
  rw [slice_apply]
  exact hG e

end Cert.Tail

end
-- ==== Proof.KernelRun.lean ====
/-
  The kernel's run, read: its three results as the specification's functions of the argument arrays.

  After the region the kernel keeps the first 500000 entries of each result vector: the affinities as they are, the
  losses and the divergences summed and divided by their counts. For an edge e < 500000 the rows the region finds at
  position e are the rows of x that the edge's two index words name and the edge's noise row, and the weights it finds
  are the argument weights; so the kept entries are the specification's per-edge values.
-/
import proofs.«417158_j34479997452839_3_alg».proof.Proof.KernelValue
import proofs.«417158_j34479997452839_3_alg».proof.Proof.Tail
import Idealize.ShloMosaic.Lib.StableHlo.Run

set_option maxRecDepth 16384

noncomputable section

open scoped BigOperators

namespace Cert.KernelRun

open Cert.KernelIdeal Cert.KernelIdeal.Gen Cert.KernelIdeal.GenP Cert.Edge Cert.LibDense Cert.Spec Cert.Index
open Cert.KernelEntry Cert.KernelValue
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The arrays the region finds, in the arguments -/

theorem XR_row (c : Dev nD) (e : Fin 503808) (he : e.val < 500000) :
    row (XR m c) e = row (m ((c : Thread nD τ).loc main_arg0)) (node ((m ((c : Thread nD τ).loc main_arg1)) (ix1 ⟨e.val, he⟩))) := by
  funext k
  exact (congrFun (V_v11 m c) (ix2 e k)).trans (kernel_rows _ _ e he k)

theorem XC_row (c : Dev nD) (e : Fin 503808) (he : e.val < 500000) :
    row (XC m c) e = row (m ((c : Thread nD τ).loc main_arg0)) (node ((m ((c : Thread nD τ).loc main_arg2)) (ix1 ⟨e.val, he⟩))) := by
  funext k
  exact (congrFun (V_v18 m c) (ix2 e k)).trans (kernel_rows _ _ e he k)

theorem EP_row (c : Dev nD) (e : Fin 503808) (he : e.val < 500000) :
    row (EP m c) e = row (m ((c : Thread nD τ).loc main_arg3)) ⟨e.val, he⟩ := by
  funext l
  exact (congrFun (V_v2 m c) (ix2 e l)).trans (kpad_rows _ e he l)

theorem KP_eq (c : Dev nD) : KP m c = (aparams (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  unfold KP
  rw [V_v19 m c, V_main_arg5 m c, V_v20 m c, V_main_arg7 m c, V_v21 m c, V_main_arg9 m c, V_v22 m c, V_main_arg11 m c, V_v23 m c, V_main_arg13 m c, V_v24 m c, V_main_arg15 m c, V_v25 m c, V_main_arg17 m c, V_v26 m c, V_main_arg19 m c]
  rfl

/-- The three result vectors at an edge e < 500000. -/
theorem G19_at (c : Dev nD) (e : Fin 500000) :
    G19 m c (ix1 ⟨e.val, by have := e.isLt; omega⟩) = affAt (m ((c : Thread nD τ).loc main_arg0)) (m ((c : Thread nD τ).loc main_arg1)) (m ((c : Thread nD τ).loc main_arg2)) (m ((c : Thread nD τ).loc main_arg3)) (aparams (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) e := by
  have he : e.val < 500000 := e.isLt
  unfold G19 affAt
  rw [if_pos (show ((ix1 (⟨e.val, by omega⟩ : Fin 503808) : S503808.Idx) 0).val < 500000 from he), KP_eq,
    XR_row m c _ he, XC_row m c _ he, EP_row m c _ he]

theorem G20_at (c : Dev nD) (e : Fin 500000) :
    G20 m c (ix1 ⟨e.val, by have := e.isLt; omega⟩) = lossAt (m ((c : Thread nD τ).loc main_arg0)) (m ((c : Thread nD τ).loc main_arg1)) (m ((c : Thread nD τ).loc main_arg2)) (m ((c : Thread nD τ).loc main_arg3)) (aparams (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) e := by
  have he : e.val < 500000 := e.isLt
  unfold G20 lossAt
  rw [if_pos (show ((ix1 (⟨e.val, by omega⟩ : Fin 503808) : S503808.Idx) 0).val < 500000 from he), KP_eq,
    XR_row m c _ he, XC_row m c _ he, EP_row m c _ he]

theorem G21_at (c : Dev nD) (e : Fin 500000) :
    G21 m c (ix1 ⟨e.val, by have := e.isLt; omega⟩) = klAt (m ((c : Thread nD τ).loc main_arg0)) (m ((c : Thread nD τ).loc main_arg1)) (m ((c : Thread nD τ).loc main_arg2)) (aparams (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) e := by
  have he : e.val < 500000 := e.isLt
  unfold G21 klAt
  rw [if_pos (show ((ix1 (⟨e.val, by omega⟩ : Fin 503808) : S503808.Idx) 0).val < 500000 from he), KP_eq,
    XR_row m c _ he, XC_row m c _ he]

/-! ## The host operations after the region -/

theorem res_v28 (c : Dev nD) :
    Pipeline.afterTail₀ cfgs (dats m) 0 (V0 m) [hostOps1] c main_v28
      = affArr (m ((c : Thread nD τ).loc main_arg0)) (m ((c : Thread nD τ).loc main_arg1)) (m ((c : Thread nD τ).loc main_arg2)) (m ((c : Thread nD τ).loc main_arg3)) (aparams (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  unfold Pipeline.afterTail₀
  show StableHlo.after hostOps1 _ (Proc.devRef .tc main_v28) = _
  after_results
  rw [Pipeline.withArrays_arr spec0 launch0.win.arr_inj c _ _ 19, final19]
  funext i
  rw [Tail.slice_apply]
  exact G19_at m c (i 0)

theorem res_v31 (c : Dev nD) :
    Pipeline.afterTail₀ cfgs (dats m) 0 (V0 m) [hostOps1] c main_v31
      = lossMean (m ((c : Thread nD τ).loc main_arg0)) (m ((c : Thread nD τ).loc main_arg1)) (m ((c : Thread nD τ).loc main_arg2)) (m ((c : Thread nD τ).loc main_arg3)) (aparams (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  unfold Pipeline.afterTail₀
  show StableHlo.after hostOps1 _ (Proc.devRef .tc main_v31) = _
  after_results
  rw [Pipeline.withArrays_arr spec0 launch0.win.arr_inj c _ _ 20, final20]
  exact Tail.mean_eq (G20 m c) _ (G20_at m c) _

theorem res_v34 (c : Dev nD) :
    Pipeline.afterTail₀ cfgs (dats m) 0 (V0 m) [hostOps1] c main_v34
      = klMean (m ((c : Thread nD τ).loc main_arg0)) (m ((c : Thread nD τ).loc main_arg1)) (m ((c : Thread nD τ).loc main_arg2)) (aparams (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  unfold Pipeline.afterTail₀
  show StableHlo.after hostOps1 _ (Proc.devRef .tc main_v34) = _
  after_results
  rw [Pipeline.withArrays_arr spec0 launch0.win.arr_inj c _ _ 21, final21]
  exact Tail.mean_eq (G21 m c) _ (G21_at m c) _

/-! ## The run -/

set_option maxHeartbeats 4000000 in
/-- Every weakly fair execution of the kernel's program ends with the three results at the specification's functions
    of the argument arrays, whatever the index words, and the argument arrays unchanged. -/
theorem run : θ_run defs (onTc (τ := τ) (main (F := Ideal))) ⟨m, fun _ => 0, ρ⟩ (fun r => ∀ c : Dev nD,
      r.2.mem ((c.tc : Thread nD τ).loc main_v28) = affArr (m ((c.tc : Thread nD τ).loc main_arg0)) (m ((c.tc : Thread nD τ).loc main_arg1)) (m ((c.tc : Thread nD τ).loc main_arg2)) (m ((c.tc : Thread nD τ).loc main_arg3)) (aparams (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)))
      ∧ r.2.mem ((c.tc : Thread nD τ).loc main_v31) = lossMean (m ((c.tc : Thread nD τ).loc main_arg0)) (m ((c.tc : Thread nD τ).loc main_arg1)) (m ((c.tc : Thread nD τ).loc main_arg2)) (m ((c.tc : Thread nD τ).loc main_arg3)) (aparams (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)))
      ∧ r.2.mem ((c.tc : Thread nD τ).loc main_v34) = klMean (m ((c.tc : Thread nD τ).loc main_arg0)) (m ((c.tc : Thread nD τ).loc main_arg1)) (m ((c.tc : Thread nD τ).loc main_arg2)) (aparams (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨
      ((h c).2 main_v28 (Pipeline.mem_restRefs_of main_v28 (by decide) (by decide))).trans (res_v28 m c),
      ((h c).2 main_v31 (Pipeline.mem_restRefs_of main_v31 (by decide) (by decide))).trans (res_v31 m c),
      ((h c).2 main_v34 (Pipeline.mem_restRefs_of main_v34 (by decide) (by decide))).trans (res_v34 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 4).trans (((dats m 0 c).arrAt_in 4 rfl _).trans ((A_eq m c 4).trans (V_main_arg5 m c))),
      (((h c).2 main_arg6 (Pipeline.mem_restRefs_of main_arg6 (by decide) (by decide))).trans (W_main_arg6 m (dats m) c)),
      ((h c).1 6).trans (((dats m 0 c).arrAt_in 6 rfl _).trans ((A_eq m c 6).trans (V_main_arg7 m c))),
      (((h c).2 main_arg8 (Pipeline.mem_restRefs_of main_arg8 (by decide) (by decide))).trans (W_main_arg8 m (dats m) c)),
      ((h c).1 8).trans (((dats m 0 c).arrAt_in 8 rfl _).trans ((A_eq m c 8).trans (V_main_arg9 m c))),
      (((h c).2 main_arg10 (Pipeline.mem_restRefs_of main_arg10 (by decide) (by decide))).trans (W_main_arg10 m (dats m) c)),
      ((h c).1 10).trans (((dats m 0 c).arrAt_in 10 rfl _).trans ((A_eq m c 10).trans (V_main_arg11 m c))),
      (((h c).2 main_arg12 (Pipeline.mem_restRefs_of main_arg12 (by decide) (by decide))).trans (W_main_arg12 m (dats m) c)),
      ((h c).1 12).trans (((dats m 0 c).arrAt_in 12 rfl _).trans ((A_eq m c 12).trans (V_main_arg13 m c))),
      (((h c).2 main_arg14 (Pipeline.mem_restRefs_of main_arg14 (by decide) (by decide))).trans (W_main_arg14 m (dats m) c)),
      ((h c).1 14).trans (((dats m 0 c).arrAt_in 14 rfl _).trans ((A_eq m c 14).trans (V_main_arg15 m c))),
      (((h c).2 main_arg16 (Pipeline.mem_restRefs_of main_arg16 (by decide) (by decide))).trans (W_main_arg16 m (dats m) c)),
      ((h c).1 16).trans (((dats m 0 c).arrAt_in 16 rfl _).trans ((A_eq m c 16).trans (V_main_arg17 m c))),
      (((h c).2 main_arg18 (Pipeline.mem_restRefs_of main_arg18 (by decide) (by decide))).trans (W_main_arg18 m (dats m) c)),
      ((h c).1 18).trans (((dats m 0 c).arrAt_in 18 rfl _).trans ((A_eq m c 18).trans (V_main_arg19 m c)))⟩) (run_main m ρ)

end Cert.KernelRun

end
-- ==== Proof.EdgePair.lean ====
/-
  The pair row: one product, one sum.

  The first layer over the pair (r, c), read as one row of 256 entries, is its two-product form, and the squared distance
  from the pair row summed over its 256 entries is the two-sum form: a finite sum over 128 + 128 terms split at term 128.
  Only the associativity and commutativity of addition are used, so both hold on the extended reals at the infinities too.
-/
import proofs.«417158_j34479997452839_3_alg».proof.Proof.Edge

noncomputable section

open scoped BigOperators

namespace Cert.Edge

open Cert.LibDense Idealize.ShloMosaic Idealize.ShloMosaic.ValueIdx

/-- The pair row on its first 128 entries is r. -/
theorem pairRow_castAdd (r c : Row 128) (j : Fin 128) : pairRow r c (Fin.castAdd 128 j) = r j := by
  have h : (Fin.castAdd 128 j).val < 128 := j.isLt
  rw [pairRow, dif_pos h]
  rfl

/-- The pair row on its last 128 entries is c. -/
theorem pairRow_natAdd (r c : Row 128) (j : Fin 128) : pairRow r c (Fin.natAdd 128 j) = c j := by
  have h : ¬ (Fin.natAdd 128 j).val < 128 := by
    show ¬ 128 + j.val < 128
    omega
  rw [pairRow, dif_neg h]
  refine congrArg c (Fin.ext ?_)
  show 128 + j.val - 128 = j.val
  omega

/-- The first layer over the pair row is its two-product form. -/
theorem aff_pair (W0 : Mat 256 128) (b0 : Row 128) (r c : Row 128) :
    rRelu (rAff (pairRow r c) W0 b0) = h1 W0 b0 r c := by
  unfold h1
  refine congrArg rRelu ?_
  funext q
  show (∑ j : Fin (128 + 128), pairRow r c j * W0 (ix2 j q)) + b0 q = _
  rw [Fin.sum_univ_add]
  refine congrArg (· + b0 q) ?_
  refine congrArg₂ (· + ·) (Finset.sum_congr rfl fun j _ => ?_) (Finset.sum_congr rfl fun j _ => ?_)
  · rw [pairRow_castAdd]
    rfl
  · rw [pairRow_natAdd]
    rfl

/-- The squared distance from the pair row, summed over its 256 entries, is the two-sum form. -/
theorem sq_pair (ρ : Row 256) (r c : Row 128) :
    Ideal.sqrt (∑ j : Fin 256, (ρ j - pairRow r c j) * (ρ j - pairRow r c j)) = rloss ρ r c := by
  unfold rloss
  refine congrArg Ideal.sqrt ?_
  show ∑ j : Fin (128 + 128), (ρ j - pairRow r c j) * (ρ j - pairRow r c j) = _
  rw [Fin.sum_univ_add]
  refine congrArg₂ (· + ·) (Finset.sum_congr rfl fun j _ => ?_) (Finset.sum_congr rfl fun j _ => ?_)
  · rw [pairRow_castAdd]
    rfl
  · rw [pairRow_natAdd]
    rfl

end Cert.Edge

end
-- ==== Proof.RefValue.lean ====
/-
  The reference's three results are the edge network applied edge by edge.

  The reference takes the rows x[row(e)] and x[col(e)] (an index word below zero is first moved up by the number of
  nodes; for a word that is not negative this changes nothing, and the row taken is the one the word names), lays them
  side by side as one row of 256 entries, and runs the encoder, the latent step, the decoder, the loss, the affinity
  and the divergence as host operations over all 500000 edges at once. Read at an edge, each host layer is the row
  layer of `Edge.lean`; the first layer over the pair row is the two-product form and the loss over the pair row the
  two-sum form (`Edge.aff_pair`, `Edge.sq_pair`). The two means are the sums from the zero word divided by the
  counts; the divergence's sum over the 500000 × 5 entries is the sum over the edges of the sums over the 5 coordinates.
-/
import proofs.«417158_j34479997452839_3_alg».proof.Proof.Gen.ReferenceIdeal.Read
import proofs.«417158_j34479997452839_3_alg».proof.Proof.Spec
import proofs.«417158_j34479997452839_3_alg».proof.Proof.EdgePair
import proofs.«417158_j34479997452839_3_alg».proof.Proof.LibGatherRows

noncomputable section

open scoped BigOperators

namespace Cert.RefValue

open Cert.ReferenceIdeal Cert.ReferenceIdeal.Gen Cert.ReferenceIdeal.Read Cert.Edge Cert.Spec Cert.LibDense
open Idealize.ShloMosaic Idealize.ShloMosaic.ValueIdx

/-! ## The rows taken -/

/-- An index word that is not negative is not moved: the comparison with the zero word fails and the word itself is chosen. -/
theorem wrap_word (w z k : BitVec 32) (hz : z = 0#32) (h : 0 ≤ w.toInt) :
    Scalar.select (IntOp.cmpi .slt w z) (IntOp.addi w k) w = w := by
  subst hz
  have hs : w.slt 0#32 = false := by
    rw [BitVec.slt, decide_eq_false_iff_not]
    have h0 : (0#32 : BitVec 32).toInt = 0 := rfl
    omega
  show Scalar.select (BitVec.ofBool (w.slt 0#32)) _ _ = w
  rw [hs]
  exact select_zero _ _

/-- The rows of the table that a vector of index words names, one row per word. -/
def taken (x : Mat 100000 128) (w : I1 500000) : Mat 500000 128 :=
  fun i => x (ix2 (node (w (ix1 (i 0)))) (i 1))

theorem row_taken (x : Mat 100000 128) (w : I1 500000) (e : Fin 500000) :
    row (taken x w) e = row x (node (w (ix1 e))) := rfl

/-- Two arrays of 128 columns laid side by side, row by row. -/
def paired (a b : Mat 500000 128) : Mat 500000 256 := fun i => pairRow (row a (i 0)) (row b (i 0)) (i 1)

theorem row_paired (a b : Mat 500000 128) (e : Fin 500000) : row (paired a b) e = pairRow (row a e) (row b e) := rfl

section Stages

variable (x0 : (⟨S100000x128, .f32⟩ : BufTy).Contents (Elt Ideal))
  (x1 x2 : (⟨S500000, .i32⟩ : BufTy).Contents (Elt Ideal))

theorem v4_eq (h1 : ∀ i, 0 ≤ (x1 i).toInt) : val_main_v4 (F := Ideal) x1 = x1 := by
  funext i
  rw [val_main_v4_apply, val_main_v1_apply, val_main_v3_apply]
  exact wrap_word _ _ _ (by rw [val_main_v0_apply, val_main_c_apply]) (h1 i)

theorem v11_eq (h2 : ∀ i, 0 ≤ (x2 i).toInt) : val_main_v11 (F := Ideal) x2 = x2 := by
  funext i
  rw [val_main_v11_apply, val_main_v8_apply, val_main_v10_apply]
  exact wrap_word _ _ _ (by rw [val_main_v7_apply, val_main_c_1_apply]) (h2 i)

theorem v6_eq (h1 : ∀ i, 0 ≤ (x1 i).toInt) : val_main_v6 (F := Ideal) x0 x1 = taken x0 x1 := by
  funext i
  obtain ⟨e, k, rfl⟩ : ∃ (e : Fin 500000) (k : Fin 128), i = ix2 e k := ⟨i 0, i 1, eq_ix2 i⟩
  have hw : val_main_v5 (F := Ideal) x1 (ix2 e 0) = x1 (ix1 e) := by
    rw [val_main_v5_apply, v4_eq x1 h1]
    exact congrArg x1 (funext fun a => match a with | ⟨0, _⟩ => rfl)
  unfold val_main_v6
  refine (Cert.Lib.gather_rows _ rfl rfl rfl rfl rfl x0 _ e k (by decide)).trans ?_
  show x0 (ix2 (node (val_main_v5 (F := Ideal) x1 (ix2 e 0))) k) = x0 (ix2 (node (x1 (ix1 e))) k)
  rw [hw]

theorem v13_eq (h2 : ∀ i, 0 ≤ (x2 i).toInt) : val_main_v13 (F := Ideal) x0 x2 = taken x0 x2 := by
  funext i
  obtain ⟨e, k, rfl⟩ : ∃ (e : Fin 500000) (k : Fin 128), i = ix2 e k := ⟨i 0, i 1, eq_ix2 i⟩
  have hw : val_main_v12 (F := Ideal) x2 (ix2 e 0) = x2 (ix1 e) := by
    rw [val_main_v12_apply, v11_eq x2 h2]
    exact congrArg x2 (funext fun a => match a with | ⟨0, _⟩ => rfl)
  unfold val_main_v13
  refine (Cert.Lib.gather_rows _ rfl rfl rfl rfl rfl x0 _ e k (by decide)).trans ?_
  show x0 (ix2 (node (val_main_v12 (F := Ideal) x2 (ix2 e 0))) k) = x0 (ix2 (node (x2 (ix1 e))) k)
  rw [hw]

/-- The concatenation of two arrays of 128 columns along the columns is the two laid side by side. -/
theorem concat_paired (a b : Mat 500000 128) :
    concatenate S500000x256 1 [⟨S500000x128, a⟩, ⟨S500000x128, b⟩] Facts₀.concatenates_S500000x128_S500000x128_S500000x256_d1
      = paired a b := by
  funext i
  obtain ⟨e, j, rfl⟩ : ∃ (e : Fin 500000) (j : Fin 256), i = ix2 e j := ⟨i 0, i 1, eq_ix2 i⟩
  by_cases hj : j.val < 128
  · refine (concatenate_pair_apply_left 1 a b _ (ix2 e j) rfl (ix2 e ⟨j.val, hj⟩) (fun b => ?_)).trans ?_
    · match b with
      | ⟨0, _⟩ => rfl
      | ⟨1, _⟩ => rfl
    · show _ = pairRow (row a e) (row b e) j
      rw [pairRow, dif_pos hj]
      rfl
  · refine (concatenate_pair_apply_right 1 a b _ (ix2 e j) rfl rfl
      (ix2 e ⟨j.val - 128, by have := j.isLt; omega⟩) (fun b hb => ?_) ?_).trans ?_
    · match b with
      | ⟨0, _⟩ => rfl
      | ⟨1, _⟩ => exact absurd rfl hb
    · show j.val - 128 + 128 = j.val
      omega
    · show _ = pairRow (row a e) (row b e) j
      rw [pairRow, dif_neg hj]
      rfl

theorem v14_eq (h1 : ∀ i, 0 ≤ (x1 i).toInt) (h2 : ∀ i, 0 ≤ (x2 i).toInt) :
    val_main_v14 (F := Ideal) x0 x1 x2 = paired (taken x0 x1) (taken x0 x2) := by
  unfold val_main_v14
  rw [v6_eq x0 x1 h1, v13_eq x0 x2 h2]
  exact concat_paired _ _

end Stages

/-! ## The layers, array by array -/

section Net

variable (x0 : (⟨S100000x128, .f32⟩ : BufTy).Contents (Elt Ideal))
  (x1 x2 : (⟨S500000, .i32⟩ : BufTy).Contents (Elt Ideal))
  (x3 : (⟨S500000x5, .f32⟩ : BufTy).Contents (Elt Ideal))
  (x4 : (⟨S256x128, .f32⟩ : BufTy).Contents (Elt Ideal))
  (x5 : (⟨S128, .f32⟩ : BufTy).Contents (Elt Ideal))
  (x6 : (⟨S128x128, .f32⟩ : BufTy).Contents (Elt Ideal))
  (x7 : (⟨S128, .f32⟩ : BufTy).Contents (Elt Ideal))
  (x8 : (⟨S128x128, .f32⟩ : BufTy).Contents (Elt Ideal))
  (x9 : (⟨S128, .f32⟩ : BufTy).Contents (Elt Ideal))
  (x10 : (⟨S128x10, .f32⟩ : BufTy).Contents (Elt Ideal))
  (x11 : (⟨S10, .f32⟩ : BufTy).Contents (Elt Ideal))
  (x12 : (⟨S5x128, .f32⟩ : BufTy).Contents (Elt Ideal))
  (x13 : (⟨S128, .f32⟩ : BufTy).Contents (Elt Ideal))
  (x14 : (⟨S128x128, .f32⟩ : BufTy).Contents (Elt Ideal))
  (x15 : (⟨S128, .f32⟩ : BufTy).Contents (Elt Ideal))
  (x16 : (⟨S128x128, .f32⟩ : BufTy).Contents (Elt Ideal))
  (x17 : (⟨S128, .f32⟩ : BufTy).Contents (Elt Ideal))
  (x18 : (⟨S128x256, .f32⟩ : BufTy).Contents (Elt Ideal))
  (x19 : (⟨S256, .f32⟩ : BufTy).Contents (Elt Ideal))

local notation "V14" => val_main_v14 (F := Ideal) x0 x1 x2
local notation "V18" => val_main_v18 (F := Ideal) x0 x1 x2 x4 x5
local notation "V19" => val_main_v19 (F := Ideal) x0 x1 x2 x4 x5
local notation "V23" => val_main_v23 (F := Ideal) x0 x1 x2 x4 x5 x6 x7
local notation "V24" => val_main_v24 (F := Ideal) x0 x1 x2 x4 x5 x6 x7
local notation "V28" => val_main_v28 (F := Ideal) x0 x1 x2 x4 x5 x6 x7 x8 x9
local notation "V29" => val_main_v29 (F := Ideal) x0 x1 x2 x4 x5 x6 x7 x8 x9
local notation "V33" => val_main_v33 (F := Ideal) x0 x1 x2 x4 x5 x6 x7 x8 x9 x10 x11
local notation "V34" => val_main_v34 (F := Ideal) x0 x1 x2 x4 x5 x6 x7 x8 x9 x10 x11
local notation "V35" => val_main_v35 (F := Ideal) x0 x1 x2 x4 x5 x6 x7 x8 x9 x10 x11
local notation "V40" => val_main_v40 (F := Ideal) x0 x1 x2 x3 x4 x5 x6 x7 x8 x9 x10 x11
local notation "V44" => val_main_v44 (F := Ideal) x0 x1 x2 x3 x4 x5 x6 x7 x8 x9 x10 x11 x12 x13
local notation "V45" => val_main_v45 (F := Ideal) x0 x1 x2 x3 x4 x5 x6 x7 x8 x9 x10 x11 x12 x13
local notation "V49" => val_main_v49 (F := Ideal) x0 x1 x2 x3 x4 x5 x6 x7 x8 x9 x10 x11 x12 x13 x14 x15
local notation "V50" => val_main_v50 (F := Ideal) x0 x1 x2 x3 x4 x5 x6 x7 x8 x9 x10 x11 x12 x13 x14 x15
local notation "V54" => val_main_v54 (F := Ideal) x0 x1 x2 x3 x4 x5 x6 x7 x8 x9 x10 x11 x12 x13 x14 x15 x16 x17
local notation "V55" => val_main_v55 (F := Ideal) x0 x1 x2 x3 x4 x5 x6 x7 x8 x9 x10 x11 x12 x13 x14 x15 x16 x17
local notation "V59" => val_main_v59 (F := Ideal) x0 x1 x2 x3 x4 x5 x6 x7 x8 x9 x10 x11 x12 x13 x14 x15 x16 x17 x18 x19
local notation "V63" => val_main_v63 (F := Ideal) x0 x1 x2 x3 x4 x5 x6 x7 x8 x9 x10 x11 x12 x13 x14 x15 x16 x17 x18 x19
local notation "V73" => val_main_v73 (F := Ideal) x0 x1 x2 x4 x5 x6 x7 x8 x9 x10 x11
local notation "V79" => val_main_v79 (F := Ideal) x0 x1 x2 x3 x4 x5 x6 x7 x8 x9 x10 x11 x12 x13 x14 x15 x16 x17 x18 x19
local notation "PP" => aparams x4 x5 x6 x7 x8 x9 x10 x11 x12 x13 x14 x15 x16 x17 x18 x19
local notation "RR(" e ")" => row x0 (node (x1 (ix1 e)))
local notation "CC(" e ")" => row x0 (node (x2 (ix1 e)))

theorem v18_eq : V18 = aff V14 x4 (vrow x5) := by
  unfold val_main_v18 val_main_v17 val_main_v16 val_main_v15
  exact host_layer _ rfl _ _ _ _ _

theorem v19_eq : V19 = relu V18 := by
  unfold val_main_v19 val_main_call0_v0 val_main_call0_cst
  exact host_relu _ _

theorem v23_eq : V23 = aff V19 x6 (vrow x7) := by
  unfold val_main_v23 val_main_v22 val_main_v21 val_main_v20
  exact host_layer _ rfl _ _ _ _ _

theorem v24_eq : V24 = relu V23 := by
  unfold val_main_v24 val_main_call1_v0 val_main_call1_cst
  exact host_relu _ _

theorem v28_eq : V28 = aff V24 x8 (vrow x9) := by
  unfold val_main_v28 val_main_v27 val_main_v26 val_main_v25
  exact host_layer _ rfl _ _ _ _ _

theorem v29_eq : V29 = relu V28 := by
  unfold val_main_v29 val_main_call2_v0 val_main_call2_cst
  exact host_relu _ _

theorem v33_eq : V33 = aff V29 x10 (vrow x11) := by
  unfold val_main_v33 val_main_v32 val_main_v31 val_main_v30
  exact host_layer _ rfl _ _ _ _ _

theorem v44_eq : V44 = aff V40 x12 (vrow x13) := by
  unfold val_main_v44 val_main_v43 val_main_v42 val_main_v41
  exact host_layer _ rfl _ _ _ _ _

theorem v45_eq : V45 = relu V44 := by
  unfold val_main_v45 val_main_call3_v0 val_main_call3_cst
  exact host_relu _ _

theorem v49_eq : V49 = aff V45 x14 (vrow x15) := by
  unfold val_main_v49 val_main_v48 val_main_v47 val_main_v46
  exact host_layer _ rfl _ _ _ _ _

theorem v50_eq : V50 = relu V49 := by
  unfold val_main_v50 val_main_call4_v0 val_main_call4_cst
  exact host_relu _ _

theorem v54_eq : V54 = aff V50 x16 (vrow x17) := by
  unfold val_main_v54 val_main_v53 val_main_v52 val_main_v51
  exact host_layer _ rfl _ _ _ _ _

theorem v55_eq : V55 = relu V54 := by
  unfold val_main_v55 val_main_call5_v0 val_main_call5_cst
  exact host_relu _ _

theorem v59_eq : V59 = aff V55 x18 (vrow x19) := by
  unfold val_main_v59 val_main_v58 val_main_v57 val_main_v56
  exact host_layer _ rfl _ _ _ _ _

end Net

/-! ## The stages read at an edge -/

section Rows

variable (x0 : (⟨S100000x128, .f32⟩ : BufTy).Contents (Elt Ideal))
  (x1 x2 : (⟨S500000, .i32⟩ : BufTy).Contents (Elt Ideal))
  (x3 : (⟨S500000x5, .f32⟩ : BufTy).Contents (Elt Ideal))
  (x4 : (⟨S256x128, .f32⟩ : BufTy).Contents (Elt Ideal))
  (x5 : (⟨S128, .f32⟩ : BufTy).Contents (Elt Ideal))
  (x6 : (⟨S128x128, .f32⟩ : BufTy).Contents (Elt Ideal))
  (x7 : (⟨S128, .f32⟩ : BufTy).Contents (Elt Ideal))
  (x8 : (⟨S128x128, .f32⟩ : BufTy).Contents (Elt Ideal))
  (x9 : (⟨S128, .f32⟩ : BufTy).Contents (Elt Ideal))
  (x10 : (⟨S128x10, .f32⟩ : BufTy).Contents (Elt Ideal))
  (x11 : (⟨S10, .f32⟩ : BufTy).Contents (Elt Ideal))
  (x12 : (⟨S5x128, .f32⟩ : BufTy).Contents (Elt Ideal))
  (x13 : (⟨S128, .f32⟩ : BufTy).Contents (Elt Ideal))
  (x14 : (⟨S128x128, .f32⟩ : BufTy).Contents (Elt Ideal))
  (x15 : (⟨S128, .f32⟩ : BufTy).Contents (Elt Ideal))
  (x16 : (⟨S128x128, .f32⟩ : BufTy).Contents (Elt Ideal))
  (x17 : (⟨S128, .f32⟩ : BufTy).Contents (Elt Ideal))
  (x18 : (⟨S128x256, .f32⟩ : BufTy).Contents (Elt Ideal))
  (x19 : (⟨S256, .f32⟩ : BufTy).Contents (Elt Ideal))

local notation "V14" => val_main_v14 (F := Ideal) x0 x1 x2
local notation "V18" => val_main_v18 (F := Ideal) x0 x1 x2 x4 x5
local notation "V19" => val_main_v19 (F := Ideal) x0 x1 x2 x4 x5
local notation "V23" => val_main_v23 (F := Ideal) x0 x1 x2 x4 x5 x6 x7
local notation "V24" => val_main_v24 (F := Ideal) x0 x1 x2 x4 x5 x6 x7
local notation "V28" => val_main_v28 (F := Ideal) x0 x1 x2 x4 x5 x6 x7 x8 x9
local notation "V29" => val_main_v29 (F := Ideal) x0 x1 x2 x4 x5 x6 x7 x8 x9
local notation "V33" => val_main_v33 (F := Ideal) x0 x1 x2 x4 x5 x6 x7 x8 x9 x10 x11
local notation "V34" => val_main_v34 (F := Ideal) x0 x1 x2 x4 x5 x6 x7 x8 x9 x10 x11
local notation "V35" => val_main_v35 (F := Ideal) x0 x1 x2 x4 x5 x6 x7 x8 x9 x10 x11
local notation "V40" => val_main_v40 (F := Ideal) x0 x1 x2 x3 x4 x5 x6 x7 x8 x9 x10 x11
local notation "V44" => val_main_v44 (F := Ideal) x0 x1 x2 x3 x4 x5 x6 x7 x8 x9 x10 x11 x12 x13
local notation "V45" => val_main_v45 (F := Ideal) x0 x1 x2 x3 x4 x5 x6 x7 x8 x9 x10 x11 x12 x13
local notation "V49" => val_main_v49 (F := Ideal) x0 x1 x2 x3 x4 x5 x6 x7 x8 x9 x10 x11 x12 x13 x14 x15
local notation "V50" => val_main_v50 (F := Ideal) x0 x1 x2 x3 x4 x5 x6 x7 x8 x9 x10 x11 x12 x13 x14 x15
local notation "V54" => val_main_v54 (F := Ideal) x0 x1 x2 x3 x4 x5 x6 x7 x8 x9 x10 x11 x12 x13 x14 x15 x16 x17
local notation "V55" => val_main_v55 (F := Ideal) x0 x1 x2 x3 x4 x5 x6 x7 x8 x9 x10 x11 x12 x13 x14 x15 x16 x17
local notation "V59" => val_main_v59 (F := Ideal) x0 x1 x2 x3 x4 x5 x6 x7 x8 x9 x10 x11 x12 x13 x14 x15 x16 x17 x18 x19
local notation "V63" => val_main_v63 (F := Ideal) x0 x1 x2 x3 x4 x5 x6 x7 x8 x9 x10 x11 x12 x13 x14 x15 x16 x17 x18 x19
local notation "V73" => val_main_v73 (F := Ideal) x0 x1 x2 x4 x5 x6 x7 x8 x9 x10 x11
local notation "V79" => val_main_v79 (F := Ideal) x0 x1 x2 x3 x4 x5 x6 x7 x8 x9 x10 x11 x12 x13 x14 x15 x16 x17 x18 x19
local notation "PP" => aparams x4 x5 x6 x7 x8 x9 x10 x11 x12 x13 x14 x15 x16 x17 x18 x19
local notation "RR(" e ")" => row x0 (node (x1 (ix1 e)))
local notation "CC(" e ")" => row x0 (node (x2 (ix1 e)))

/-- The means are the first five of the encoder's outputs. -/
theorem row_v34 (e : Fin 500000) : row V34 e = mu (row V33 e) := by
  funext l
  show V34 (ix2 e l) = V33 (ix2 e ⟨l.val, _⟩)
  rw [val_main_v34_apply]
  exact congrArg V33 (funext fun a => match a with | ⟨0, _⟩ => rfl | ⟨1, _⟩ => rfl)

/-- The log-variances are the last five of the encoder's outputs. -/
theorem row_v35 (e : Fin 500000) : row V35 e = lv (row V33 e) := by
  funext l
  show V35 (ix2 e l) = V33 (ix2 e ⟨5 + l.val, _⟩)
  rw [val_main_v35_apply]
  exact congrArg V33 (funext fun a => match a with | ⟨0, _⟩ => rfl | ⟨1, _⟩ => rfl)

/-- The latent row. -/
theorem row_v40 (e : Fin 500000) : row V40 e = zlat (row V33 e) (row x3 e) := by
  funext l
  have hm := congrFun (row_v34 x0 x1 x2 x4 x5 x6 x7 x8 x9 x10 x11 e) l
  have hl := congrFun (row_v35 x0 x1 x2 x4 x5 x6 x7 x8 x9 x10 x11 e) l
  show V40 (ix2 e l) = mu (row V33 e) l + row x3 e l * Ideal.exp (Ideal.ofBits .f32 0x3F000000#32 * lv (row V33 e) l)
  rw [← hm, ← hl, val_main_v40_apply, val_main_v39_apply, val_main_v38_apply, val_main_v37_apply, val_main_v36_apply,
    val_main_cst_apply]
  rfl

/-- The decoder's four layers on the latent row. -/
theorem row_v59 (e : Fin 500000) :
    row V59 e = recon x16 (vrow x17) x18 (vrow x19) (dec2 x12 (vrow x13) x14 (vrow x15) (row V40 e)) := by
  rw [v59_eq, v55_eq, v54_eq, v50_eq, v49_eq, v45_eq, v44_eq, row_aff, row_relu, row_aff, row_relu, row_aff, row_relu,
    row_aff]
  rfl

variable (hx1 : ∀ i, 0 ≤ (x1 i).toInt) (hx2 : ∀ i, 0 ≤ (x2 i).toInt)
include hx1 hx2

/-- The pair row of an edge. -/
theorem row_v14 (e : Fin 500000) : row V14 e = pairRow RR(e) CC(e) := by
  rw [v14_eq x0 x1 x2 hx1 hx2]
  rfl

/-- The encoder's four layers on the pair row. -/
theorem row_v33 (e : Fin 500000) : row V33 e = enc PP RR(e) CC(e) := by
  rw [v33_eq, v29_eq, v28_eq, v24_eq, v23_eq, v19_eq, v18_eq, row_aff, row_relu, row_aff, row_relu, row_aff, row_relu,
    row_aff, row_v14 x0 x1 x2 hx1 hx2, aff_pair]
  rfl

/-- The reconstruction loss of an edge. -/
theorem v63_at (e : Fin 500000) : V63 (ix1 e) = lossAt x0 x1 x2 x3 PP e := by
  have hρ : lossAt x0 x1 x2 x3 PP e = rloss (row V59 e) RR(e) CC(e) := by
    rw [row_v59, row_v40, row_v33 x0 x1 x2 x4 x5 x6 x7 x8 x9 x10 x11 x12 x13 x14 x15 x16 x17 x18 x19 hx1 hx2]
    rfl
  rw [hρ, ← sq_pair, ← row_v14 x0 x1 x2 hx1 hx2, val_main_v63_apply, val_main_v62_apply, val_main_cst_3_apply]
  show Ideal.sqrt (Ideal.ofBits .f32 0x00000000#32 + _) = _
  rw [Ideal.ofBits_zero_f32, zero_add]
  refine congrArg Ideal.sqrt (Finset.sum_congr rfl fun k _ => ?_)
  have hi : idx_main_v62 (ix1 e) k = ix2 e k := funext fun a => match a with | ⟨0, _⟩ => rfl | ⟨1, _⟩ => rfl
  rw [hi, val_main_v61_apply, val_main_v60_apply]
  rfl

/-- The affinity of an edge. -/
theorem v79_at (e : Fin 500000) : V79 (ix1 e) = affAt x0 x1 x2 x3 PP e := by
  rw [val_main_v79_apply, val_main_v78_apply, val_main_cst_9_apply, val_main_v77_apply, val_main_v76_apply,
    val_main_cst_8_apply, val_main_v75_apply, val_main_v74_apply, val_main_cst_7_apply,
    v63_at x0 x1 x2 x3 x4 x5 x6 x7 x8 x9 x10 x11 x12 x13 x14 x15 x16 x17 x18 x19 hx1 hx2]
  rfl

/-- The divergence of an edge: the sum of the five coordinates' terms. -/
theorem v73_at (e : Fin 500000) : ∑ l : Fin 5, V73 (ix2 e l) = klAt x0 x1 x2 PP e := by
  show _ = klrow (enc PP RR(e) CC(e))
  rw [← row_v33 x0 x1 x2 x4 x5 x6 x7 x8 x9 x10 x11 x12 x13 x14 x15 x16 x17 x18 x19 hx1 hx2]
  refine Finset.sum_congr rfl fun l _ => ?_
  have hm := congrFun (row_v34 x0 x1 x2 x4 x5 x6 x7 x8 x9 x10 x11 e) l
  have hl := congrFun (row_v35 x0 x1 x2 x4 x5 x6 x7 x8 x9 x10 x11 e) l
  rw [← hm, ← hl, val_main_v73_apply, val_main_v72_apply, val_main_cst_6_apply, val_main_v71_apply, val_main_v70_apply,
    val_main_cst_5_apply, val_main_v69_apply, val_main_v68_apply, val_main_v67_apply, val_main_v66_apply,
    val_main_v65_apply, val_main_v64_apply, val_main_cst_4_apply]
  rfl

end Rows

/-! ## The three results -/

/-- The first result: every edge's affinity. -/
theorem ref_aff (x0 : (⟨S100000x128, .f32⟩ : BufTy).Contents (Elt Ideal))
    (x1 x2 : (⟨S500000, .i32⟩ : BufTy).Contents (Elt Ideal))
    (x3 : (⟨S500000x5, .f32⟩ : BufTy).Contents (Elt Ideal))
    (x4 : (⟨S256x128, .f32⟩ : BufTy).Contents (Elt Ideal))
    (x5 : (⟨S128, .f32⟩ : BufTy).Contents (Elt Ideal))
    (x6 : (⟨S128x128, .f32⟩ : BufTy).Contents (Elt Ideal))
    (x7 : (⟨S128, .f32⟩ : BufTy).Contents (Elt Ideal))
    (x8 : (⟨S128x128, .f32⟩ : BufTy).Contents (Elt Ideal))
    (x9 : (⟨S128, .f32⟩ : BufTy).Contents (Elt Ideal))
    (x10 : (⟨S128x10, .f32⟩ : BufTy).Contents (Elt Ideal))
    (x11 : (⟨S10, .f32⟩ : BufTy).Contents (Elt Ideal))
    (x12 : (⟨S5x128, .f32⟩ : BufTy).Contents (Elt Ideal))
    (x13 : (⟨S128, .f32⟩ : BufTy).Contents (Elt Ideal))
    (x14 : (⟨S128x128, .f32⟩ : BufTy).Contents (Elt Ideal))
    (x15 : (⟨S128, .f32⟩ : BufTy).Contents (Elt Ideal))
    (x16 : (⟨S128x128, .f32⟩ : BufTy).Contents (Elt Ideal))
    (x17 : (⟨S128, .f32⟩ : BufTy).Contents (Elt Ideal))
    (x18 : (⟨S128x256, .f32⟩ : BufTy).Contents (Elt Ideal))
    (x19 : (⟨S256, .f32⟩ : BufTy).Contents (Elt Ideal))
    (h1 : ∀ i, 0 ≤ (x1 i).toInt) (h2 : ∀ i, 0 ≤ (x2 i).toInt) :
    val_main_v79 (F := Ideal) x0 x1 x2 x3 x4 x5 x6 x7 x8 x9 x10 x11 x12 x13 x14 x15 x16 x17 x18 x19 = affArr x0 x1 x2 x3 (aparams x4 x5 x6 x7 x8 x9 x10 x11 x12 x13 x14 x15 x16 x17 x18 x19) := by
  funext i
  obtain ⟨e, rfl⟩ : ∃ e : Fin 500000, i = ix1 e := ⟨i 0, eq_ix1 i⟩
  exact v79_at x0 x1 x2 x3 x4 x5 x6 x7 x8 x9 x10 x11 x12 x13 x14 x15 x16 x17 x18 x19 h1 h2 e

/-- The second result: the mean reconstruction loss. -/
theorem ref_loss (x0 : (⟨S100000x128, .f32⟩ : BufTy).Contents (Elt Ideal))
    (x1 x2 : (⟨S500000, .i32⟩ : BufTy).Contents (Elt Ideal))
    (x3 : (⟨S500000x5, .f32⟩ : BufTy).Contents (Elt Ideal))
    (x4 : (⟨S256x128, .f32⟩ : BufTy).Contents (Elt Ideal))
    (x5 : (⟨S128, .f32⟩ : BufTy).Contents (Elt Ideal))
    (x6 : (⟨S128x128, .f32⟩ : BufTy).Contents (Elt Ideal))
    (x7 : (⟨S128, .f32⟩ : BufTy).Contents (Elt Ideal))
    (x8 : (⟨S128x128, .f32⟩ : BufTy).Contents (Elt Ideal))
    (x9 : (⟨S128, .f32⟩ : BufTy).Contents (Elt Ideal))
    (x10 : (⟨S128x10, .f32⟩ : BufTy).Contents (Elt Ideal))
    (x11 : (⟨S10, .f32⟩ : BufTy).Contents (Elt Ideal))
    (x12 : (⟨S5x128, .f32⟩ : BufTy).Contents (Elt Ideal))
    (x13 : (⟨S128, .f32⟩ : BufTy).Contents (Elt Ideal))
    (x14 : (⟨S128x128, .f32⟩ : BufTy).Contents (Elt Ideal))
    (x15 : (⟨S128, .f32⟩ : BufTy).Contents (Elt Ideal))
    (x16 : (⟨S128x128, .f32⟩ : BufTy).Contents (Elt Ideal))
    (x17 : (⟨S128, .f32⟩ : BufTy).Contents (Elt Ideal))
    (x18 : (⟨S128x256, .f32⟩ : BufTy).Contents (Elt Ideal))
    (x19 : (⟨S256, .f32⟩ : BufTy).Contents (Elt Ideal))
    (h1 : ∀ i, 0 ≤ (x1 i).toInt) (h2 : ∀ i, 0 ≤ (x2 i).toInt) :
    val_main_v81 (F := Ideal) x0 x1 x2 x3 x4 x5 x6 x7 x8 x9 x10 x11 x12 x13 x14 x15 x16 x17 x18 x19 = lossMean x0 x1 x2 x3 (aparams x4 x5 x6 x7 x8 x9 x10 x11 x12 x13 x14 x15 x16 x17 x18 x19) := by
  funext i
  rw [val_main_v81_apply, val_main_v80_apply, val_main_cst_10_apply, val_main_cst_11_apply, sum_idx1]
  exact congrArg (fun s => Ideal.div (Ideal.ofBits .f32 0x00000000#32 + s) (Ideal.ofBits .f32 0x48F42400#32))
    (Finset.sum_congr rfl fun a _ => v63_at x0 x1 x2 x3 x4 x5 x6 x7 x8 x9 x10 x11 x12 x13 x14 x15 x16 x17 x18 x19 h1 h2 a)

/-- The third result: the mean divergence (it reads the encoder's weights only). -/
theorem ref_kl (x0 : (⟨S100000x128, .f32⟩ : BufTy).Contents (Elt Ideal))
    (x1 x2 : (⟨S500000, .i32⟩ : BufTy).Contents (Elt Ideal))
    (x3 : (⟨S500000x5, .f32⟩ : BufTy).Contents (Elt Ideal))
    (x4 : (⟨S256x128, .f32⟩ : BufTy).Contents (Elt Ideal))
    (x5 : (⟨S128, .f32⟩ : BufTy).Contents (Elt Ideal))
    (x6 : (⟨S128x128, .f32⟩ : BufTy).Contents (Elt Ideal))
    (x7 : (⟨S128, .f32⟩ : BufTy).Contents (Elt Ideal))
    (x8 : (⟨S128x128, .f32⟩ : BufTy).Contents (Elt Ideal))
    (x9 : (⟨S128, .f32⟩ : BufTy).Contents (Elt Ideal))
    (x10 : (⟨S128x10, .f32⟩ : BufTy).Contents (Elt Ideal))
    (x11 : (⟨S10, .f32⟩ : BufTy).Contents (Elt Ideal))
    (x12 : (⟨S5x128, .f32⟩ : BufTy).Contents (Elt Ideal))
    (x13 : (⟨S128, .f32⟩ : BufTy).Contents (Elt Ideal))
    (x14 : (⟨S128x128, .f32⟩ : BufTy).Contents (Elt Ideal))
    (x15 : (⟨S128, .f32⟩ : BufTy).Contents (Elt Ideal))
    (x16 : (⟨S128x128, .f32⟩ : BufTy).Contents (Elt Ideal))
    (x17 : (⟨S128, .f32⟩ : BufTy).Contents (Elt Ideal))
    (x18 : (⟨S128x256, .f32⟩ : BufTy).Contents (Elt Ideal))
    (x19 : (⟨S256, .f32⟩ : BufTy).Contents (Elt Ideal))
    (h1 : ∀ i, 0 ≤ (x1 i).toInt) (h2 : ∀ i, 0 ≤ (x2 i).toInt) :
    val_main_v83 (F := Ideal) x0 x1 x2 x4 x5 x6 x7 x8 x9 x10 x11 = klMean x0 x1 x2 (aparams x4 x5 x6 x7 x8 x9 x10 x11 x12 x13 x14 x15 x16 x17 x18 x19) := by
  funext i
  rw [val_main_v83_apply, val_main_v82_apply, val_main_cst_12_apply, val_main_cst_13_apply, sum_idx2]
  exact congrArg (fun s => Ideal.div (Ideal.ofBits .f32 0x00000000#32 + s) (Ideal.ofBits .f32 0x4A189680#32))
    (Finset.sum_congr rfl fun a _ => v73_at x0 x1 x2 x4 x5 x6 x7 x8 x9 x10 x11 x12 x13 x14 x15 x16 x17 x18 x19 h1 h2 a)

end Cert.RefValue

end
-- ==== Proof.lean ====
/-
  The certificate's claim: five statements about three programs — the kernel as printed, the kernel read on the
  extended reals, and the reference read on the extended reals.

  1 to 3. Each program runs to its end from any memory and leaves its twenty argument arrays as they were. For the two
  kernel programs this is the frame of the one pipelined region with the host lines before and after it; for the
  reference it is the last part of what its run states.
  4. The kernel on the extended reals is the printed kernel's own text, no operation rewritten, so there is nothing to
  preserve.
  5. From memories that agree on the twenty arguments, the precondition holding of the kernel's, the kernel and the
  reference on the extended reals end with equal results. Both sets of results are the specification's three functions
  of the arguments: every edge's affinity, the mean reconstruction loss, and the mean divergence. The kernel's run ends
  at them whatever the index words. The reference's run ends at its three composed terms, which are those functions
  when no index word is negative; the precondition's last two conjuncts say exactly that of the kernel's index words,
  and the agreement of the memories carries it to the reference's.
-/
import proofs.«417158_j34479997452839_3_alg».proof.Defs
import proofs.«417158_j34479997452839_3_alg».proof.Proof.Gen.Kernel
import proofs.«417158_j34479997452839_3_alg».proof.Proof.Gen.KernelIdeal
import proofs.«417158_j34479997452839_3_alg».proof.Proof.Gen.ReferenceIdeal
import proofs.«417158_j34479997452839_3_alg».proof.Proof.Gen.Pre_finite_inputs
import proofs.«417158_j34479997452839_3_alg».proof.Proof.KernelFrame
import proofs.«417158_j34479997452839_3_alg».proof.Proof.KernelIdealFrame
import proofs.«417158_j34479997452839_3_alg».proof.Proof.KernelRun
import proofs.«417158_j34479997452839_3_alg».proof.Proof.Index
import proofs.«417158_j34479997452839_3_alg».proof.Proof.RefValue
import Idealize.ShloMosaic.Adequacy
import Idealize.ShloMosaic.Init

noncomputable section

namespace Cert.Proof

open Idealize.ShloMosaic Idealize.SL.Sem

section Agree

open Cert.ReferenceIdeal Cert.ReferenceIdeal.Gen Cert.ReferenceIdeal.Read Cert.Spec

/-- The reference's three composed terms at arguments y that equal arguments x with no negative index word are the
    specification's three functions of x. -/
theorem results_of_agree
    {x0 y0 : (⟨S100000x128, .f32⟩ : BufTy).Contents (Elt Ideal)}
    {x1 y1 : (⟨S500000, .i32⟩ : BufTy).Contents (Elt Ideal)}
    {x2 y2 : (⟨S500000, .i32⟩ : BufTy).Contents (Elt Ideal)}
    {x3 y3 : (⟨S500000x5, .f32⟩ : BufTy).Contents (Elt Ideal)}
    {x4 y4 : (⟨S256x128, .f32⟩ : BufTy).Contents (Elt Ideal)}
    {x5 y5 : (⟨S128, .f32⟩ : BufTy).Contents (Elt Ideal)}
    {x6 y6 : (⟨S128x128, .f32⟩ : BufTy).Contents (Elt Ideal)}
    {x7 y7 : (⟨S128, .f32⟩ : BufTy).Contents (Elt Ideal)}
    {x8 y8 : (⟨S128x128, .f32⟩ : BufTy).Contents (Elt Ideal)}
    {x9 y9 : (⟨S128, .f32⟩ : BufTy).Contents (Elt Ideal)}
    {x10 y10 : (⟨S128x10, .f32⟩ : BufTy).Contents (Elt Ideal)}
    {x11 y11 : (⟨S10, .f32⟩ : BufTy).Contents (Elt Ideal)}
    {x12 y12 : (⟨S5x128, .f32⟩ : BufTy).Contents (Elt Ideal)}
    {x13 y13 : (⟨S128, .f32⟩ : BufTy).Contents (Elt Ideal)}
    {x14 y14 : (⟨S128x128, .f32⟩ : BufTy).Contents (Elt Ideal)}
    {x15 y15 : (⟨S128, .f32⟩ : BufTy).Contents (Elt Ideal)}
    {x16 y16 : (⟨S128x128, .f32⟩ : BufTy).Contents (Elt Ideal)}
    {x17 y17 : (⟨S128, .f32⟩ : BufTy).Contents (Elt Ideal)}
    {x18 y18 : (⟨S128x256, .f32⟩ : BufTy).Contents (Elt Ideal)}
    {x19 y19 : (⟨S256, .f32⟩ : BufTy).Contents (Elt Ideal)}
    (e0 : y0 = x0) (e1 : y1 = x1) (e2 : y2 = x2) (e3 : y3 = x3) (e4 : y4 = x4) (e5 : y5 = x5) (e6 : y6 = x6) (e7 : y7 = x7) (e8 : y8 = x8) (e9 : y9 = x9) (e10 : y10 = x10) (e11 : y11 = x11) (e12 : y12 = x12) (e13 : y13 = x13) (e14 : y14 = x14) (e15 : y15 = x15) (e16 : y16 = x16) (e17 : y17 = x17) (e18 : y18 = x18) (e19 : y19 = x19)
    (hp : (∀ i, 0 ≤ (x1 i).toInt) ∧ (∀ i, 0 ≤ (x2 i).toInt)) :
    val_main_v79 (F := Ideal) y0 y1 y2 y3 y4 y5 y6 y7 y8 y9 y10 y11 y12 y13 y14 y15 y16 y17 y18 y19
        = affArr x0 x1 x2 x3 (aparams x4 x5 x6 x7 x8 x9 x10 x11 x12 x13 x14 x15 x16 x17 x18 x19)
      ∧ val_main_v81 (F := Ideal) y0 y1 y2 y3 y4 y5 y6 y7 y8 y9 y10 y11 y12 y13 y14 y15 y16 y17 y18 y19
        = lossMean x0 x1 x2 x3 (aparams x4 x5 x6 x7 x8 x9 x10 x11 x12 x13 x14 x15 x16 x17 x18 x19)
      ∧ val_main_v83 (F := Ideal) y0 y1 y2 y4 y5 y6 y7 y8 y9 y10 y11
        = klMean x0 x1 x2 (aparams x4 x5 x6 x7 x8 x9 x10 x11 x12 x13 x14 x15 x16 x17 x18 x19) := by
  subst e0 e1 e2 e3 e4 e5 e6 e7 e8 e9 e10 e11 e12 e13 e14 e15 e16 e17 e18 e19
  exact ⟨Cert.RefValue.ref_aff y0 y1 y2 y3 y4 y5 y6 y7 y8 y9 y10 y11 y12 y13 y14 y15 y16 y17 y18 y19 hp.1 hp.2,
    Cert.RefValue.ref_loss y0 y1 y2 y3 y4 y5 y6 y7 y8 y9 y10 y11 y12 y13 y14 y15 y16 y17 y18 y19 hp.1 hp.2,
    Cert.RefValue.ref_kl y0 y1 y2 y3 y4 y5 y6 y7 y8 y9 y10 y11 y12 y13 y14 y15 y16 y17 y18 y19 hp.1 hp.2⟩

end Agree

/-- The printed kernel runs and keeps its arguments. -/
theorem frame_kernel : Cert.frame_Kernel := fun m ρ _ => Cert.Kernel.GenP.frame m ρ

/-- The kernel on the extended reals runs and keeps its arguments. -/
theorem frame_kernelIdeal : Cert.frame_KernelIdeal := fun m ρ _ => Cert.KernelIdeal.GenP.frame m ρ

/-- The reference on the extended reals runs and keeps its arguments: the last part of its run's statement. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The two programs on the extended reals end with equal results: the specification's three functions of the arguments. -/
theorem algebraic : Cert.algebraic_KernelIdeal_ReferenceIdeal := by
  intro m ρ m' ρ' hpre hagree
  refine ⟨_, _, _, Cert.KernelRun.run m ρ, ?_⟩
  refine (θ_run Cert.ReferenceIdeal.defs _ _).mono (fun _ h c => ?_) (Cert.ReferenceIdeal.Value.run (F := Ideal) m' ρ')
  obtain ⟨e0, e1, e2, e3, e4, e5, e6, e7, e8, e9, e10, e11, e12, e13, e14, e15, e16, e17, e18, e19⟩ := hagree c
  obtain ⟨r0, r1, r2, rest⟩ := h c
  have K := results_of_agree e0 e1 e2 e3 e4 e5 e6 e7 e8 e9 e10 e11 e12 e13 e14 e15 e16 e17 e18 e19 (Cert.Index.pre_nonneg _ _ _ _ _ _ _ _ _ _ _ _ _ _ _ _ _ _ _ _ (hpre c))
  exact ⟨r0.trans ((Cert.ReferenceIdeal.Read.val_main_v79_eq m' c).trans K.1),
    r1.trans ((Cert.ReferenceIdeal.Read.val_main_v81_eq m' c).trans K.2.1),
    r2.trans ((Cert.ReferenceIdeal.Read.val_main_v83_eq m' c).trans K.2.2), rest⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
